-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S1x512x512x2 : S_.BroadcastsInDim S1x512x512x2 (![] : Fin 0 → Fin S1x512x512x2.rank)
  reducesTo_S1x512x512x2_S_d0_1_2_3 : S1x512x512x2.ReducesTo [0, 1, 2, 3] S_
  bcast_S_S1x512x512x1 : S_.BroadcastsInDim S1x512x512x1 (![] : Fin 0 → Fin S1x512x512x1.rank)
  reducesTo_S1x512x512x1_S_d0_1_2_3 : S1x512x512x1.ReducesTo [0, 1, 2, 3] S_
  bcast_S_S512 : S_.BroadcastsInDim S512 (![] : Fin 0 → Fin S512.rank)
  reducesTo_S512_S_d0 : S512.ReducesTo [0] S_
  bcast_S_S512x512x2 : S_.BroadcastsInDim S512x512x2 (![] : Fin 0 → Fin S512x512x2.rank)
  reducesTo_S512x512x2_S_d0_1_2 : S512x512x2.ReducesTo [0, 1, 2] S_
  bcast_S_S512x512x1 : S_.BroadcastsInDim S512x512x1 (![] : Fin 0 → Fin S512x512x1.rank)
  reducesTo_S512x512x1_S_d0_1_2 : S512x512x1.ReducesTo [0, 1, 2] S_

variable [Facts]

def fn_part5 {F : FTy → Type} [FloatOps F] (main_v83 : IVec S_ 1) (main_v84 : FVec F S512x512x1 .f32) (main_cst_32 : FVec F S_ .f32) : IVec S_ 1 :=
  let main_v85 : FVec F S512x512x1 .f32 := broadcastInDim S512x512x1 ![] bcast_S_S512x512x1 main_cst_32
  let main_v86 : IVec S512x512x1 1 := cmpf .olt main_v84 main_v85
  let main_c_33 : IVec S_ 1 := constantI S_ 1 1#1
  let main_v87 : IVec S_ 1 := (fun x v => Host.reduce IntOp.andi x v reducesTo_S512x512x1_S_d0_1_2 h_S_) main_v86 main_c_33
  let main_v88 : IVec S_ 1 := andi main_v83 main_v87
  main_v88

def fn_part4 {F : FTy → Type} [FloatOps F] (main_arg14 : FVec F S512x512x2 .f32) (main_arg15 : FVec F S512x512x2 .f32) (main_arg16 : FVec F S512x512x1 .f32) (main_arg17 : FVec F S512x512x1 .f32) (main_v63 : IVec S_ 1) (main_v67 : IVec S_ 1) : IVec S_ 1 :=
  let main_v68 : IVec S_ 1 := andi main_v63 main_v67
  let main_v69 : FVec F S512x512x2 .f32 := Host.absf main_arg14
  let main_cst_26 : FVec F S_ .f32 := constant S_ .f32 0x7F800000#32
  let main_v70 : FVec F S512x512x2 .f32 := broadcastInDim S512x512x2 ![] bcast_S_S512x512x2 main_cst_26
  let main_v71 : IVec S512x512x2 1 := cmpf .olt main_v69 main_v70
  let main_c_27 : IVec S_ 1 := constantI S_ 1 1#1
  let main_v72 : IVec S_ 1 := (fun x v => Host.reduce IntOp.andi x v reducesTo_S512x512x2_S_d0_1_2 h_S_) main_v71 main_c_27
  let main_v73 : IVec S_ 1 := andi main_v68 main_v72
  let main_v74 : FVec F S512x512x2 .f32 := Host.absf main_arg15
  let main_cst_28 : FVec F S_ .f32 := constant S_ .f32 0x7F800000#32
  let main_v75 : FVec F S512x512x2 .f32 := broadcastInDim S512x512x2 ![] bcast_S_S512x512x2 main_cst_28
  let main_v76 : IVec S512x512x2 1 := cmpf .olt main_v74 main_v75
  let main_c_29 : IVec S_ 1 := constantI S_ 1 1#1
  let main_v77 : IVec S_ 1 := (fun x v => Host.reduce IntOp.andi x v reducesTo_S512x512x2_S_d0_1_2 h_S_) main_v76 main_c_29
  let main_v78 : IVec S_ 1 := andi main_v73 main_v77
  let main_v79 : FVec F S512x512x1 .f32 := Host.absf main_arg16
  let main_cst_30 : FVec F S_ .f32 := constant S_ .f32 0x7F800000#32
  let main_v80 : FVec F S512x512x1 .f32 := broadcastInDim S512x512x1 ![] bcast_S_S512x512x1 main_cst_30
  let main_v81 : IVec S512x512x1 1 := cmpf .olt main_v79 main_v80
  let main_c_31 : IVec S_ 1 := constantI S_ 1 1#1
  let main_v82 : IVec S_ 1 := (fun x v => Host.reduce IntOp.andi x v reducesTo_S512x512x1_S_d0_1_2 h_S_) main_v81 main_c_31
  let main_v83 : IVec S_ 1 := andi main_v78 main_v82
  let main_v84 : FVec F S512x512x1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512x2 .f32 := Host.absf main_arg12
  let main_cst_22 : FVec F S_ .f32 := constant S_ .f32 0x7F800000#32
  let main_v60 : FVec F S512x512x2 .f32 := broadcastInDim S512x512x2 ![] bcast_S_S512x512x2 main_cst_22
  let main_v61 : IVec S512x512x2 1 := cmpf .olt main_v59 main_v60
  let main_c_23 : IVec S_ 1 := constantI S_ 1 1#1
  let main_v62 : IVec S_ 1 := (fun x v => Host.reduce IntOp.andi x v reducesTo_S512x512x2_S_d0_1_2 h_S_) main_v61 main_c_23
  let main_v63 : IVec S_ 1 := andi main_v58 main_v62
  let main_v64 : FVec F S512x512x2 .f32 := Host.absf main_arg13
  let main_cst_24 : FVec F S_ .f32 := constant S_ .f32 0x7F800000#32
  let main_v65 : FVec F S512x512x2 .f32 := broadcastInDim S512x512x2 ![] bcast_S_S512x512x2 main_cst_24
  let main_v66 : IVec S512x512x2 1 := cmpf .olt main_v64 main_v65
  let main_c_25 : IVec S_ 1 := constantI S_ 1 1#1
  let main_v67 : IVec S_ 1 := (fun x v => Host.reduce IntOp.andi x v reducesTo_S512x512x2_S_d0_1_2 h_S_) main_v66 main_c_25
  fn_part4 (F := F) main_arg14 main_arg15 main_arg16 main_arg17 main_v63 main_v67

def fn_part2 {F : FTy → Type} [FloatOps F] (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v33 : IVec S_ 1) : IVec S_ 1 :=
  let main_v34 : FVec F S1x512x512x2 .f32 := Host.absf main_arg7
  let main_cst_12 : FVec F S_ .f32 := constant S_ .f32 0x7F800000#32
  let main_v35 : FVec F S1x512x512x2 .f32 := broadcastInDim S1x512x512x2 ![] bcast_S_S1x512x512x2 main_cst_12
  let main_v36 : IVec S1x512x512x2 1 := cmpf .olt main_v34 main_v35
  let main_c_13 : IVec S_ 1 := constantI S_ 1 1#1
  let main_v37 : IVec S_ 1 := (fun x v => Host.reduce IntOp.andi x v reducesTo_S1x512x512x2_S_d0_1_2_3 h_S_) main_v36 main_c_13
  let main_v38 : IVec S_ 1 := andi main_v33 main_v37
  let main_v39 : FVec F S1x512x512x1 .f32 := Host.absf main_arg8
  let main_cst_14 : FVec F S_ .f32 := constant S_ .f32 0x7F800000#32
  let main_v40 : FVec F S1x512x512x1 .f32 := broadcastInDim S1x512x512x1 ![] bcast_S_S1x512x512x1 main_cst_14
  let main_v41 : IVec S1x512x512x1 1 := cmpf .olt main_v39 main_v40
  let main_c_15 : IVec S_ 1 := constantI S_ 1 1#1
  let main_v42 : IVec S_ 1 := (fun x v => Host.reduce IntOp.andi x v reducesTo_S1x512x512x1_S_d0_1_2_3 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_v48 main_v49 main_v50

def fn_part1 {F : FTy → Type} [FloatOps F] (main_arg4 : FVec F S1x512x512x2 .f32) (main_arg5 : FVec F S1x512x512x1 .f32) (main_arg6 : FVec F S1x512x512x1 .f32) (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) (main_v13 : IVec S_ 1) (main_v16 : IVec S1x512x512x2 1) : IVec S_ 1 :=
  let main_c_5 : IVec S_ 1 := constantI S_ 1 1#1
  let main_v17 : IVec S_ 1 := (fun x v => Host.reduce IntOp.andi x v reducesTo_S1x512x512x2_S_d0_1_2_3 h_S_) main_v16 main_c_5
  let main_v18 : IVec S_ 1 := andi main_v13 main_v17
  let main_v19 : FVec F S1x512x512x2 .f32 := Host.absf main_arg4
  let main_cst_6 : FVec F S_ .f32 := constant S_ .f32 0x7F800000#32
  let main_v20 : FVec F S1x512x512x2 .f32 := broadcastInDim S1x512x512x2 ![] bcast_S_S1x512x512x2 main_cst_6
  let main_v21 : IVec S1x512x512x2 1 := cmpf .olt main_v19 main_v20
  let main_c_7 : IVec S_ 1 := constantI S_ 1 1#1
  let main_v22 : IVec S_ 1 := (fun x v => Host.reduce IntOp.andi x v reducesTo_S1x512x512x2_S_d0_1_2_3 h_S_) main_v21 main_c_7
  let main_v23 : IVec S_ 1 := andi main_v18 main_v22
  let main_v24 : FVec F S1x512x512x1 .f32 := Host.absf main_arg5
  let main_cst_8 : FVec F S_ .f32 := constant S_ .f32 0x7F800000#32
  let main_v25 : FVec F S1x512x512x1 .f32 := broadcastInDim S1x512x512x1 ![] bcast_S_S1x512x512x1 main_cst_8
  let main_v26 : IVec S1x512x512x1 1 := cmpf .olt main_v24 main_v25
  let main_c_9 : IVec S_ 1 := constantI S_ 1 1#1
  let main_v27 : IVec S_ 1 := (fun x v => Host.reduce IntOp.andi x v reducesTo_S1x512x512x1_S_d0_1_2_3 h_S_) main_v26 main_c_9
  let main_v28 : IVec S_ 1 := andi main_v23 main_v27
  let main_v29 : FVec F S1x512x512x1 .f32 := Host.absf main_arg6
  let main_cst_10 : FVec F S_ .f32 := constant S_ .f32 0x7F800000#32
  let main_v30 : FVec F S1x512x512x1 .f32 := broadcastInDim S1x512x512x1 ![] bcast_S_S1x512x512x1 main_cst_10
  let main_v31 : IVec S1x512x512x1 1 := cmpf .olt main_v29 main_v30
  let main_c_11 : IVec S_ 1 := constantI S_ 1 1#1
  let main_v32 : IVec S_ 1 := (fun x v => Host.reduce IntOp.andi x v reducesTo_S1x512x512x1_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S64x512 .f32) (main_arg1 : FVec F S1x512x512x2 .f32) (main_arg2 : FVec F S1x512x512x2 .f32) (main_arg3 : FVec F S1x512x512x2 .f32) (main_arg4 : FVec F S1x512x512x2 .f32) (main_arg5 : FVec F S1x512x512x1 .f32) (main_arg6 : FVec F S1x512x512x1 .f32) (main_arg7 : FVec F S1x512x512x2 .f32) (main_arg8 : FVec F S1x512x512x1 .f32) (main_arg9 : FVec F S512 .f32) (main_arg10 : FVec F S512 .f32) (main_arg11 : FVec F S512 .f32) (main_arg12 : FVec F S512x512x2 .f32) (main_arg13 : FVec F S512x512x2 .f32) (main_arg14 : FVec F S512x512x2 .f32) (main_arg15 : FVec F S512x512x2 .f32) (main_arg16 : FVec F S512x512x1 .f32) (main_arg17 : FVec F S512x512x1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S1x512x512x2 .f32 := Host.absf main_arg1
  let main_cst_0 : FVec F S_ .f32 := constant S_ .f32 0x7F800000#32
  let main_v5 : FVec F S1x512x512x2 .f32 := broadcastInDim S1x512x512x2 ![] bcast_S_S1x512x512x2 main_cst_0
  let main_v6 : IVec S1x512x512x2 1 := cmpf .olt main_v4 main_v5
  let main_c_1 : IVec S_ 1 := constantI S_ 1 1#1
  let main_v7 : IVec S_ 1 := (fun x v => Host.reduce IntOp.andi x v reducesTo_S1x512x512x2_S_d0_1_2_3 h_S_) main_v6 main_c_1
  let main_v8 : IVec S_ 1 := andi main_v3 main_v7
  let main_v9 : FVec F S1x512x512x2 .f32 := Host.absf main_arg2
  let main_cst_2 : FVec F S_ .f32 := constant S_ .f32 0x7F800000#32
  let main_v10 : FVec F S1x512x512x2 .f32 := broadcastInDim S1x512x512x2 ![] bcast_S_S1x512x512x2 main_cst_2
  let main_v11 : IVec S1x512x512x2 1 := cmpf .olt main_v9 main_v10
  let main_c_3 : IVec S_ 1 := constantI S_ 1 1#1
  let main_v12 : IVec S_ 1 := (fun x v => Host.reduce IntOp.andi x v reducesTo_S1x512x512x2_S_d0_1_2_3 h_S_) main_v11 main_c_3
  let main_v13 : IVec S_ 1 := andi main_v8 main_v12
  let main_v14 : FVec F S1x512x512x2 .f32 := Host.absf main_arg3
  let main_cst_4 : FVec F S_ .f32 := constant S_ .f32 0x7F800000#32
  let main_v15 : FVec F S1x512x512x2 .f32 := broadcastInDim S1x512x512x2 ![] bcast_S_S1x512x512x2 main_cst_4
  let main_v16 : IVec S1x512x512x2 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S512x512 : Shape := ⟨2, ![512, 512]⟩
abbrev S8x512 : Shape := ⟨2, ![8, 512]⟩
abbrev S8 : Shape := ⟨1, ![8]⟩
abbrev S8x1 : Shape := ⟨2, ![8, 1]⟩
abbrev S1x512 : Shape := ⟨2, ![1, 512]⟩
abbrev S512x1 : Shape := ⟨2, ![512, 1]⟩
abbrev S1 : Shape := ⟨1, ![1]⟩
abbrev S1x1 : Shape := ⟨2, ![1, 1]⟩

abbrev nBuf : Space → Nat
  | .hbm => 60
  | .vmem => 31
  | .smem => 0
  | _ => 0

abbrev bufTy : (tb : Table) → Fin (tcTables nBuf tb) → BufTy
  | .hbm, ⟨0, _⟩ => ⟨S64x512, .f32⟩
  | .hbm, ⟨1, _⟩ => ⟨S1x512x512x2, .f32⟩
  | .hbm, ⟨2, _⟩ => ⟨S1x512x512x2, .f32⟩
  | .hbm, ⟨3, _⟩ => ⟨S1x512x512x2, .f32⟩
  | .hbm, ⟨4, _⟩ => ⟨S1x512x512x2, .f32⟩
  | .hbm, ⟨5, _⟩ => ⟨S1x512x512x1, .f32⟩
  | .hbm, ⟨6, _⟩ => ⟨S1x512x512x1, .f32⟩
  | .hbm, ⟨7, _⟩ => ⟨S1x512x512x2, .f32⟩
  | .hbm, ⟨8, _⟩ => ⟨S1x512x512x1, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512x2, .f32⟩
  | .hbm, ⟨13, _⟩ => ⟨S512x512x2, .f32⟩
  | .hbm, ⟨14, _⟩ => ⟨S512x512x2, .f32⟩
  | .hbm, ⟨15, _⟩ => ⟨S512x512x2, .f32⟩
  | .hbm, ⟨16, _⟩ => ⟨S512x512x1, .f32⟩
  | .hbm, ⟨17, _⟩ => ⟨S512x512x1, .f32⟩
  | .hbm, ⟨18, _⟩ => ⟨S1x512x512x1, .f32⟩
  | .hbm, ⟨19, _⟩ => ⟨S512x512, .f32⟩
  | .hbm, ⟨20, _⟩ => ⟨S1x512x512x1, .f32⟩
  | .hbm, ⟨21, _⟩ => ⟨S512x512, .f32⟩
  | .hbm, ⟨22, _⟩ => ⟨S1x512x512x1, .f32⟩
  | .hbm, ⟨23, _⟩ => ⟨S512x512, .f32⟩
  | .hbm, ⟨24, _⟩ => ⟨S1x512x512x1, .f32⟩
  | .hbm, ⟨25, _⟩ => ⟨S512x512, .f32⟩
  | .hbm, ⟨26, _⟩ => ⟨S1x512x512x1, .f32⟩
  | .hbm, ⟨27, _⟩ => ⟨S512x512, .f32⟩
  | .hbm, ⟨28, _⟩ => ⟨S1x512x512x1, .f32⟩
  | .hbm, ⟨29, _⟩ => ⟨S512x512, .f32⟩
  | .hbm, ⟨30, _⟩ => ⟨S1x512x512x1, .f32⟩
  | .hbm, ⟨31, _⟩ => ⟨S512x512, .f32⟩
  | .hbm, ⟨32, _⟩ => ⟨S1x512x512x1, .f32⟩
  | .hbm, ⟨33, _⟩ => ⟨S512x512, .f32⟩
  | .hbm, ⟨34, _⟩ => ⟨S1x512x512x1, .f32⟩
  | .hbm, ⟨35, _⟩ => ⟨S512x512, .f32⟩
  | .hbm, ⟨36, _⟩ => ⟨S1x512x512x1, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512x1, .f32⟩
  | .hbm, ⟨42, _⟩ => ⟨S512x512, .f32⟩
  | .hbm, ⟨43, _⟩ => ⟨S512x512x1, .f32⟩
  | .hbm, ⟨44, _⟩ => ⟨S512x512, .f32⟩
  | .hbm, ⟨45, _⟩ => ⟨S512x512x1, .f32⟩
  | .hbm, ⟨46, _⟩ => ⟨S512x512, .f32⟩
  | .hbm, ⟨47, _⟩ => ⟨S512x512x1, .f32⟩
  | .hbm, ⟨48, _⟩ => ⟨S512x512, .f32⟩
  | .hbm, ⟨49, _⟩ => ⟨S512x512x1, .f32⟩
  | .hbm, ⟨50, _⟩ => ⟨S512x512, .f32⟩
  | .hbm, ⟨51, _⟩ => ⟨S512x512x1, .f32⟩
  | .hbm, ⟨52, _⟩ => ⟨S512x512, .f32⟩
  | .hbm, ⟨53, _⟩ => ⟨S512x512x1, .f32⟩
  | .hbm, ⟨54, _⟩ => ⟨S512x512, .f32⟩
  | .hbm, ⟨55, _⟩ => ⟨S512x512x1, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S64x512, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_off1 (k0_t1 : Fin k0_t1_loop.trips) : Fin 2 → Nat :=
  let c0_i32 : BitVec 32 := 0#32
  let c1_i32 : BitVec 32 := 1#32
  let arg30 : BitVec 32 := Scf.iv c0_i32 c1_i32 k0_t1
  let v30 : Index := Scalar.indexCast arg30
  let c0_11 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  slices_S1x512x512x2_S1x512x512x1_0_0_0_0 : S1x512x512x2.Slices ![0, 0, 0, 0] S1x512x512x1
  shapeCasts_S1x512x512x1_S512x512 : S1x512x512x1.ShapeCasts S512x512
  slices_S1x512x512x2_S1x512x512x1_0_0_0_1 : S1x512x512x2.Slices ![0, 0, 0, 1] S1x512x512x1
  slices_S512x512x2_S512x512x1_0_0_0 : S512x512x2.Slices ![0, 0, 0] S512x512x1
  shapeCasts_S512x512x1_S512x512 : S512x512x1.ShapeCasts S512x512
  slices_S512x512x2_S512x512x1_0_0_1 : S512x512x2.Slices ![0, 0, 1] S512x512x1
  inb_S8x512_S8x512_0_0 : ∀ a, (![0, 0] : Fin 2 → Nat) a + S8x512.size a ≤ S8x512.size a
  h_S8x512 : 0 < S8x512.numel
  reduces_S8x512_S8 : S8x512.Reduces [1] S8
  shapeCasts_S8_S8x1 : S8.ShapeCasts S8x1
  broadcasts_S8x1_S8x512 : S8x1.Broadcasts S8x512
  inb_S512_S512_0 : ∀ a, (![0] : Fin 1 → Nat) a + S512.size a ≤ S512.size a
  h_S512 : 0 < S512.numel
  shapeCasts_S512_S1x512 : S512.ShapeCasts S1x512
  broadcasts_S1x512_S8x512 : S1x512.Broadcasts S8x512
  shapeCasts_S8x512_S8x512 : S8x512.ShapeCasts S8x512
  h_S1x512 : 0 < S1x512.numel
  shapeCasts_S1x512_S512 : S1x512.ShapeCasts S512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S512x1_S512x512 : S512x1.Broadcasts S512x512
  reduces_S512x512_S512 : S512x512.Reduces [1] S512
  reduces_S512x1_S1 : S512x1.Reduces [0] S1
  shapeCasts_S1_S1x1 : S1.ShapeCasts S1x1
  broadcasts_S1x1_S512x512 : S1x1.Broadcasts S512x512
  reduces_S512x512_S512_2 : S512x512.Reduces [0] S512
  hrank0 : 0 < grid0.rank
  k0_t1_ok : k0_t1_loop.OK
  k0_off1_inb : ∀ k0_t1 : Fin k0_t1_loop.trips, ∀ a, (k0_off1 k0_t1) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S64x512.size a
  hwx0_0 : ∀ i : grid0.Coords, EltTy.bits .f32 = 32 ∨ (Rect.block (s := S64x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .f32 = 32 ∨ (Rect.block (s := S512x512) S512x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .f32 = 32 ∨ (Rect.block (s := S512x512) S512x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .f32 = 32 ∨ (Rect.block (s := S512x512) S512x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .f32 = 32 ∨ (Rect.block (s := S512x512) S512x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S512x512.size a
  hwx0_21 : ∀ i : grid0.Coords, EltTy.bits .f32 = 32 ∨ (Rect.block (s := S512x512) S512x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .f32 = 32 ∨ (Rect.block (s := S512x512) S512x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x512.size a ≤ S512x512.size a
  hwx0_23 : ∀ i : grid0.Coords, EltTy.bits .f32 = 32 ∨ (Rect.block (s := S512x512) S512x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512x512.size a ≤ S512x512.size a
  hwx0_24 : ∀ i : grid0.Coords, EltTy.bits .f32 = 32 ∨ (Rect.block (s := S512x512) S512x512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S512x512.size a
  hwx0_25 : ∀ i : grid0.Coords, EltTy.bits .f32 = 32 ∨ (Rect.block (s := S512x512) S512x512.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S512x512.size a
  hwx0_26 : ∀ i : grid0.Coords, EltTy.bits .f32 = 32 ∨ (Rect.block (s := S512x512) S512x512.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S8x512.size a ≤ S64x512.size a
  hwx0_27 : ∀ i : grid0.Coords, EltTy.bits .f32 = 32 ∨ (Rect.block (s := S64x512) S8x512.size (cc0_transform_27 i) (hinb0_27 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg11) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v30) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v32) S512x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v34) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v36) S512x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v38) S512x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v39) S512x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v40) S512x512.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v41) S8x512.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S64x512 : Shape := ⟨2, ![64, 512]⟩
abbrev S1x512x512x2 : Shape := ⟨4, ![1, 512, 512, 2]⟩
abbrev S1x512x512x1 : Shape := ⟨4, ![1, 512, 512, 1]⟩
abbrev S512 : Shape := ⟨1, ![512]⟩
abbrev S512x512x2 : Shape := ⟨3, ![512, 512, 2]⟩
abbrev S512x512x1 : Shape := ⟨3, ![512, 512, 1]⟩
abbrev S_ : Shape := ⟨0, ![]⟩
abbrev S64 : Shape := ⟨1, ![64]⟩
abbrev S64x1 : Shape := ⟨2, ![64, 1]⟩
abbrev S1x512 : Shape := ⟨2, ![1, 512]⟩
abbrev S64x512x1x1 : Shape := ⟨4, ![64, 512, 1, 1]⟩
abbrev S64x512x512x2 : Shape := ⟨4, ![64, 512, 512, 2]⟩
abbrev S64x1x1x1 : Shape := ⟨4, ![64, 1, 1, 1]⟩
abbrev S64x512x512 : Shape := ⟨3, ![64, 512, 512]⟩
abbrev S64x512x512x1 : Shape := ⟨4, ![64, 512, 512, 1]⟩
abbrev S64x512x1 : Shape := ⟨3, ![64, 512, 1]⟩
abbrev S512x1 : Shape := ⟨2, ![512, 1]⟩
abbrev S1x512x1 : Shape := ⟨3, ![1, 512, 1]⟩

abbrev nBuf : Space → Nat
  | .hbm => 192
  | .vmem => 0
  | .smem => 0
  | _ => 0

abbrev hbmTy0_0 (i : Nat) : BufTy := match i % 128 with
  | 0 => ⟨S64x512, .f32⟩
  | 1 => ⟨S1x512x512x2, .f32⟩
  | 2 => ⟨S1x512x512x2, .f32⟩
  | 3 => ⟨S1x512x512x2, .f32⟩
  | 4 => ⟨S1x512x512x2, .f32⟩
  | 5 => ⟨S1x512x512x1, .f32⟩
  | 6 => ⟨S1x512x512x1, .f32⟩
  | 7 => ⟨S1x512x512x2, .f32⟩
  | 8 => ⟨S1x512x512x1, .f32⟩
  | 9 => ⟨S512, .f32⟩
  | 10 => ⟨S512, .f32⟩
  | 11 => ⟨S512, .f32⟩
  | 12 => ⟨S512x512x2, .f32⟩
  | 13 => ⟨S512x512x2, .f32⟩
  | 14 => ⟨S512x512x2, .f32⟩
  | 15 => ⟨S512x512x2, .f32⟩
  | 16 => ⟨S512x512x1, .f32⟩
  | 17 => ⟨S512x512x1, .f32⟩
  | 18 => ⟨S_, .f32⟩
  | 19 => ⟨S64, .f32⟩
  | 20 => ⟨S64x1, .f32⟩
  | 21 => ⟨S_, .f32⟩
  | 22 => ⟨S64x1, .f32⟩
  | 23 => ⟨S64x1, .f32⟩
  | 24 => ⟨S64x512, .f32⟩
  | 25 => ⟨S64x512, .f32⟩
  | 26 => ⟨S64x512, .f32⟩
  | 27 => ⟨S_, .f32⟩
  | 28 => ⟨S64, .f32⟩
  | 29 => ⟨S64x1, .f32⟩
  | 30 => ⟨S_, .f32⟩
  | 31 => ⟨S64x1, .f32⟩
  | 32 => ⟨S64x1, .f32⟩
  | 33 => ⟨S64x512, .f32⟩
  | 34 => ⟨S64x512, .f32⟩
  | 35 => ⟨S_, .f32⟩
  | 36 => ⟨S64x1, .f32⟩
  | 37 => ⟨S64x1, .f32⟩
  | 38 => ⟨S64x1, .f32⟩
  | 39 => ⟨S64x512, .f32⟩
  | 40 => ⟨S64x512, .f32⟩
  | 41 => ⟨S1x512, .f32⟩
  | 42 => ⟨S64x512, .f32⟩
  | 43 => ⟨S64x512, .f32⟩
  | 44 => ⟨S1x512, .f32⟩
  | 45 => ⟨S64x512, .f32⟩
  | 46 => ⟨S64x512, .f32⟩
  | 47 => ⟨S64x512x1x1, .f32⟩
  | 48 => ⟨S64x512x512x2, .f32⟩
  | 49 => ⟨S64x512x512x2, .f32⟩
  | 50 => ⟨S64x512x512x2, .f32⟩
  | 51 => ⟨S64x512x512x2, .f32⟩
  | 52 => ⟨S64x512x512x2, .f32⟩
  | 53 => ⟨S_, .f32⟩
  | 54 => ⟨S64, .f32⟩
  | 55 => ⟨S64x1x1x1, .f32⟩
  | 56 => ⟨S_, .f32⟩
  | 57 => ⟨S64x1x1x1, .f32⟩
  | 58 => ⟨S64x1x1x1, .f32⟩
  | 59 => ⟨S64x512x512x2, .f32⟩
  | 60 => ⟨S64x512x512x2, .f32⟩
  | 61 => ⟨S64x512x512x2, .f32⟩
  | 62 => ⟨S_, .f32⟩
  | 63 => ⟨S64, .f32⟩
  | 64 => ⟨S64x1x1x1, .f32⟩
  | 65 => ⟨S_, .f32⟩
  | 66 => ⟨S64x1x1x1, .f32⟩
  | 67 => ⟨S64x1x1x1, .f32⟩
  | 68 => ⟨S64x512x512x2, .f32⟩
  | 69 => ⟨S64x512x512x2, .f32⟩
  | 70 => ⟨S_, .f32⟩
  | 71 => ⟨S64x1x1x1, .f32⟩
  | 72 => ⟨S64x1x1x1, .f32⟩
  | 73 => ⟨S64x1x1x1, .f32⟩
  | 74 => ⟨S64x512x512x2, .f32⟩
  | 75 => ⟨S64x512x512x2, .f32⟩
  | 76 => ⟨S1x512x512x2, .f32⟩
  | 77 => ⟨S64x512x512x2, .f32⟩
  | 78 => ⟨S64x512x512x2, .f32⟩
  | 79 => ⟨S1x512x512x2, .f32⟩
  | 80 => ⟨S64x512x512x2, .f32⟩
  | 81 => ⟨S64x512x512x2, .f32⟩
  | 82 => ⟨S_, .f32⟩
  | 83 => ⟨S64x512x512x2, .f32⟩
  | 84 => ⟨S64x512x512x2, .i1⟩
  | 85 => ⟨S_, .f32⟩
  | 86 => ⟨S64x512x512x2, .f32⟩
  | 87 => ⟨S64x512x512x2, .f32⟩
  | 88 => ⟨S64x512x512x2, .f32⟩
  | 89 => ⟨S64x512x512x2, .f32⟩
  | 90 => ⟨S64x512x512x2, .f32⟩
  | 91 => ⟨S_, .f32⟩
  | 92 => ⟨S64x512x512, .f32⟩
  | 93 => ⟨S64x512x512x1, .f32⟩
  | 94 => ⟨S64x512x512x1, .f32⟩
  | 95 => ⟨S64x512x512x1, .f32⟩
  | 96 => ⟨S64x512x512x2, .f32⟩
  | 97 => ⟨S64x512x512x2, .f32⟩
  | 98 => ⟨S_, .f32⟩
  | 99 => ⟨S64x512x512, .f32⟩
  | 100 => ⟨S64x512x512x1, .f32⟩
  | 101 => ⟨S64x512x512x1, .f32⟩
  | 102 => ⟨S64x512x512x1, .f32⟩
  | 103 => ⟨S64x512x512x2, .f32⟩
  | 104 => ⟨S_, .f32⟩
  | 105 => ⟨S64, .f32⟩
  | 106 => ⟨S64x1x1x1, .f32⟩
  | 107 => ⟨S_, .f32⟩
  | 108 => ⟨S64x1x1x1, .f32⟩
  | 109 => ⟨S64x1x1x1, .f32⟩
  | 110 => ⟨S64x512x512x2, .f32⟩
  | 111 => ⟨S64x512x512x2, .f32⟩
  | 112 => ⟨S64x512x512x2, .f32⟩
  | 113 => ⟨S_, .f32⟩
  | 114 => ⟨S64, .f32⟩
  | 115 => ⟨S64x1x1x1, .f32⟩
  | 116 => ⟨S_, .f32⟩
  | 117 => ⟨S64x1x1x1, .f32⟩
  | 118 => ⟨S64x1x1x1, .f32⟩
  | 119 => ⟨S64x512x512x2, .f32⟩
  | 120 => ⟨S64x512x512x2, .f32⟩
  | 121 => ⟨S_, .f32⟩
  | 122 => ⟨S64x1x1x1, .f32⟩
  | 123 => ⟨S64x1x1x1, .f32⟩
  | 124 => ⟨S64x1x1x1, .f32⟩
  | 125 => ⟨S64x512x512x2, .f32⟩
  | 126 => ⟨S64x512x512x2, .f32⟩
  | 127 => ⟨S1x512x512x2, .f32⟩
  | _ => ⟨S64x512, .f32⟩

abbrev hbmTy0_1 (i : Nat) : BufTy := match i % 128 with
  | 0 => ⟨S64x512x512x2, .f32⟩
  | 1 => ⟨S64x512x512x2, .f32⟩
  | 2 => ⟨S1x512x512x2, .f32⟩
  | 3 => ⟨S64x512x512x2, .f32⟩
  | 4 => ⟨S64x512x512x2, .f32⟩
  | 5 => ⟨S_, .f32⟩
  | 6 => ⟨S64x512x512x2, .f32⟩
  | 7 => ⟨S64x512x512x2, .i1⟩
  | 8 => ⟨S_, .f32⟩
  | 9 => ⟨S64x512x512x2, .f32⟩
  | 10 => ⟨S64x512x512x2, .f32⟩
  | 11 => ⟨S64x512x512x2, .f32⟩
  | 12 => ⟨S64x512x512x2, .f32⟩
  | 13 => ⟨S64x512x512x2, .f32⟩
  | 14 => ⟨S_, .f32⟩
  | 15 => ⟨S64x512x512, .f32⟩
  | 16 => ⟨S64x512x512x1, .f32⟩
  | 17 => ⟨S64x512x512x1, .f32⟩
  | 18 => ⟨S64x512x512x1, .f32⟩
  | 19 => ⟨S_, .f32⟩
  | 20 => ⟨S64, .f32⟩
  | 21 => ⟨S64x1x1x1, .f32⟩
  | 22 => ⟨S_, .f32⟩
  | 23 => ⟨S64x1x1x1, .f32⟩
  | 24 => ⟨S64x1x1x1, .f32⟩
  | 25 => ⟨S64x512x512x1, .f32⟩
  | 26 => ⟨S64x512x512x1, .f32⟩
  | 27 => ⟨S64x512x512x1, .f32⟩
  | 28 => ⟨S_, .f32⟩
  | 29 => ⟨S64, .f32⟩
  | 30 => ⟨S64x1x1x1, .f32⟩
  | 31 => ⟨S_, .f32⟩
  | 32 => ⟨S64x1x1x1, .f32⟩
  | 33 => ⟨S64x1x1x1, .f32⟩
  | 34 => ⟨S64x512x512x1, .f32⟩
  | 35 => ⟨S64x512x512x1, .f32⟩
  | 36 => ⟨S_, .f32⟩
  | 37 => ⟨S64x1x1x1, .f32⟩
  | 38 => ⟨S64x1x1x1, .f32⟩
  | 39 => ⟨S64x1x1x1, .f32⟩
  | 40 => ⟨S64x512x512x1, .f32⟩
  | 41 => ⟨S64x512x512x1, .f32⟩
  | 42 => ⟨S1x512x512x1, .f32⟩
  | 43 => ⟨S64x512x512x1, .f32⟩
  | 44 => ⟨S64x512x512x1, .f32⟩
  | 45 => ⟨S1x512x512x1, .f32⟩
  | 46 => ⟨S64x512x512x1, .f32⟩
  | 47 => ⟨S64x512x512x1, .f32⟩
  | 48 => ⟨S64x512x512x1, .f32⟩
  | 49 => ⟨S64x512x512x1, .f32⟩
  | 50 => ⟨S_, .f32⟩
  | 51 => ⟨S64x512x1, .f32⟩
  | 52 => ⟨S512x1, .f32⟩
  | 53 => ⟨S1x512x1, .f32⟩
  | 54 => ⟨S64x512x1, .f32⟩
  | 55 => ⟨S64x512x1, .f32⟩
  | 56 => ⟨S_, .f32⟩
  | 57 => ⟨S64x512x1, .f32⟩
  | 58 => ⟨S64x512x1, .i1⟩
  | 59 => ⟨S_, .f32⟩
  | 60 => ⟨S64x512x1, .f32⟩
  | 61 => ⟨S64x512x1, .f32⟩
  | 62 => ⟨S64x512x1, .f32⟩
  | 63 => ⟨S64x512, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_cst_19 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_21 : Ref sig .tc := ⟨.hbm, 147, rfl⟩
abbrev main_v107 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_23 : Ref sig .tc := ⟨.hbm, 156, rfl⟩
abbrev main_v114 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_26 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_27 : Ref sig .tc := ⟨.hbm, 184, rfl⟩
abbrev main_v138 : Ref sig .tc := ⟨.hbm, 185, rfl⟩
abbrev main_v139 : Ref sig .tc := ⟨.hbm, 186, rfl⟩
abbrev main_cst_28 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x512x1x1_0_1 : S64x512.BroadcastsInDim S64x512x1x1 (![0, 1] : Fin 2 → Fin S64x512x1x1.rank)
  bcast_S64x512x1x1_S64x512x512x2_0_1_2_3 : S64x512x1x1.BroadcastsInDim S64x512x512x2 (![0, 1, 2, 3] : Fin 4 → Fin S64x512x512x2.rank)
  bcast_S1x512x512x2_S64x512x512x2_0_1_2_3 : S1x512x512x2.BroadcastsInDim S64x512x512x2 (![0, 1, 2, 3] : Fin 4 → Fin S64x512x512x2.rank)
  reducesTo_S64x512x512x2_S64_d1_2_3 : S64x512x512x2.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x512x512x2_0_1_2_3 : S64x1x1x1.BroadcastsInDim S64x512x512x2 (![0, 1, 2, 3] : Fin 4 → Fin S64x512x512x2.rank)
  bcast_S512x512x2_S1x512x512x2_1_2_3 : S512x512x2.BroadcastsInDim S1x512x512x2 (![1, 2, 3] : Fin 3 → Fin S1x512x512x2.rank)
  bcast_S_S64x512x512x2 : S_.BroadcastsInDim S64x512x512x2 (![] : Fin 0 → Fin S64x512x512x2.rank)
  reducesTo_S64x512x512x2_S64x512x512_d3 : S64x512x512x2.ReducesTo [3] S64x512x512
  bcast_S64x512x512_S64x512x512x1_0_1_2 : S64x512x512.BroadcastsInDim S64x512x512x1 (![0, 1, 2] : Fin 3 → Fin S64x512x512x1.rank)
  bcast_S1x512x512x1_S64x512x512x1_0_1_2_3 : S1x512x512x1.BroadcastsInDim S64x512x512x1 (![0, 1, 2, 3] : Fin 4 → Fin S64x512x512x1.rank)
  concatenates_S64x512x512x1_S64x512x512x1_S64x512x512x2_d3 : Shape.Concatenates [S64x512x512x1, S64x512x512x1] S64x512x512x2 3
  reducesTo_S64x512x512x1_S64_d1_2_3 : S64x512x512x1.ReducesTo [1, 2, 3] S64
  bcast_S64x1x1x1_S64x512x512x1_0_1_2_3 : S64x1x1x1.BroadcastsInDim S64x512x512x1 (![0, 1, 2, 3] : Fin 4 → Fin S64x512x512x1.rank)
  bcast_S512x512x1_S1x512x512x1_1_2_3 : S512x512x1.BroadcastsInDim S1x512x512x1 (![1, 2, 3] : Fin 3 → Fin S1x512x512x1.rank)
  bcast_S64x512x1x1_S64x512x512x1_0_1_2_3 : S64x512x1x1.BroadcastsInDim S64x512x512x1 (![0, 1, 2, 3] : Fin 4 → Fin S64x512x512x1.rank)
  reducesTo_S64x512x512x1_S64x512x1_d1 : S64x512x512x1.ReducesTo [1] S64x512x1
  bcast_S512_S512x1_0 : S512.BroadcastsInDim S512x1 (![0] : Fin 1 → Fin S512x1.rank)
  bcast_S512x1_S1x512x1_1_2 : S512x1.BroadcastsInDim S1x512x1 (![1, 2] : Fin 2 → Fin S1x512x1.rank)
  bcast_S1x512x1_S64x512x1_0_1_2 : S1x512x1.BroadcastsInDim S64x512x1 (![0, 1, 2] : Fin 3 → Fin S64x512x1.rank)
  bcast_S_S64x512x1 : S_.BroadcastsInDim S64x512x1 (![] : Fin 0 → Fin S64x512x1.rank)
  shapeCasts_S64x512x1_S64x512 : S64x512x1.ShapeCasts S64x512

variable [Facts₀]

class Facts : Prop extends Facts₀ where

variable [Facts]
-- ==== Proof.KIndep.lean ====
/-
  The pieces the row loop stores do not depend on what the result's staging block held before the loop: each trip stores
  one row computed from the scratch tile and the operands alone. So the list of the pieces of the trips before `n` is the
  same whatever contents the recursion is started from.
-/
import proofs.«123119_j23965917511984_2_alg».proof.Proof.Gen.Kernel.Loops

set_option maxRecDepth 65536

noncomputable section

namespace Cert.Kernel.Gen

open Idealize.ShloMosaic Idealize.ShloMosaic.TcCoe Idealize.ShloMosaic.Tactic Idealize.SL Idealize.SL.Sem

variable {F : FTy → Type} [FloatOps F]

set_option maxHeartbeats 8000000 in
/-- One trip's piece is the same whatever the block held. -/
theorem trip_indep (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (k : Fin k0_t1_loop.trips) (f f' : BufTy.Contents (Elt F) arg28.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 k).1 f = (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 k).1 f' := by
  unfold trip_k0_t1
  rfl

/-- The pieces of the trips before `n` are the same from any starting contents. -/
theorem pb_indep (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (G G' : BufTy.Contents (Elt F) arg28.view.ty) :
    ∀ n : ℕ, n ≤ k0_t1_loop.trips →
      pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' n
  | 0, _ => rfl
  | n + 1, hn => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G ⟨n, hlt⟩
    have hs' := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' ⟨n, hlt⟩
    rw [show (⟨n, hlt⟩ : Fin k0_t1_loop.trips).val + 1 = n + 1 from rfl] at hs hs'
    rw [hs, hs', pb_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G G' n (Nat.le_of_lt hlt)]
    unfold tripL_k0_t1
    rw [trip_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 ⟨n, hlt⟩ _ (arg28.view.writes (Elt F) G' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' n))]

end Cert.Kernel.Gen

end
-- ==== Proof.KerIndep.lean ====
/-
  The pieces the row loop stores do not depend on what the result's staging block held before the loop: each trip stores
  one row computed from the scratch tile and the operands alone. So the list of the pieces of the trips before `n` is the
  same whatever contents the recursion is started from.
-/
import proofs.«123119_j23965917511984_2_alg».proof.Proof.Gen.KernelIdeal.Loops

set_option maxRecDepth 65536

noncomputable section

namespace Cert.KernelIdeal.Gen

open Idealize.ShloMosaic Idealize.ShloMosaic.TcCoe Idealize.ShloMosaic.Tactic Idealize.SL Idealize.SL.Sem

variable {F : FTy → Type} [FloatOps F]

set_option maxHeartbeats 8000000 in
/-- One trip's piece is the same whatever the block held. -/
theorem trip_indep (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (k : Fin k0_t1_loop.trips) (f f' : BufTy.Contents (Elt F) arg28.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 k).1 f = (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 k).1 f' := by
  unfold trip_k0_t1
  rfl

/-- The pieces of the trips before `n` are the same from any starting contents. -/
theorem pb_indep (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (G G' : BufTy.Contents (Elt F) arg28.view.ty) :
    ∀ n : ℕ, n ≤ k0_t1_loop.trips →
      pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' n
  | 0, _ => rfl
  | n + 1, hn => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G ⟨n, hlt⟩
    have hs' := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' ⟨n, hlt⟩
    rw [show (⟨n, hlt⟩ : Fin k0_t1_loop.trips).val + 1 = n + 1 from rfl] at hs hs'
    rw [hs, hs', pb_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G G' n (Nat.le_of_lt hlt)]
    unfold tripL_k0_t1
    rw [trip_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 ⟨n, hlt⟩ _ (arg28.view.writes (Elt F) G' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G' n))]

end Cert.KernelIdeal.Gen

end
-- ==== Proof.KerPay.lean ====
/-
  One trip of the kernel's row loop as ONE pure function of what it loads: the normalised row `a` (one row of the scratch
  tile, as a [1, 512] vector) and the twenty-six staged operands. The body's arithmetic is cut into named pieces (the
  generated payload terms `k0_pay…`); this module only composes them in the order the body does:
  first layer and its mean, the first rectified normalisation, the two contractions, their mean and row sums of squares, the
  second rectified normalisation, the third contraction, and the last normalisation summed over the first axis.
  Operand names: `x1 x2` the first weight's channels, `x3 x4` its shift's; `x5 x6`, `x7 x8` the two second-layer weights'
  channels, `x9 x10` their shifts; `x11 x12` the third weight's channels, `x13` its shift; `x14` the final shift;
  `x17 x18 x19 x20`, `x21 x22 x23 x24`, `x25 x26` the scales and shifts of the three normalisations.
-/
import proofs.«123119_j23965917511984_2_alg».proof.Proof.Gen.KernelIdeal.Skeleton

noncomputable section

namespace Cert.KerPay

open Cert.KernelIdeal Cert.KernelIdeal.Gen Idealize.ShloMosaic

variable {F : FTy → Type} [FloatOps F]

/-- the first layer, channel 0 and channel 1 -/
def z10 (a : Vec F S1x512 .f32) (x1 x3 : Vec F S512x512 .f32) : FVec F S512x512 .f32 := k0_pay4 a x1 x3
def z11 (a : Vec F S1x512 .f32) (x2 x4 : Vec F S512x512 .f32) : FVec F S512x512 .f32 := k0_pay5 a x2 x4
/-- its mean over all entries of both channels -/
def m1 (a : Vec F S1x512 .f32) (x1 x2 x3 x4 : Vec F S512x512 .f32) : FVec F S1x1 .f32 := k0_pay10 a x1 x2 x3 x4
/-- the first rectified normalisation, channel 0 and channel 1 -/
def l10 (a : Vec F S1x512 .f32) (x1 x2 x3 x4 x17 x19 : Vec F S512x512 .f32) : FVec F S512x512 .f32 :=
  k0_pay12 (z10 a x1 x3) (z11 a x2 x4) (k0_pay6 x17) (k0_pay8 x19) (m1 a x1 x2 x3 x4)
def l11 (a : Vec F S1x512 .f32) (x1 x2 x3 x4 x18 x20 : Vec F S512x512 .f32) : FVec F S512x512 .f32 :=
  k0_pay13 (z10 a x1 x3) (z11 a x2 x4) (k0_pay7 x18) (k0_pay9 x20) (m1 a x1 x2 x3 x4)
/-- the two contractions of the second layer -/
def l21 (L0 L1 : FVec F S512x512 .f32) (x5 x6 x9 : Vec F S512x512 .f32) : FVec F S512x512 .f32 :=
  k0_pay16 L0 L1 (k0_pay14 x5) (k0_pay15 x6) x9
def l22 (L0 L1 : FVec F S512x512 .f32) (x7 x8 x10 : Vec F S512x512 .f32) : FVec F S512x512 .f32 :=
  k0_pay17 L0 L1 x7 x8 x10
/-- their mean, and the row sums of the squares of the first -/
def m2 (L0 L1 : FVec F S512x512 .f32) (x5 x6 x7 x8 x9 x10 : Vec F S512x512 .f32) : FVec F S1x1 .f32 :=
  k0_pay22 L0 L1 (k0_pay14 x5) (k0_pay15 x6) x7 x8 x9 x10
def s2 (L0 L1 : FVec F S512x512 .f32) (x5 x6 x9 : Vec F S512x512 .f32) : FVec F S512x1 .f32 :=
  k0_pay23 L0 L1 (k0_pay14 x5) (k0_pay15 x6) x9
/-- the second rectified normalisation, channel 0 and channel 1 -/
def l2_0 (L0 L1 : FVec F S512x512 .f32) (x5 x6 x7 x8 x9 x10 x21 x23 : Vec F S512x512 .f32) : FVec F S512x512 .f32 :=
  k0_pay25 (l21 L0 L1 x5 x6 x9) (l22 L0 L1 x7 x8 x10) (k0_pay18 x21) (k0_pay20 x23) (m2 L0 L1 x5 x6 x7 x8 x9 x10) (s2 L0 L1 x5 x6 x9)
def l2_1 (L0 L1 : FVec F S512x512 .f32) (x5 x6 x7 x8 x9 x10 x22 x24 : Vec F S512x512 .f32) : FVec F S512x512 .f32 :=
  k0_pay26 (l22 L0 L1 x7 x8 x10) (k0_pay19 x22) (k0_pay21 x24) (m2 L0 L1 x5 x6 x7 x8 x9 x10) (s2 L0 L1 x5 x6 x9)
/-- the third contraction, the last normalisation plus the row, summed over the first axis, shifted and rectified -/
def outRow (a : Vec F S1x512 .f32) (M0 M1 : FVec F S512x512 .f32) (x11 x12 x13 : Vec F S512x512 .f32) (x14 : Vec F S512 .f32) (x25 x26 : Vec F S512x512 .f32) : FVec F S512 .f32 :=
  k0_pay30 x14 (k0_pay3 a) M0 M1 (k0_pay27 x11) (k0_pay28 x12) (k0_pay29 x13) x25 x26

/-- What one trip stores, from the normalised row and the operands. -/
def rowPay (a : Vec F S1x512 .f32) (x1 x2 x3 x4 x5 x6 x7 x8 x9 x10 x11 x12 x13 : Vec F S512x512 .f32) (x14 : Vec F S512 .f32)
    (x17 x18 x19 x20 x21 x22 x23 x24 x25 x26 : Vec F S512x512 .f32) : FVec F S1x512 .f32 :=
  k0_pay2 (outRow a
    (l2_0 (l10 a x1 x2 x3 x4 x17 x19) (l11 a x1 x2 x3 x4 x18 x20) x5 x6 x7 x8 x9 x10 x21 x23)
    (l2_1 (l10 a x1 x2 x3 x4 x17 x19) (l11 a x1 x2 x3 x4 x18 x20) x5 x6 x7 x8 x9 x10 x22 x24)
    x11 x12 x13 x14 x25 x26)

end Cert.KerPay

end
-- ==== Proof.KerTrip.lean ====
/-
  One trip of the kernel's row loop, as the piece it stores. Trip `k` loads row `k` of the scratch tile and the operands
  whole, and stores ONE row: at row `k` of the output block, the row function of what it loaded. The body's run finds that
  piece by itself; here it is read off once, and every later argument cites this lemma.
-/
import proofs.«123119_j23965917511984_2_alg».proof.Proof.Gen.KernelIdeal.Loops
import proofs.«123119_j23965917511984_2_alg».proof.Proof.KerPay

set_option maxRecDepth 65536

noncomputable section

namespace Cert.KernelIdeal.Gen

open Idealize.ShloMosaic Idealize.ShloMosaic.TcCoe Idealize.ShloMosaic.Tactic Idealize.SL Idealize.SL.Sem

variable {F : FTy → Type} [FloatOps F]

/-- What a load of a whole [512, 512] operand reads of its buffer's contents. -/
abbrev ldW (arg : Memref sig .tc .vmem S512x512 .f32) (X : BufTy.Contents (Elt F) arg.view.ty) : Vec F S512x512 .f32 :=
  View.readAt (Elt F) arg.view (Rect.unit (s := S512x512) ![0, 0] S512x512.size inb_S512x512_S512x512_0_0).toLoadRect X

/-- What trip `k`'s load of row `k` of the scratch tile reads of its contents. -/
abbrev ldRow (arg29 : Memref sig .tc .vmem S8x512 .f32) (X : BufTy.Contents (Elt F) arg29.view.ty) (k : Fin k0_t1_loop.trips) :
    Vec F S1x512 .f32 :=
  View.readAt (Elt F) arg29.view (Rect.unit (s := S8x512) (k0_off1 k) S1x512.size (k0_off1_inb k)).toLoadRect X

set_option maxHeartbeats 8000000 in
/-- Trip `k` stores one piece: row `k` of the block, holding the row function of the loads. -/
theorem trip_piece (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (k : Fin k0_t1_loop.trips) (f_arg28 : BufTy.Contents (Elt F) arg28.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 k).1 f_arg28
      = [⟨Rect.unit (s := S8x512) (k0_off1 k) S1x512.size (k0_off1_inb k),
          Cert.KerPay.rowPay (ldRow arg29 X_arg29 k) (ldW arg2 X_arg2) (ldW arg3 X_arg3) (ldW arg4 X_arg4) (ldW arg5 X_arg5) (ldW arg6 X_arg6) (ldW arg7 X_arg7) (ldW arg8 X_arg8) (ldW arg9 X_arg9) (ldW arg10 X_arg10) (ldW arg11 X_arg11) (ldW arg12 X_arg12) (ldW arg13 X_arg13) (ldW arg14 X_arg14) v28 (ldW arg18 X_arg18) (ldW arg19 X_arg19) (ldW arg20 X_arg20) (ldW arg21 X_arg21) (ldW arg22 X_arg22) (ldW arg23 X_arg23) (ldW arg24 X_arg24) (ldW arg25 X_arg25) (ldW arg26 X_arg26) (ldW arg27 X_arg27)⟩] := by
  unfold trip_k0_t1
  dsimp only
  sl_unfold_words
  rfl

end Cert.KernelIdeal.Gen

end
-- ==== Proof.KerPieces.lean ====
/-
  The pieces the row loop leaves, as ONE function of the block index. Trip `k` stores row `k`, and what it stores at
  column `u` is the row function of row `k` of the scratch tile: so every piece of the trips before `n` holds, at each of
  its own indices, the value at that index of one function of the whole block — entry `(r, u)` is the row function of
  row `r` of the tile, at `u`. By induction over the trips.
-/
import proofs.«123119_j23965917511984_2_alg».proof.Proof.KerTrip
import Idealize.ShloMosaic.Lib.Pipeline.Value
import Idealize.ShloMosaic.Lib.ValueIdx

set_option maxRecDepth 65536

noncomputable section

namespace Cert.KernelIdeal.Gen

open Idealize.ShloMosaic Idealize.ShloMosaic.TcCoe Idealize.ShloMosaic.Tactic Idealize.SL Idealize.SL.Sem Idealize.ShloMosaic.ValueIdx

variable {F : FTy → Type} [FloatOps F]

/-- Row `r` of a tile, as a [1, 512] vector. -/
def rowAt (T : Vec F S8x512 .f32) (r : Fin 8) : Vec F S1x512 .f32 := fun x => T (ix2 r (x 1))

/-- The block the loop fills: entry `(r, u)` is the row function of row `r` of the tile `T`, at `u`. -/
def blockFn (T : Vec F S8x512 .f32) (x1 x2 x3 x4 x5 x6 x7 x8 x9 x10 x11 x12 x13 : Vec F S512x512 .f32) (x14 : Vec F S512 .f32)
    (x17 x18 x19 x20 x21 x22 x23 x24 x25 x26 : Vec F S512x512 .f32) : Vec F S8x512 .f32 :=
  fun y => Cert.KerPay.rowPay (rowAt T (y 0)) x1 x2 x3 x4 x5 x6 x7 x8 x9 x10 x11 x12 x13 x14 x17 x18 x19 x20 x21 x22 x23 x24 x25 x26
    (ix2 (0 : Fin 1) (y 1))

theorem trips_eq : k0_t1_loop.trips = 8 := by decide +kernel

/-- Trip `k`'s load of row `k` reads row `k` of what the scratch holds. -/
theorem ldRow_eq (arg29 : Memref sig .tc .vmem S8x512 .f32) (X : BufTy.Contents (Elt F) arg29.view.ty) (k : Fin k0_t1_loop.trips)
    (r : Fin 8) (hr : r.val = k.val) : ldRow arg29 X k = rowAt (arg29.view.read (Elt F) X) r := by
  funext x
  show arg29.view.read (Elt F) X ((Rect.unit (s := S8x512) (k0_off1 k) S1x512.size (k0_off1_inb k)).toLoadRect.idx x) = _
  unfold rowAt
  congr 1
  funext a
  apply Fin.ext
  rw [LoadRect.idx_apply]
  simp only [Rect.off_unit, Rect.stride_unit, k0_off1_eq]
  match a with
  | ⟨0, _⟩ => have h0 : (x 0).val = 0 := by have := (x 0).isLt; simp at this; omega
              show k.val + 1 * (x 0).val = r.val; omega
  | ⟨1, _⟩ => show 0 + 1 * (x 1).val = (x 1).val; omega

/-- The piece of trip `k` holds, at each of its indices, the block function there. -/
theorem trip_piece_restricts (arg29 : Memref sig .tc .vmem S8x512 .f32) (X : BufTy.Contents (Elt F) arg29.view.ty)
    (x1 x2 x3 x4 x5 x6 x7 x8 x9 x10 x11 x12 x13 : Vec F S512x512 .f32) (x14 : Vec F S512 .f32)
    (x17 x18 x19 x20 x21 x22 x23 x24 x25 x26 : Vec F S512x512 .f32) (k : Fin k0_t1_loop.trips)
    (x : (Rect.unit (s := S8x512) (k0_off1 k) S1x512.size (k0_off1_inb k)).shape.Idx) :
    Cert.KerPay.rowPay (ldRow arg29 X k) x1 x2 x3 x4 x5 x6 x7 x8 x9 x10 x11 x12 x13 x14 x17 x18 x19 x20 x21 x22 x23 x24 x25 x26 x
      = blockFn (arg29.view.read (Elt F) X) x1 x2 x3 x4 x5 x6 x7 x8 x9 x10 x11 x12 x13 x14 x17 x18 x19 x20 x21 x22 x23 x24 x25 x26
          ((Rect.unit (s := S8x512) (k0_off1 k) S1x512.size (k0_off1_inb k)).emb x) := by
  unfold blockFn
  have e0 : (((Rect.unit (s := S8x512) (k0_off1 k) S1x512.size (k0_off1_inb k)).emb x) 0).val = k.val := by
    rw [Rect.emb_apply]
    simp only [Rect.off_unit, Rect.stride_unit, k0_off1_eq]
    have h0 : (x 0).val = 0 := by have := (x 0).isLt; simp at this; omega
    show k.val + 1 * (x 0).val = k.val; omega
  have e1 : (((Rect.unit (s := S8x512) (k0_off1 k) S1x512.size (k0_off1_inb k)).emb x) 1).val = (x 1).val := by
    rw [Rect.emb_apply]
    simp only [Rect.off_unit, Rect.stride_unit, k0_off1_eq]
    show 0 + 1 * (x 1).val = (x 1).val; omega
  rw [ldRow_eq arg29 X k (((Rect.unit (s := S8x512) (k0_off1 k) S1x512.size (k0_off1_inb k)).emb x) 0) e0]
  congr 1
  funext a
  apply Fin.ext
  match a with
  | ⟨0, _⟩ => have h0 : (x 0).val = 0 := by have := (x 0).isLt; simp at this; omega
              exact h0
  | ⟨1, _⟩ => exact e1.symm

/-- Every piece of the trips before `n` restricts the block function. -/
theorem pb_restricts (𝒱 : Variants) (c : Dev nD) (bd : Option 𝒱.V) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (v28 : Vec F S512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg29 : BufTy.Contents (Elt F) arg29.view.ty) (G_arg28 : BufTy.Contents (Elt F) arg28.view.ty) :
    ∀ n : ℕ, n ≤ k0_t1_loop.trips → ∀ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G_arg28 n, ∀ x : p.1.shape.Idx,
      p.2 x = blockFn (arg29.view.read (Elt F) X_arg29) (ldW arg2 X_arg2) (ldW arg3 X_arg3) (ldW arg4 X_arg4) (ldW arg5 X_arg5) (ldW arg6 X_arg6) (ldW arg7 X_arg7) (ldW arg8 X_arg8) (ldW arg9 X_arg9) (ldW arg10 X_arg10) (ldW arg11 X_arg11) (ldW arg12 X_arg12) (ldW arg13 X_arg13) (ldW arg14 X_arg14) v28 (ldW arg18 X_arg18) (ldW arg19 X_arg19) (ldW arg20 X_arg20) (ldW arg21 X_arg21) (ldW arg22 X_arg22) (ldW arg23 X_arg23) (ldW arg24 X_arg24) (ldW arg25 X_arg25) (ldW arg26 X_arg26) (ldW arg27 X_arg27) (p.1.emb x)
  | 0, _ => by intro p hp; simp [pb_k0_t1] at hp
  | n + 1, hn => by
    intro p hp x
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G_arg28 ⟨n, hlt⟩
    rw [show (⟨n, hlt⟩ : Fin k0_t1_loop.trips).val + 1 = n + 1 from rfl] at hs
    rw [hs] at hp
    rcases List.mem_append.mp hp with h | h
    · unfold tripL_k0_t1 at h
      rw [trip_piece] at h
      rw [List.mem_singleton] at h
      subst h
      exact trip_piece_restricts arg29 X_arg29 (ldW arg2 X_arg2) (ldW arg3 X_arg3) (ldW arg4 X_arg4) (ldW arg5 X_arg5) (ldW arg6 X_arg6) (ldW arg7 X_arg7) (ldW arg8 X_arg8) (ldW arg9 X_arg9) (ldW arg10 X_arg10) (ldW arg11 X_arg11) (ldW arg12 X_arg12) (ldW arg13 X_arg13) (ldW arg14 X_arg14) v28 (ldW arg18 X_arg18) (ldW arg19 X_arg19) (ldW arg20 X_arg20) (ldW arg21 X_arg21) (ldW arg22 X_arg22) (ldW arg23 X_arg23) (ldW arg24 X_arg24) (ldW arg25 X_arg25) (ldW arg26 X_arg26) (ldW arg27 X_arg27) ⟨n, hlt⟩ x
    · exact pb_restricts 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v28 X_arg2 X_arg3 X_arg4 X_arg5 X_arg6 X_arg7 X_arg8 X_arg9 X_arg10 X_arg11 X_arg12 X_arg13 X_arg14 X_arg18 X_arg19 X_arg20 X_arg21 X_arg22 X_arg23 X_arg24 X_arg25 X_arg26 X_arg27 X_arg29 G_arg28 n (Nat.le_of_lt hlt) p h x

end Cert.KernelIdeal.Gen

end
-- ==== Proof.Spec.lean ====
/-
  What both programs compute, one batch row at a time, written twice.

  A row `x` of the input (512 entries) is normalised over its own entries (mean, variance, reciprocal square root
  of the variance plus a small constant, scale `g0`, shift `be0`): `xnRow`. The normalised row `a` then feeds a
  [512, 512, 2] array `z1 d u c = a d · w1 d u c + b1 d u c`, which is normalised over ALL its entries, rectified
  (a leaky rectifier: `t` where `0 ≤ t`, a small multiple of `t` elsewhere), contracted over its last axis of two
  against `w21` and `w22` into two [512, 512] arrays, which are joined again along a last axis of two, normalised over
  all entries, rectified, contracted against `w3`, normalised once more (now over 512 · 512 entries), added to `a`
  along the first axis, summed over the first axis, shifted by `bias` and rectified.

  The two programs differ only in how a normalisation is arranged. The reference subtracts the mean first and
  averages the squares of the differences (`varR…`, `lnR…`); the kernel averages the squares, subtracts the square of
  the mean, and folds the mean into the shift: `z · (r · g) + (be − mean · (r · g))` (`varK…`, `lnK…`). Over finite
  reals the two are the same number; that is the algebra module's business, not this one's. Sums are written here in one
  canonical nesting (first axis outermost).
-/
import Idealize.ShloMosaic.PureOps.Ideal.Laws
import Idealize.ShloMosaic.Lib.ValueIdx

noncomputable section

open scoped BigOperators

namespace Cert.Spec

open Idealize.ShloMosaic Idealize.ShloMosaic.ValueIdx

/-! ## The literals, as both programs print them -/

/-- 512, the length of a row. -/
def c512 : EReal := Ideal.ofBits .f32 0x44000000#32
/-- 524288 = 512 · 512 · 2, the number of entries of the first two normalised arrays. -/
def cDU2 : EReal := Ideal.ofBits .f32 0x49000000#32
/-- 262144 = 512 · 512, the number of entries of the third. -/
def cDU : EReal := Ideal.ofBits .f32 0x48800000#32
/-- The small constant added to a variance. -/
def eps : EReal := Ideal.ofBits .f32 0x3727C5AC#32
/-- The rectifier's slope on the negative side. -/
def slope : EReal := Ideal.ofBits .f32 0x3C23D70A#32

/-- The leaky rectifier. -/
def lrelu (t : EReal) : EReal := if 0 ≤ t then t else slope * t

/-- An extended real that is a real number. -/
def IsReal (x : EReal) : Prop := ∃ r : ℝ, x = (r : EReal)

/-- An array all of whose entries are real numbers. -/
def AllReal {s : Shape} (v : s.Idx → EReal) : Prop := ∀ i, IsReal (v i)

/-! ## Sums in the canonical nesting -/

def sum3 (f : Fin 512 → Fin 512 → Fin 2 → EReal) : EReal := ∑ d, ∑ u, ∑ c, f d u c
def sum2 (f : Fin 512 → Fin 512 → EReal) : EReal := ∑ d, ∑ u, f d u

/-- Two [512, 512] arrays joined along a new last axis of two. -/
def cat (A B : Fin 512 → Fin 512 → EReal) : Fin 512 → Fin 512 → Fin 2 → EReal :=
  fun d u c => if c = 0 then A d u else B d u

/-! ## The parameters, by coordinates -/

structure Params where
  w1 : Fin 512 → Fin 512 → Fin 2 → EReal
  b1 : Fin 512 → Fin 512 → Fin 2 → EReal
  w21 : Fin 512 → Fin 512 → Fin 2 → EReal
  w22 : Fin 512 → Fin 512 → Fin 2 → EReal
  b21 : Fin 512 → Fin 512 → EReal
  b22 : Fin 512 → Fin 512 → EReal
  w3 : Fin 512 → Fin 512 → Fin 2 → EReal
  b3 : Fin 512 → Fin 512 → EReal
  bias : Fin 512 → EReal
  g1 : Fin 512 → Fin 512 → Fin 2 → EReal
  be1 : Fin 512 → Fin 512 → Fin 2 → EReal
  g2 : Fin 512 → Fin 512 → Fin 2 → EReal
  be2 : Fin 512 → Fin 512 → Fin 2 → EReal
  g3 : Fin 512 → Fin 512 → EReal
  be3 : Fin 512 → Fin 512 → EReal

/-- Every parameter entry is a real number. -/
structure Params.Finite (p : Params) : Prop where
  w1 : ∀ d u c, IsReal (p.w1 d u c)
  b1 : ∀ d u c, IsReal (p.b1 d u c)
  w21 : ∀ d u c, IsReal (p.w21 d u c)
  w22 : ∀ d u c, IsReal (p.w22 d u c)
  b21 : ∀ d u, IsReal (p.b21 d u)
  b22 : ∀ d u, IsReal (p.b22 d u)
  w3 : ∀ d u c, IsReal (p.w3 d u c)
  b3 : ∀ d u, IsReal (p.b3 d u)
  bias : ∀ u, IsReal (p.bias u)
  g1 : ∀ d u c, IsReal (p.g1 d u c)
  be1 : ∀ d u c, IsReal (p.be1 d u c)
  g2 : ∀ d u c, IsReal (p.g2 d u c)
  be2 : ∀ d u c, IsReal (p.be2 d u c)
  g3 : ∀ d u, IsReal (p.g3 d u)
  be3 : ∀ d u, IsReal (p.be3 d u)

/-- The parameters read off the argument arrays of either program (the arguments `w1 b1 w21 w22 b21 b22 w3 b3 bias`,
    then `g1 be1 g2 be2 g3 be3`: @main's arguments 1 to 9 and 12 to 17). -/
def prm (w1 b1 w21 w22 : (⟨4, ![1, 512, 512, 2]⟩ : Shape).Idx → EReal) (b21 b22 : (⟨4, ![1, 512, 512, 1]⟩ : Shape).Idx → EReal)
    (w3 : (⟨4, ![1, 512, 512, 2]⟩ : Shape).Idx → EReal) (b3 : (⟨4, ![1, 512, 512, 1]⟩ : Shape).Idx → EReal)
    (bias : (⟨1, ![512]⟩ : Shape).Idx → EReal)
    (g1 be1 g2 be2 : (⟨3, ![512, 512, 2]⟩ : Shape).Idx → EReal) (g3 be3 : (⟨3, ![512, 512, 1]⟩ : Shape).Idx → EReal) : Params where
  w1 := fun d u c => w1 (ix4 0 d u c)
  b1 := fun d u c => b1 (ix4 0 d u c)
  w21 := fun d u c => w21 (ix4 0 d u c)
  w22 := fun d u c => w22 (ix4 0 d u c)
  b21 := fun d u => b21 (ix4 0 d u 0)
  b22 := fun d u => b22 (ix4 0 d u 0)
  w3 := fun d u c => w3 (ix4 0 d u c)
  b3 := fun d u => b3 (ix4 0 d u 0)
  bias := fun u => bias (ix1 u)
  g1 := fun d u c => g1 (ix3 d u c)
  be1 := fun d u c => be1 (ix3 d u c)
  g2 := fun d u c => g2 (ix3 d u c)
  be2 := fun d u c => be2 (ix3 d u c)
  g3 := fun d u => g3 (ix3 d u 0)
  be3 := fun d u => be3 (ix3 d u 0)

/-- The same parameters read off the kernel's operands: each array with a last axis of two arrives as two [512, 512]
    slices (channel 0, channel 1), each with a last axis of one as one [512, 512] array. Operand order: the thirteen
    weight and shift slices, `bias`, then the ten scale and shift slices of the normalisations. -/
def prmK (w1_0 w1_1 b1_0 b1_1 w21_0 w21_1 w22_0 w22_1 b21 b22 w3_0 w3_1 b3 : (⟨2, ![512, 512]⟩ : Shape).Idx → EReal)
    (bias : (⟨1, ![512]⟩ : Shape).Idx → EReal)
    (g1_0 g1_1 be1_0 be1_1 g2_0 g2_1 be2_0 be2_1 g3 be3 : (⟨2, ![512, 512]⟩ : Shape).Idx → EReal) : Params where
  w1 := cat (fun d u => w1_0 (ix2 d u)) (fun d u => w1_1 (ix2 d u))
  b1 := cat (fun d u => b1_0 (ix2 d u)) (fun d u => b1_1 (ix2 d u))
  w21 := cat (fun d u => w21_0 (ix2 d u)) (fun d u => w21_1 (ix2 d u))
  w22 := cat (fun d u => w22_0 (ix2 d u)) (fun d u => w22_1 (ix2 d u))
  b21 := fun d u => b21 (ix2 d u)
  b22 := fun d u => b22 (ix2 d u)
  w3 := cat (fun d u => w3_0 (ix2 d u)) (fun d u => w3_1 (ix2 d u))
  b3 := fun d u => b3 (ix2 d u)
  bias := fun u => bias (ix1 u)
  g1 := cat (fun d u => g1_0 (ix2 d u)) (fun d u => g1_1 (ix2 d u))
  be1 := cat (fun d u => be1_0 (ix2 d u)) (fun d u => be1_1 (ix2 d u))
  g2 := cat (fun d u => g2_0 (ix2 d u)) (fun d u => g2_1 (ix2 d u))
  be2 := cat (fun d u => be2_0 (ix2 d u)) (fun d u => be2_1 (ix2 d u))
  g3 := fun d u => g3 (ix2 d u)
  be3 := fun d u => be3 (ix2 d u)

/-! ## The first normalisation: one row over its own entries (the same arrangement in both programs) -/

def mean512 (x : Fin 512 → EReal) : EReal := Ideal.div (∑ k, x k) c512
def var512 (x : Fin 512 → EReal) : EReal := Ideal.div (∑ k, (x k - mean512 x) * (x k - mean512 x)) c512
def xnRow (x g0 be0 : Fin 512 → EReal) : Fin 512 → EReal :=
  fun d => ((x d - mean512 x) * Ideal.rsqrt (var512 x + eps)) * g0 d + be0 d

/-! ## A normalisation over all entries of a [512, 512, 2] array, in the two arrangements -/

def mean3 (z : Fin 512 → Fin 512 → Fin 2 → EReal) : EReal := Ideal.div (sum3 z) cDU2
/-- the reference's variance: the mean of the squared differences from the mean -/
def varR3 (z : Fin 512 → Fin 512 → Fin 2 → EReal) : EReal :=
  Ideal.div (sum3 fun d u c => (z d u c - mean3 z) * (z d u c - mean3 z)) cDU2
/-- the kernel's variance: the mean of the squares less the square of the mean -/
def varK3 (z : Fin 512 → Fin 512 → Fin 2 → EReal) : EReal :=
  Ideal.div (sum3 fun d u c => z d u c * z d u c) cDU2 - mean3 z * mean3 z
def lnR3 (z g be : Fin 512 → Fin 512 → Fin 2 → EReal) : Fin 512 → Fin 512 → Fin 2 → EReal :=
  fun d u c => ((z d u c - mean3 z) * Ideal.rsqrt (varR3 z + eps)) * g d u c + be d u c
def lnK3 (z g be : Fin 512 → Fin 512 → Fin 2 → EReal) : Fin 512 → Fin 512 → Fin 2 → EReal :=
  fun d u c => z d u c * (Ideal.rsqrt (varK3 z + eps) * g d u c)
    + (be d u c - mean3 z * (Ideal.rsqrt (varK3 z + eps) * g d u c))

/-! ## The same over a [512, 512] array -/

def mean2 (z : Fin 512 → Fin 512 → EReal) : EReal := Ideal.div (sum2 z) cDU
def varR2 (z : Fin 512 → Fin 512 → EReal) : EReal :=
  Ideal.div (sum2 fun d u => (z d u - mean2 z) * (z d u - mean2 z)) cDU
def varK2 (z : Fin 512 → Fin 512 → EReal) : EReal :=
  Ideal.div (sum2 fun d u => z d u * z d u) cDU - mean2 z * mean2 z
def lnR2 (z g be : Fin 512 → Fin 512 → EReal) : Fin 512 → Fin 512 → EReal :=
  fun d u => ((z d u - mean2 z) * Ideal.rsqrt (varR2 z + eps)) * g d u + be d u
def lnK2 (z g be : Fin 512 → Fin 512 → EReal) : Fin 512 → Fin 512 → EReal :=
  fun d u => z d u * (Ideal.rsqrt (varK2 z + eps) * g d u) + (be d u - mean2 z * (Ideal.rsqrt (varK2 z + eps) * g d u))

/-! ## The layers between the normalisations (the same in both programs) -/

def z1 (p : Params) (a : Fin 512 → EReal) : Fin 512 → Fin 512 → Fin 2 → EReal :=
  fun d u c => a d * p.w1 d u c + p.b1 d u c
/-- the contraction of the last axis of two against a weight, plus a shift -/
def mix (l w : Fin 512 → Fin 512 → Fin 2 → EReal) (b : Fin 512 → Fin 512 → EReal) : Fin 512 → Fin 512 → EReal :=
  fun d u => (l d u 0 * w d u 0 + l d u 1 * w d u 1) + b d u

/-! ## The row, in the reference's arrangement -/

def l1R (p : Params) (a : Fin 512 → EReal) : Fin 512 → Fin 512 → Fin 2 → EReal :=
  fun d u c => lrelu (lnR3 (z1 p a) p.g1 p.be1 d u c)
def z2R (p : Params) (a : Fin 512 → EReal) : Fin 512 → Fin 512 → Fin 2 → EReal :=
  cat (mix (l1R p a) p.w21 p.b21) (mix (l1R p a) p.w22 p.b22)
def l2R (p : Params) (a : Fin 512 → EReal) : Fin 512 → Fin 512 → Fin 2 → EReal :=
  fun d u c => lrelu (lnR3 (z2R p a) p.g2 p.be2 d u c)
def l3R (p : Params) (a : Fin 512 → EReal) : Fin 512 → Fin 512 → EReal := mix (l2R p a) p.w3 p.b3
def rowR (p : Params) (a : Fin 512 → EReal) : Fin 512 → EReal :=
  fun u => lrelu ((∑ d, (lnR2 (l3R p a) p.g3 p.be3 d u + a d)) + p.bias u)

/-! ## The row, in the kernel's arrangement -/

def l1K (p : Params) (a : Fin 512 → EReal) : Fin 512 → Fin 512 → Fin 2 → EReal :=
  fun d u c => lrelu (lnK3 (z1 p a) p.g1 p.be1 d u c)
def z2K (p : Params) (a : Fin 512 → EReal) : Fin 512 → Fin 512 → Fin 2 → EReal :=
  cat (mix (l1K p a) p.w21 p.b21) (mix (l1K p a) p.w22 p.b22)
def l2K (p : Params) (a : Fin 512 → EReal) : Fin 512 → Fin 512 → Fin 2 → EReal :=
  fun d u c => lrelu (lnK3 (z2K p a) p.g2 p.be2 d u c)
def l3K (p : Params) (a : Fin 512 → EReal) : Fin 512 → Fin 512 → EReal := mix (l2K p a) p.w3 p.b3
def rowK (p : Params) (a : Fin 512 → EReal) : Fin 512 → EReal :=
  fun u => lrelu ((∑ d, (lnK2 (l3K p a) p.g3 p.be3 d u + a d)) + p.bias u)

/-! ## The whole result, entry (b, u), from the argument arrays -/

/-- The result array both programs are to end with: row `b` of the input normalised, then the row function in the
    reference's arrangement. -/
def out (x : (⟨2, ![64, 512]⟩ : Shape).Idx → EReal)
    (w1 b1 w21 w22 : (⟨4, ![1, 512, 512, 2]⟩ : Shape).Idx → EReal) (b21 b22 : (⟨4, ![1, 512, 512, 1]⟩ : Shape).Idx → EReal)
    (w3 : (⟨4, ![1, 512, 512, 2]⟩ : Shape).Idx → EReal) (b3 : (⟨4, ![1, 512, 512, 1]⟩ : Shape).Idx → EReal)
    (bias g0 be0 : (⟨1, ![512]⟩ : Shape).Idx → EReal)
    (g1 be1 g2 be2 : (⟨3, ![512, 512, 2]⟩ : Shape).Idx → EReal) (g3 be3 : (⟨3, ![512, 512, 1]⟩ : Shape).Idx → EReal) :
    (⟨2, ![64, 512]⟩ : Shape).Idx → EReal :=
  fun j => rowR (prm w1 b1 w21 w22 b21 b22 w3 b3 bias g1 be1 g2 be2 g3 be3)
    (xnRow (fun d => x (ix2 (j 0) d)) (fun d => g0 (ix1 d)) (fun d => be0 (ix1 d))) (j 1)

/-! ## Small facts both readings use -/

/-- The canonical triple sum, split by the last coordinate. -/
theorem sum3_split (f : Fin 512 → Fin 512 → Fin 2 → EReal) :
    sum3 f = (∑ d, ∑ u, f d u 0) + (∑ d, ∑ u, f d u 1) := by
  unfold sum3
  rw [← Finset.sum_add_distrib]
  refine Finset.sum_congr rfl fun d _ => ?_
  rw [← Finset.sum_add_distrib]
  refine Finset.sum_congr rfl fun u _ => ?_
  exact Fin.sum_univ_two _

theorem sum3_cat (A B : Fin 512 → Fin 512 → EReal) : sum3 (cat A B) = sum2 A + sum2 B := by
  rw [sum3_split]; rfl

/-- The printed rectifier — a comparison with the zero pattern, then a choice — is `lrelu`. -/
theorem select_cmp_eq_lrelu (t : EReal) :
    Scalar.select (Ideal.cmp .oge t (Ideal.ofBits .f32 0x00000000#32)) t (slope * t) = lrelu t := by
  unfold lrelu Ideal.cmp Scalar.select
  rw [Ideal.ofBits_zero_f32]
  by_cases h : (0 : EReal) ≤ t
  · simp [h]
  · simp [h]

end Cert.Spec

end
-- ==== Proof.KerPayLib.lean ====
/-
  Layout operations of the vector unit read at explicit coordinates, in the forms a reduction that keeps its axis meets:
  a vector stood up as a column, [a] → [a, 1]; a column spread over the lanes, [a, 1] → [a, b]; a single entry spread
  everywhere, [1, 1] → [a, b]; the sum along the lanes and the sum along the sublanes of a matrix as `Fin`-indexed
  sums; and the two in a row — the sum of all entries of a matrix as it is computed, lanes first and sublanes second —
  as `∑ d, ∑ u`.
-/
import Idealize.ShloMosaic.Lib.Pipeline.Value
import Idealize.ShloMosaic.Lib.ValueLayout
import Idealize.ShloMosaic.PureOps.Ideal.Laws

noncomputable section

open scoped BigOperators

namespace Cert.KerPay

open Idealize.ShloMosaic Idealize.ShloMosaic.ValueIdx

variable {α : Type}

/-! ## A column: a trailing unit axis added, and spread over the lanes -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast back to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Every index of a `[1, 1]` array is its one index. -/
theorem eq_ix2_00 (j : (⟨2, ![1, 1]⟩ : Shape).Idx) : j = ix2 (0 : Fin 1) (0 : Fin 1) :=
  have h0 : @Eq (Fin 1) (j 0) 0 := Subsingleton.elim (α := Fin 1) _ _
  have h1 : @Eq (Fin 1) (j 1) 0 := Subsingleton.elim (α := Fin 1) _ _
  (eq_ix2 j).trans (congrArg₂ (ix2 (n0 := 1) (n1 := 1)) h0 h1)

/-- A reciprocal square root of a vector, at the ideal values, reads the extended reals' at each entry. -/
theorem rsqrt_apply {s : Shape} {φ : FTy} (x : FVec Ideal s φ) (i : s.Idx) : rsqrt x i = Ideal.rsqrt (x i) := rfl

/-! ## Sums along one axis of a matrix, at the ideal values -/

/-- The sum along the lanes of an `[a, b]` matrix reads, at row `i`, the sum of that row's entries. The sum starts
    from the zero pattern, its neutral element. -/
theorem laneSum_apply {a b : ℕ} (src : FVec Ideal ⟨2, ![a, b]⟩ .f32) (h : (⟨2, ![a, b]⟩ : Shape).Reduces ([1] : List (Fin 2)) ⟨1, ![a]⟩)
    (hφ : FKind.Formats .f32) (hacc : (0x00000000#32 : BitVec 32) = 0x00000000#32) (i : Fin a) :
    multiReduction (F := Ideal) .add ([1] : List (Fin 2)) ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src (funext fun c => Fin.ext ?_)
  match c with
  | ⟨0, _⟩ => rfl
  | ⟨1, _⟩ => rfl

/-- The sum along the sublanes of an `[a, b]` matrix reads, at column `j`, the sum of that column's entries. -/
theorem sublaneSum_apply {a b : ℕ} (src : FVec Ideal ⟨2, ![a, b]⟩ .f32) (h : (⟨2, ![a, b]⟩ : Shape).Reduces ([0] : List (Fin 2)) ⟨1, ![b]⟩)
    (hφ : FKind.Formats .f32) (hacc : (0x00000000#32 : BitVec 32) = 0x00000000#32) (j : Fin b) :
    multiReduction (F := Ideal) .add ([0] : List (Fin 2)) ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src (funext fun c => Fin.ext ?_)
  match c with
  | ⟨0, _⟩ => rfl
  | ⟨1, _⟩ => rfl

/-- The sum of all entries of an `[a, b]` matrix as the vector unit computes it — along the lanes into a column, then
    along the sublanes into a single entry kept as `[1, 1]` — is the double sum, rows outermost. -/
theorem sumAll_apply {a b : ℕ} (X : FVec Ideal ⟨2, ![a, b]⟩ .f32)
    (h1 : (⟨2, ![a, b]⟩ : Shape).Reduces ([1] : List (Fin 2)) ⟨1, ![a]⟩) (c1 : (⟨1, ![a]⟩ : Shape).ShapeCasts ⟨2, ![a, 1]⟩)
    (h0 : (⟨2, ![a, 1]⟩ : Shape).Reduces ([0] : List (Fin 2)) ⟨1, ![1]⟩) (c0 : (⟨1, ![1]⟩ : Shape).ShapeCasts ⟨2, ![1, 1]⟩)
    (hφ hφ' : FKind.Formats .f32) (hacc hacc' : (0x00000000#32 : BitVec 32) = 0x00000000#32) (p q : Fin 1) :
    shapeCast ⟨2, ![1, 1]⟩ (multiReduction (F := Ideal) .add ([0] : List (Fin 2)) ⟨1, ![1]⟩
        (shapeCast ⟨2, ![a, 1]⟩ (multiReduction (F := Ideal) .add ([1] : List (Fin 2)) ⟨1, ![a]⟩ X 0x00000000#32 h1 hφ hacc) c1)
        0x00000000#32 h0 hφ' hacc') c0 (ix2 p q)
      = ∑ d : Fin a, ∑ u : Fin b, X (ix2 d u) := by
  refine (shapeCast_a_1a_apply _ c0 p q).trans ?_
  refine (sublaneSum_apply _ h0 hφ' hacc' q).trans ?_
  refine Finset.sum_congr rfl fun d _ => ?_
  refine (shapeCast_a_a1_apply _ c1 d q).trans ?_
  exact laneSum_apply X h1 hφ hacc d

end Cert.KerPay

end
-- ==== Proof.KerPayA.lean ====
/-
  The first half of a trip read entry by entry at the ideal values: the tile normalised row by row before the loop, the
  first layer, its mean, and the first rectified normalisation in the kernel's arrangement — each a vector-unit term
  (lane sums then sublane sums, broadcasts of [512, 1] and [1, 1] vectors, reshapes) read at explicit coordinates.
-/
import proofs.«123119_j23965917511984_2_alg».proof.Proof.KerPay
import proofs.«123119_j23965917511984_2_alg».proof.Proof.Spec
import proofs.«123119_j23965917511984_2_alg».proof.Proof.KerPayLib
import Idealize.ShloMosaic.Lib.Pipeline.Value
import Idealize.ShloMosaic.Lib.ValueLayout
import Idealize.ShloMosaic.PureOps.Ideal.Laws

noncomputable section

open scoped BigOperators

namespace Cert.KerPay

open Cert.KernelIdeal Cert.KernelIdeal.Gen Idealize.ShloMosaic Idealize.ShloMosaic.ValueIdx

/-- The row stood up as a column reads, at `(d, u)`, the row's entry `d`. -/
theorem pay3_apply (a : Vec Ideal S1x512 .f32) (d : Fin 512) (u : Fin 1) :
    k0_pay3 (F := Ideal) a (ix2 d u) = a (ix2 (0 : Fin 1) d) := by
  unfold k0_pay3
  exact (shapeCast_a_a1_apply _ _ d u).trans (shapeCast_1a_a_apply _ _ d)

/-- The tile stored before the loop holds, row by row, the first normalisation of the input block's rows. -/
theorem pay_xn (x0 : Vec Ideal S8x512 .f32) (x15 x16 : Vec Ideal S512 .f32) (k : Fin 8) (d : Fin 512) :
    k0_pay1 (F := Ideal) x0 x15 x16 (ix2 k d)
      = Cert.Spec.xnRow (fun d => x0 (ix2 k d)) (fun d => x15 (ix1 d)) (fun d => x16 (ix1 d)) d := by
  unfold k0_pay1
  simp only [shapeCast_self, addf_apply, mulf_apply, subf_apply, divf_apply, broadcast_apply, rsqrt_apply,
    broadcastTo_1b_ab_apply, broadcastTo_a1_ab_apply, shapeCast_a_1a_apply, shapeCast_a_a1_apply, laneSum_apply]
  rfl

variable (a : Vec Ideal S1x512 .f32) (x1 x2 x3 x4 x5 x6 x7 x8 x9 x10 x11 x12 x13 : Vec Ideal S512x512 .f32) (x14 : Vec Ideal S512 .f32)
  (x17 x18 x19 x20 x21 x22 x23 x24 x25 x26 : Vec Ideal S512x512 .f32)

/-- the parameters, by coordinates, read off the operands -/
local notation "𝔭" => Cert.Spec.prmK x1 x2 x3 x4 x5 x6 x7 x8 x9 x10 x11 x12 x13 x14 x17 x18 x19 x20 x21 x22 x23 x24 x25 x26
/-- the normalised row, by its coordinate -/
local notation "𝔞" => (fun d : Fin 512 => a (ix2 (0 : Fin 1) d))
local notation "𝔏0" => l10 a x1 x2 x3 x4 x17 x19
local notation "𝔏1" => l11 a x1 x2 x3 x4 x18 x20

theorem z10_apply (d u : Fin 512) : z10 a x1 x3 (ix2 d u) = Cert.Spec.z1 𝔭 𝔞 d u 0 := by
  unfold z10 k0_pay4
  simp only [shapeCast_self, addf_apply, mulf_apply, broadcastTo_a1_ab_apply, pay3_apply]
  show _ = a (ix2 (0 : Fin 1) d) * (if (0 : Fin 2) = 0 then x1 (ix2 d u) else x2 (ix2 d u))
    + (if (0 : Fin 2) = 0 then x3 (ix2 d u) else x4 (ix2 d u))
  rw [if_pos rfl, if_pos rfl]

theorem z11_apply (d u : Fin 512) : z11 a x2 x4 (ix2 d u) = Cert.Spec.z1 𝔭 𝔞 d u 1 := by
  unfold z11 k0_pay5
  simp only [shapeCast_self, addf_apply, mulf_apply, broadcastTo_a1_ab_apply, pay3_apply]
  show _ = a (ix2 (0 : Fin 1) d) * (if (1 : Fin 2) = 0 then x1 (ix2 d u) else x2 (ix2 d u))
    + (if (1 : Fin 2) = 0 then x3 (ix2 d u) else x4 (ix2 d u))
  rw [if_neg (by decide), if_neg (by decide)]

theorem m1_apply (j : S1x1.Idx) : m1 a x1 x2 x3 x4 j = Cert.Spec.mean3 (Cert.Spec.z1 𝔭 𝔞) := by
  rw [eq_ix2_00 j]
  unfold m1 k0_pay10
  simp only [divf_apply, addf_apply, broadcast_apply, sumAll_apply]
  show Ideal.div ((∑ d, ∑ u, z10 a x1 x3 (ix2 d u)) + (∑ d, ∑ u, z11 a x2 x4 (ix2 d u))) _ = _
  simp only [z10_apply a x1 x2 x3 x4 x5 x6 x7 x8 x9 x10 x11 x12 x13 x14 x17 x18 x19 x20 x21 x22 x23 x24 x25 x26, z11_apply a x1 x2 x3 x4 x5 x6 x7 x8 x9 x10 x11 x12 x13 x14 x17 x18 x19 x20 x21 x22 x23 x24 x25 x26]
  rw [Cert.Spec.mean3, Cert.Spec.sum3_split]
  rfl

/-- The reciprocal square root of the first layer's variance, in the kernel's arrangement (the mean of the squares less
    the square of the mean), plus the small constant. -/
theorem pay11_apply (j : S1x1.Idx) :
    k0_pay11 (z10 a x1 x3) (z11 a x2 x4) (m1 a x1 x2 x3 x4) j
      = Ideal.rsqrt (Cert.Spec.varK3 (Cert.Spec.z1 𝔭 𝔞) + Cert.Spec.eps) := by
  rw [eq_ix2_00 j]
  unfold k0_pay11
  simp only [rsqrt_apply, addf_apply, subf_apply, mulf_apply, divf_apply, broadcast_apply, sumAll_apply,
    m1_apply a x1 x2 x3 x4 x5 x6 x7 x8 x9 x10 x11 x12 x13 x14 x17 x18 x19 x20 x21 x22 x23 x24 x25 x26, z10_apply a x1 x2 x3 x4 x5 x6 x7 x8 x9 x10 x11 x12 x13 x14 x17 x18 x19 x20 x21 x22 x23 x24 x25 x26, z11_apply a x1 x2 x3 x4 x5 x6 x7 x8 x9 x10 x11 x12 x13 x14 x17 x18 x19 x20 x21 x22 x23 x24 x25 x26]
  rw [Cert.Spec.varK3, Cert.Spec.sum3_split]
  rfl

theorem l10_apply (d u : Fin 512) : 𝔏0 (ix2 d u) = Cert.Spec.l1K 𝔭 𝔞 d u 0 := by
  unfold l10 k0_pay12 k0_pay6 k0_pay8
  simp only [select_apply, cmpf_apply, mulf_apply, addf_apply, subf_apply, broadcast_apply, shapeCast_self,
    broadcastTo_11_ab_apply, pay11_apply a x1 x2 x3 x4 x5 x6 x7 x8 x9 x10 x11 x12 x13 x14 x17 x18 x19 x20 x21 x22 x23 x24 x25 x26, m1_apply a x1 x2 x3 x4 x5 x6 x7 x8 x9 x10 x11 x12 x13 x14 x17 x18 x19 x20 x21 x22 x23 x24 x25 x26, z10_apply a x1 x2 x3 x4 x5 x6 x7 x8 x9 x10 x11 x12 x13 x14 x17 x18 x19 x20 x21 x22 x23 x24 x25 x26]
  refine (Cert.Spec.select_cmp_eq_lrelu _).trans ?_
  show Cert.Spec.lrelu _ = Cert.Spec.lrelu (Cert.Spec.lnK3 (Cert.Spec.z1 𝔭 𝔞) (𝔭).g1 (𝔭).be1 d u 0)
  refine congrArg Cert.Spec.lrelu ?_
  show _ = Cert.Spec.z1 𝔭 𝔞 d u 0 * (Ideal.rsqrt (Cert.Spec.varK3 (Cert.Spec.z1 𝔭 𝔞) + Cert.Spec.eps)
        * (if (0 : Fin 2) = 0 then x17 (ix2 d u) else x18 (ix2 d u)))
      + ((if (0 : Fin 2) = 0 then x19 (ix2 d u) else x20 (ix2 d u))
        - Cert.Spec.mean3 (Cert.Spec.z1 𝔭 𝔞) * (Ideal.rsqrt (Cert.Spec.varK3 (Cert.Spec.z1 𝔭 𝔞) + Cert.Spec.eps)
          * (if (0 : Fin 2) = 0 then x17 (ix2 d u) else x18 (ix2 d u))))
  rw [if_pos rfl, if_pos rfl]

theorem l11_apply (d u : Fin 512) : 𝔏1 (ix2 d u) = Cert.Spec.l1K 𝔭 𝔞 d u 1 := by
  unfold l11 k0_pay13 k0_pay7 k0_pay9
  simp only [select_apply, cmpf_apply, mulf_apply, addf_apply, subf_apply, broadcast_apply, shapeCast_self,
    broadcastTo_11_ab_apply, pay11_apply a x1 x2 x3 x4 x5 x6 x7 x8 x9 x10 x11 x12 x13 x14 x17 x18 x19 x20 x21 x22 x23 x24 x25 x26, m1_apply a x1 x2 x3 x4 x5 x6 x7 x8 x9 x10 x11 x12 x13 x14 x17 x18 x19 x20 x21 x22 x23 x24 x25 x26, z11_apply a x1 x2 x3 x4 x5 x6 x7 x8 x9 x10 x11 x12 x13 x14 x17 x18 x19 x20 x21 x22 x23 x24 x25 x26]
  refine (Cert.Spec.select_cmp_eq_lrelu _).trans ?_
  show Cert.Spec.lrelu _ = Cert.Spec.lrelu (Cert.Spec.lnK3 (Cert.Spec.z1 𝔭 𝔞) (𝔭).g1 (𝔭).be1 d u 1)
  refine congrArg Cert.Spec.lrelu ?_
  show _ = Cert.Spec.z1 𝔭 𝔞 d u 1 * (Ideal.rsqrt (Cert.Spec.varK3 (Cert.Spec.z1 𝔭 𝔞) + Cert.Spec.eps)
        * (if (1 : Fin 2) = 0 then x17 (ix2 d u) else x18 (ix2 d u)))
      + ((if (1 : Fin 2) = 0 then x19 (ix2 d u) else x20 (ix2 d u))
        - Cert.Spec.mean3 (Cert.Spec.z1 𝔭 𝔞) * (Ideal.rsqrt (Cert.Spec.varK3 (Cert.Spec.z1 𝔭 𝔞) + Cert.Spec.eps)
          * (if (1 : Fin 2) = 0 then x17 (ix2 d u) else x18 (ix2 d u))))
  rw [if_neg (by decide), if_neg (by decide)]

end Cert.KerPay

end
-- ==== Proof.KerPayB.lean ====
/-
  The second half of a trip read entry by entry at the ideal values: the two contractions of the second layer, their mean,
  the second rectified normalisation, the third contraction, the last normalisation plus the row summed over the first axis,
  the final shift and rectifier — and so the whole stored row, in the kernel's arrangement.

  Each piece is first read over arbitrary operands (what its vector operations compute at an index, the sums written
  as sums over coordinates), then named: a piece whose operands are known by coordinates is the corresponding array of
  the row function, by unfolding that function's definition.
-/
import proofs.«123119_j23965917511984_2_alg».proof.Proof.KerPayA
import proofs.«123119_j23965917511984_2_alg».proof.Proof.KerPayLib
import Idealize.ShloMosaic.Lib.Pipeline.Value
import Idealize.ShloMosaic.Lib.ValueLayout
import Idealize.ShloMosaic.PureOps.Ideal.Laws

noncomputable section

open scoped BigOperators

namespace Cert.KerPay

open Cert.KernelIdeal Cert.KernelIdeal.Gen Idealize.ShloMosaic Idealize.ShloMosaic.ValueIdx

/-! ## The pieces, each read at an index over arbitrary operands -/

/-- A reshape of an operand to its own shape is the operand. -/
theorem pay14_eq (x : Vec Ideal S512x512 .f32) : k0_pay14 (F := Ideal) x = x := shapeCast_self _ _
theorem pay15_eq (x : Vec Ideal S512x512 .f32) : k0_pay15 (F := Ideal) x = x := shapeCast_self _ _
theorem pay18_eq (x : Vec Ideal S512x512 .f32) : k0_pay18 (F := Ideal) x = x := shapeCast_self _ _
theorem pay19_eq (x : Vec Ideal S512x512 .f32) : k0_pay19 (F := Ideal) x = x := shapeCast_self _ _
theorem pay20_eq (x : Vec Ideal S512x512 .f32) : k0_pay20 (F := Ideal) x = x := shapeCast_self _ _
theorem pay21_eq (x : Vec Ideal S512x512 .f32) : k0_pay21 (F := Ideal) x = x := shapeCast_self _ _
theorem pay27_eq (x : Vec Ideal S512x512 .f32) : k0_pay27 (F := Ideal) x = x := shapeCast_self _ _
theorem pay28_eq (x : Vec Ideal S512x512 .f32) : k0_pay28 (F := Ideal) x = x := shapeCast_self _ _
theorem pay29_eq (x : Vec Ideal S512x512 .f32) : k0_pay29 (F := Ideal) x = x := shapeCast_self _ _

/-- The row, given as [1, 512], stood up as a column [512, 1]: entry `(d, 0)` is the row's entry `d`. -/
theorem pay3_col_apply (r : Vec Ideal S1x512 .f32) (d : Fin 512) (u : Fin 1) :
    k0_pay3 (F := Ideal) r (ix2 d u) = r (ix2 (0 : Fin 1) d) := by
  unfold k0_pay3
  rw [shapeCast_a_a1_apply, shapeCast_1a_a_apply]

/-- The stored row is the computed row seen as [1, 512]. -/
theorem pay2_apply (r : FVec Ideal S512 .f32) (u : Fin 512) : k0_pay2 (F := Ideal) r (ix2 (0 : Fin 1) u) = r (ix1 u) := by
  unfold k0_pay2
  rw [shapeCast_a_1a_apply]

/-- A contraction of the two channels against two weight slices, plus a shift. -/
theorem pay16_apply (L0 L1 w0 w1 : FVec Ideal S512x512 .f32) (b : Vec Ideal S512x512 .f32) (i : S512x512.Idx) :
    k0_pay16 L0 L1 w0 w1 b i = (L0 i * w0 i + L1 i * w1 i) + b i := by
  unfold k0_pay16
  simp only [shapeCast_self]
  rfl

theorem pay17_apply (L0 L1 : FVec Ideal S512x512 .f32) (w0 w1 b : Vec Ideal S512x512 .f32) (i : S512x512.Idx) :
    k0_pay17 L0 L1 w0 w1 b i = (L0 i * w0 i + L1 i * w1 i) + b i := by
  unfold k0_pay17
  simp only [shapeCast_self]
  rfl

/-- The mean of both contractions over all entries: each summed lanes first, the two sums added, divided by the count. -/
theorem pay22_apply (L0 L1 w0 w1 : FVec Ideal S512x512 .f32) (v113 v115 v117 v119 : Vec Ideal S512x512 .f32) (j : S1x1.Idx) :
    k0_pay22 L0 L1 w0 w1 v113 v115 v117 v119 j
      = Ideal.div ((∑ d : Fin 512, ∑ u : Fin 512, k0_pay16 L0 L1 w0 w1 v117 (ix2 d u))
          + (∑ d : Fin 512, ∑ u : Fin 512, k0_pay17 L0 L1 v113 v115 v119 (ix2 d u))) (Ideal.ofBits .f32 0x49000000#32) := by
  rw [eq_ix2_00 j]
  unfold k0_pay22
  simp only [divf_apply, addf_apply, broadcast_apply]
  rw [sumAll_apply, sumAll_apply]
  rfl

/-- The row sums of the squares of the first contraction, as a column. -/
theorem pay23_apply (L0 L1 w0 w1 : FVec Ideal S512x512 .f32) (v117 : Vec Ideal S512x512 .f32) (d : Fin 512) (u : Fin 1) :
    k0_pay23 L0 L1 w0 w1 v117 (ix2 d u)
      = ∑ c : Fin 512, k0_pay16 L0 L1 w0 w1 v117 (ix2 d c) * k0_pay16 L0 L1 w0 w1 v117 (ix2 d c) := by
  unfold k0_pay23
  rw [shapeCast_a_a1_apply, laneSum_apply]
  rfl

/-- The reciprocal square root of the variance plus the small constant: the column of row sums of squares summed, the
    second contraction's squares summed lanes first, both added and divided by the count, less the square of the mean. -/
theorem pay24_apply (v128 : FVec Ideal S512x512 .f32) (v147 : FVec Ideal S1x1 .f32) (v150 : FVec Ideal S512x1 .f32) (j : S1x1.Idx) :
    k0_pay24 v128 v147 v150 j
      = Ideal.rsqrt ((Ideal.div ((∑ d : Fin 512, v150 (ix2 d (0 : Fin 1)))
              + (∑ d : Fin 512, ∑ u : Fin 512, v128 (ix2 d u) * v128 (ix2 d u))) (Ideal.ofBits .f32 0x49000000#32)
            - v147 (ix2 (0 : Fin 1) (0 : Fin 1)) * v147 (ix2 (0 : Fin 1) (0 : Fin 1))) + Ideal.ofBits .f32 0x3727C5AC#32) := by
  rw [eq_ix2_00 j]
  unfold k0_pay24
  simp only [rsqrt_apply, addf_apply, subf_apply, divf_apply, mulf_apply, broadcast_apply]
  rw [sumAll_apply, shapeCast_a_1a_apply, sublaneSum_apply]
  rfl

/-! ## The pieces named: operands known by coordinates -/

/-- With the second channel, the mean and the first channel's row sums of squares known by coordinates, the
    reciprocal square root is that of the variance, in the kernel's arrangement, plus the small constant. -/
theorem pay24_of (v128 : FVec Ideal S512x512 .f32) (v147 : FVec Ideal S1x1 .f32) (v150 : FVec Ideal S512x1 .f32)
    (Z : Fin 512 → Fin 512 → Fin 2 → EReal) (hz1 : ∀ d u, v128 (ix2 d u) = Z d u 1) (hm : ∀ j, v147 j = Cert.Spec.mean3 Z)
    (hs : ∀ d, v150 (ix2 d (0 : Fin 1)) = ∑ u : Fin 512, Z d u 0 * Z d u 0) (j : S1x1.Idx) :
    k0_pay24 v128 v147 v150 j = Ideal.rsqrt (Cert.Spec.varK3 Z + Cert.Spec.eps) := by
  rw [pay24_apply, hm]
  simp only [hz1, hs]
  unfold Cert.Spec.varK3
  rw [Cert.Spec.sum3_split]
  rfl

/-- The second rectified normalisation, channel 0. -/
theorem pay25_of (v124 v128 v130 v134 : FVec Ideal S512x512 .f32) (v147 : FVec Ideal S1x1 .f32) (v150 : FVec Ideal S512x1 .f32)
    (Z g be : Fin 512 → Fin 512 → Fin 2 → EReal)
    (hz0 : ∀ d u, v124 (ix2 d u) = Z d u 0) (hz1 : ∀ d u, v128 (ix2 d u) = Z d u 1) (hm : ∀ j, v147 j = Cert.Spec.mean3 Z)
    (hs : ∀ d, v150 (ix2 d (0 : Fin 1)) = ∑ u : Fin 512, Z d u 0 * Z d u 0)
    (hg : ∀ d u, v130 (ix2 d u) = g d u 0) (hbe : ∀ d u, v134 (ix2 d u) = be d u 0) (d u : Fin 512) :
    k0_pay25 v124 v128 v130 v134 v147 v150 (ix2 d u) = Cert.Spec.lrelu (Cert.Spec.lnK3 Z g be d u 0) := by
  unfold k0_pay25
  simp only [select_apply, cmpf_apply, mulf_apply, addf_apply, subf_apply, broadcast_apply, broadcastTo_11_ab_apply]
  rw [pay24_of v128 v147 v150 Z hz1 hm hs, hm, hz0, hg, hbe]
  exact Cert.Spec.select_cmp_eq_lrelu _

/-- The second rectified normalisation, channel 1. -/
theorem pay26_of (v128 v132 v136 : FVec Ideal S512x512 .f32) (v147 : FVec Ideal S1x1 .f32) (v150 : FVec Ideal S512x1 .f32)
    (Z g be : Fin 512 → Fin 512 → Fin 2 → EReal)
    (hz1 : ∀ d u, v128 (ix2 d u) = Z d u 1) (hm : ∀ j, v147 j = Cert.Spec.mean3 Z)
    (hs : ∀ d, v150 (ix2 d (0 : Fin 1)) = ∑ u : Fin 512, Z d u 0 * Z d u 0)
    (hg : ∀ d u, v132 (ix2 d u) = g d u 1) (hbe : ∀ d u, v136 (ix2 d u) = be d u 1) (d u : Fin 512) :
    k0_pay26 v128 v132 v136 v147 v150 (ix2 d u) = Cert.Spec.lrelu (Cert.Spec.lnK3 Z g be d u 1) := by
  unfold k0_pay26
  simp only [select_apply, cmpf_apply, mulf_apply, addf_apply, subf_apply, broadcast_apply, broadcastTo_11_ab_apply]
  rw [pay24_of v128 v147 v150 Z hz1 hm hs, hm, hz1, hg, hbe]
  exact Cert.Spec.select_cmp_eq_lrelu _

/-- The last piece: with the third contraction `Z`, the scale `G`, the shift `BE` and the row `A` known by coordinates,
    entry `u` is the rectified sum over the first axis of the normalised contraction plus the row, plus the final shift. -/
theorem pay30_of (v28 : Vec Ideal S512 .f32) (v33 : FVec Ideal S512x1 .f32) (M0 M1 w0 w1 b : FVec Ideal S512x512 .f32)
    (gv bev : Vec Ideal S512x512 .f32) (Z G BE : Fin 512 → Fin 512 → EReal) (A : Fin 512 → EReal)
    (hZ : ∀ d u, (M0 (ix2 d u) * w0 (ix2 d u) + M1 (ix2 d u) * w1 (ix2 d u)) + b (ix2 d u) = Z d u)
    (hG : ∀ d u, gv (ix2 d u) = G d u) (hBE : ∀ d u, bev (ix2 d u) = BE d u) (hA : ∀ d, v33 (ix2 d (0 : Fin 1)) = A d)
    (u : Fin 512) :
    k0_pay30 v28 v33 M0 M1 w0 w1 b gv bev (ix1 u)
      = Cert.Spec.lrelu ((∑ d : Fin 512, (Cert.Spec.lnK2 Z G BE d u + A d)) + v28 (ix1 u)) := by
  unfold k0_pay30
  simp only [select_apply, cmpf_apply, mulf_apply, addf_apply, broadcast_apply]
  rw [sublaneSum_apply]
  simp only [mulf_apply, addf_apply, subf_apply, divf_apply, rsqrt_apply, broadcast_apply, broadcastTo_11_ab_apply,
    broadcastTo_a1_ab_apply, shapeCast_self]
  rw [sumAll_apply, sumAll_apply]
  simp only [mulf_apply, addf_apply, hZ, hG, hBE, hA]
  exact Cert.Spec.select_cmp_eq_lrelu _

/-! ## One trip, by coordinates -/

variable (a : Vec Ideal S1x512 .f32) (x1 x2 x3 x4 x5 x6 x7 x8 x9 x10 x11 x12 x13 : Vec Ideal S512x512 .f32) (x14 : Vec Ideal S512 .f32)
  (x17 x18 x19 x20 x21 x22 x23 x24 x25 x26 : Vec Ideal S512x512 .f32)

/-- the parameters, by coordinates, read off the operands -/
local notation "𝔭" => Cert.Spec.prmK x1 x2 x3 x4 x5 x6 x7 x8 x9 x10 x11 x12 x13 x14 x17 x18 x19 x20 x21 x22 x23 x24 x25 x26
/-- the normalised row, by its coordinate -/
local notation "𝔞" => (fun d : Fin 512 => a (ix2 (0 : Fin 1) d))
local notation "𝔏0" => l10 a x1 x2 x3 x4 x17 x19
local notation "𝔏1" => l11 a x1 x2 x3 x4 x18 x20
local notation "𝔐0" => l2_0 𝔏0 𝔏1 x5 x6 x7 x8 x9 x10 x21 x23
local notation "𝔐1" => l2_1 𝔏0 𝔏1 x5 x6 x7 x8 x9 x10 x22 x24

theorem l21_apply (d u : Fin 512) : l21 𝔏0 𝔏1 x5 x6 x9 (ix2 d u) = Cert.Spec.z2K 𝔭 𝔞 d u 0 := by
  unfold l21
  rw [pay16_apply, pay14_eq, pay15_eq, l10_apply a x1 x2 x3 x4 x5 x6 x7 x8 x9 x10 x11 x12 x13 x14 x17 x18 x19 x20 x21 x22 x23 x24 x25 x26, l11_apply a x1 x2 x3 x4 x5 x6 x7 x8 x9 x10 x11 x12 x13 x14 x17 x18 x19 x20 x21 x22 x23 x24 x25 x26]
  rfl

theorem l22_apply (d u : Fin 512) : l22 𝔏0 𝔏1 x7 x8 x10 (ix2 d u) = Cert.Spec.z2K 𝔭 𝔞 d u 1 := by
  unfold l22
  rw [pay17_apply, l10_apply a x1 x2 x3 x4 x5 x6 x7 x8 x9 x10 x11 x12 x13 x14 x17 x18 x19 x20 x21 x22 x23 x24 x25 x26, l11_apply a x1 x2 x3 x4 x5 x6 x7 x8 x9 x10 x11 x12 x13 x14 x17 x18 x19 x20 x21 x22 x23 x24 x25 x26]
  rfl

theorem m2_apply (j : S1x1.Idx) : m2 𝔏0 𝔏1 x5 x6 x7 x8 x9 x10 j = Cert.Spec.mean3 (Cert.Spec.z2K 𝔭 𝔞) := by
  have h0 : ∀ d u, k0_pay16 𝔏0 𝔏1 (k0_pay14 x5) (k0_pay15 x6) x9 (ix2 d u) = Cert.Spec.z2K 𝔭 𝔞 d u 0 :=
    l21_apply a x1 x2 x3 x4 x5 x6 x7 x8 x9 x10 x11 x12 x13 x14 x17 x18 x19 x20 x21 x22 x23 x24 x25 x26
  have h1 : ∀ d u, k0_pay17 𝔏0 𝔏1 x7 x8 x10 (ix2 d u) = Cert.Spec.z2K 𝔭 𝔞 d u 1 := l22_apply a x1 x2 x3 x4 x5 x6 x7 x8 x9 x10 x11 x12 x13 x14 x17 x18 x19 x20 x21 x22 x23 x24 x25 x26
  unfold m2
  rw [pay22_apply]
  simp only [h0, h1]
  unfold Cert.Spec.mean3
  rw [Cert.Spec.sum3_split]
  rfl

/-- The row sums of the squares of the first contraction. -/
theorem s2_apply (d : Fin 512) (u : Fin 1) :
    s2 𝔏0 𝔏1 x5 x6 x9 (ix2 d u) = ∑ c : Fin 512, Cert.Spec.z2K 𝔭 𝔞 d c 0 * Cert.Spec.z2K 𝔭 𝔞 d c 0 := by
  have h0 : ∀ d u, k0_pay16 𝔏0 𝔏1 (k0_pay14 x5) (k0_pay15 x6) x9 (ix2 d u) = Cert.Spec.z2K 𝔭 𝔞 d u 0 :=
    l21_apply a x1 x2 x3 x4 x5 x6 x7 x8 x9 x10 x11 x12 x13 x14 x17 x18 x19 x20 x21 x22 x23 x24 x25 x26
  unfold s2
  rw [pay23_apply]
  simp only [h0]

theorem l2_0_apply (d u : Fin 512) : 𝔐0 (ix2 d u) = Cert.Spec.l2K 𝔭 𝔞 d u 0 := by
  unfold l2_0
  exact pay25_of _ _ _ _ _ _ (Cert.Spec.z2K 𝔭 𝔞) (Cert.Spec.Params.g2 𝔭) (Cert.Spec.Params.be2 𝔭)
    (l21_apply a x1 x2 x3 x4 x5 x6 x7 x8 x9 x10 x11 x12 x13 x14 x17 x18 x19 x20 x21 x22 x23 x24 x25 x26) (l22_apply a x1 x2 x3 x4 x5 x6 x7 x8 x9 x10 x11 x12 x13 x14 x17 x18 x19 x20 x21 x22 x23 x24 x25 x26) (m2_apply a x1 x2 x3 x4 x5 x6 x7 x8 x9 x10 x11 x12 x13 x14 x17 x18 x19 x20 x21 x22 x23 x24 x25 x26) (fun d => s2_apply a x1 x2 x3 x4 x5 x6 x7 x8 x9 x10 x11 x12 x13 x14 x17 x18 x19 x20 x21 x22 x23 x24 x25 x26 d 0)
    (fun d u => by rw [pay18_eq]; rfl) (fun d u => by rw [pay20_eq]; rfl) d u

theorem l2_1_apply (d u : Fin 512) : 𝔐1 (ix2 d u) = Cert.Spec.l2K 𝔭 𝔞 d u 1 := by
  unfold l2_1
  exact pay26_of _ _ _ _ _ (Cert.Spec.z2K 𝔭 𝔞) (Cert.Spec.Params.g2 𝔭) (Cert.Spec.Params.be2 𝔭)
    (l22_apply a x1 x2 x3 x4 x5 x6 x7 x8 x9 x10 x11 x12 x13 x14 x17 x18 x19 x20 x21 x22 x23 x24 x25 x26) (m2_apply a x1 x2 x3 x4 x5 x6 x7 x8 x9 x10 x11 x12 x13 x14 x17 x18 x19 x20 x21 x22 x23 x24 x25 x26) (fun d => s2_apply a x1 x2 x3 x4 x5 x6 x7 x8 x9 x10 x11 x12 x13 x14 x17 x18 x19 x20 x21 x22 x23 x24 x25 x26 d 0)
    (fun d u => by rw [pay19_eq]; rfl) (fun d u => by rw [pay21_eq]; rfl) d u

theorem outRow_apply (u : Fin 512) : outRow a 𝔐0 𝔐1 x11 x12 x13 x14 x25 x26 (ix1 u) = Cert.Spec.rowK 𝔭 𝔞 u := by
  unfold outRow
  exact pay30_of x14 (k0_pay3 a) 𝔐0 𝔐1 (k0_pay27 x11) (k0_pay28 x12) (k0_pay29 x13) x25 x26
    (Cert.Spec.l3K 𝔭 𝔞) (Cert.Spec.Params.g3 𝔭) (Cert.Spec.Params.be3 𝔭) 𝔞
    (fun d u => by
      rw [l2_0_apply a x1 x2 x3 x4 x5 x6 x7 x8 x9 x10 x11 x12 x13 x14 x17 x18 x19 x20 x21 x22 x23 x24 x25 x26, l2_1_apply a x1 x2 x3 x4 x5 x6 x7 x8 x9 x10 x11 x12 x13 x14 x17 x18 x19 x20 x21 x22 x23 x24 x25 x26, pay27_eq, pay28_eq, pay29_eq]
      rfl)
    (fun _ _ => rfl) (fun _ _ => rfl) (fun d => pay3_col_apply a d 0) u

/-- What one trip stores is the row function in the kernel's arrangement, of the normalised row and the parameters. -/
theorem pay_row (u : Fin 512) :
    rowPay a x1 x2 x3 x4 x5 x6 x7 x8 x9 x10 x11 x12 x13 x14 x17 x18 x19 x20 x21 x22 x23 x24 x25 x26 (ix2 (0 : Fin 1) u)
      = Cert.Spec.rowK 𝔭 𝔞 u := by
  unfold rowPay
  rw [pay2_apply]
  exact outRow_apply a x1 x2 x3 x4 x5 x6 x7 x8 x9 x10 x11 x12 x13 x14 x17 x18 x19 x20 x21 x22 x23 x24 x25 x26 u

end Cert.KerPay

end
-- ==== Proof.KerBlock.lean ====
/-
  The block the row loop fills, entry by entry at the ideal values: entry `(r, u)` is the row function, in the kernel's
  arrangement, of row `r` of the scratch tile; and the tile, stored before the loop, holds row by row the first
  normalisation of the input block. So entry `(r, u)` of the block is the row function of the normalised row `r` of the
  input block.
-/
import proofs.«123119_j23965917511984_2_alg».proof.Proof.KerPieces
import proofs.«123119_j23965917511984_2_alg».proof.Proof.KerPayB

noncomputable section

namespace Cert.KernelIdeal.Gen

open Idealize.ShloMosaic Idealize.ShloMosaic.ValueIdx

theorem blockFn_apply (T : Vec Ideal S8x512 .f32) (x1 x2 x3 x4 x5 x6 x7 x8 x9 x10 x11 x12 x13 : Vec Ideal S512x512 .f32)
    (x14 : Vec Ideal S512 .f32) (x17 x18 x19 x20 x21 x22 x23 x24 x25 x26 : Vec Ideal S512x512 .f32) (r : Fin 8) (u : Fin 512) :
    blockFn T x1 x2 x3 x4 x5 x6 x7 x8 x9 x10 x11 x12 x13 x14 x17 x18 x19 x20 x21 x22 x23 x24 x25 x26 (ix2 r u)
      = Cert.Spec.rowK (Cert.Spec.prmK x1 x2 x3 x4 x5 x6 x7 x8 x9 x10 x11 x12 x13 x14 x17 x18 x19 x20 x21 x22 x23 x24 x25 x26) (fun d => T (ix2 r d)) u := by
  unfold blockFn
  exact Cert.KerPay.pay_row (rowAt T r) x1 x2 x3 x4 x5 x6 x7 x8 x9 x10 x11 x12 x13 x14 x17 x18 x19 x20 x21 x22 x23 x24 x25 x26 u

/-- With the tile the first normalisation of the input block `x0` (scale `x15`, shift `x16`), row by row. -/
theorem blockFn_tile_apply (x0 : Vec Ideal S8x512 .f32) (x15 x16 : Vec Ideal S512 .f32)
    (x1 x2 x3 x4 x5 x6 x7 x8 x9 x10 x11 x12 x13 : Vec Ideal S512x512 .f32)
    (x14 : Vec Ideal S512 .f32) (x17 x18 x19 x20 x21 x22 x23 x24 x25 x26 : Vec Ideal S512x512 .f32) (r : Fin 8) (u : Fin 512) :
    blockFn (k0_pay1 (F := Ideal) x0 x15 x16) x1 x2 x3 x4 x5 x6 x7 x8 x9 x10 x11 x12 x13 x14 x17 x18 x19 x20 x21 x22 x23 x24 x25 x26 (ix2 r u)
      = Cert.Spec.rowK (Cert.Spec.prmK x1 x2 x3 x4 x5 x6 x7 x8 x9 x10 x11 x12 x13 x14 x17 x18 x19 x20 x21 x22 x23 x24 x25 x26)
          (Cert.Spec.xnRow (fun d => x0 (ix2 r d)) (fun d => x15 (ix1 d)) (fun d => x16 (ix1 d))) u := by
  rw [blockFn_apply]
  congr 1
  funext d
  exact Cert.KerPay.pay_xn x0 x15 x16 r d

end Cert.KernelIdeal.Gen

end
-- ==== Proof.KerBody.lean ====
/-
  What one grid point leaves in the result's staging block. The body stores the normalised tile into the scratch, then
  runs the row loop: eight stores, one row each. Read back, the eight rows are ONE function of the block index — entry
  `(r, u)` is the row function of row `r` of the tile — because each stored piece is that function on its own row and the
  rows tile the block.
-/
import proofs.«123119_j23965917511984_2_alg».proof.Proof.KIFrame
import proofs.«123119_j23965917511984_2_alg».proof.Proof.KerBlock

set_option maxRecDepth 65536

noncomputable section

namespace Cert.KernelIdeal.Gen

open Idealize.ShloMosaic Idealize.ShloMosaic.TcCoe Idealize.ShloMosaic.Tactic Idealize.SL Idealize.SL.Sem Idealize.ShloMosaic.ValueIdx

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- A whole-operand load of a buffer that reads `x` reads `x`. -/
theorem ldW_unread (arg : Memref sig .tc .vmem S512x512 .f32) (harg : arg.IsWhole) (x : Vec F S512x512 .f32) :
    ldW arg (harg.unread x) = x := by
  unfold ldW
  rw [View.readAt_eq_ld, harg.read_unread]
  exact View.ld_unit_zero zero2 _ x

/-- A whole load of a [512] operand whose buffer reads `x` reads `x`. -/
theorem ldV_unread (arg : Memref sig .tc .vmem S512 .f32) (harg : arg.IsWhole) (x : Vec F S512 .f32) :
    View.readAt (Elt F) arg.view (Rect.unit (s := S512) ![0] S512.size inb_S512_S512_0).toLoadRect (harg.unread x) = x := by
  rw [View.readAt_eq_ld, harg.read_unread]
  exact View.ld_unit_zero zero1 _ x

/-- A whole load of an [8, 512] block whose buffer reads `x` reads `x`. -/
theorem ldT_unread (arg : Memref sig .tc .vmem S8x512 .f32) (harg : arg.IsWhole) (x : Vec F S8x512 .f32) :
    View.readAt (Elt F) arg.view (Rect.unit (s := S8x512) ![0, 0] S8x512.size inb_S8x512_S8x512_0_0).toLoadRect (harg.unread x) = x := by
  rw [View.readAt_eq_ld, harg.read_unread]
  exact View.ld_unit_zero zero2 _ x

/-- The scratch after one whole store of a tile reads that tile. -/
theorem tile_read (arg29 : Memref sig .tc .vmem S8x512 .f32) (T : Vec F S8x512 .f32) :
    arg29.view.read (Elt F) (arg29.view.writes (Elt F) arg29.view.junk
      [⟨Rect.unit (s := S8x512) ![0, 0] S8x512.size inb_S8x512_S8x512_0_0, T⟩]) = T := by
  rw [View.read_writes_eq_canon _ _ _ (fun y => ⟨_, List.mem_singleton_self _, View.mem_set_unit_zero zero2 inb_S8x512_S8x512_0_0 y⟩)]
  exact View.canon_unit_zero zero2 _ T

set_option maxHeartbeats 8000000 in
/-- The result's staging block after the body: the block function of the normalised tile and the operands. -/
theorem out0_A_27_eq (c : Dev nD) (i : grid0.Coords) (arg1 : Memref sig .tc .vmem S8x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512 .f32) (harg16 : arg16.IsWhole) (arg17 : Memref sig .tc .vmem S512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole)
    (x0 : Vec F S8x512 .f32) (x1 : Vec F S512x512 .f32) (x2 : Vec F S512x512 .f32) (x3 : Vec F S512x512 .f32) (x4 : Vec F S512x512 .f32) (x5 : Vec F S512x512 .f32) (x6 : Vec F S512x512 .f32) (x7 : Vec F S512x512 .f32) (x8 : Vec F S512x512 .f32) (x9 : Vec F S512x512 .f32) (x10 : Vec F S512x512 .f32) (x11 : Vec F S512x512 .f32) (x12 : Vec F S512x512 .f32) (x13 : Vec F S512x512 .f32) (x14 : Vec F S512 .f32) (x15 : Vec F S512 .f32) (x16 : Vec F S512 .f32) (x17 : Vec F S512x512 .f32) (x18 : Vec F S512x512 .f32) (x19 : Vec F S512x512 .f32) (x20 : Vec F S512x512 .f32) (x21 : Vec F S512x512 .f32) (x22 : Vec F S512x512 .f32) (x23 : Vec F S512x512 .f32) (x24 : Vec F S512x512 .f32) (x25 : Vec F S512x512 .f32) (x26 : Vec F S512x512 .f32) :
    out0_A_27 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26
      = blockFn (k0_pay1 x0 x15 x16) x1 x2 x3 x4 x5 x6 x7 x8 x9 x10 x11 x12 x13 x14 x17 x18 x19 x20 x21 x22 x23 x24 x25 x26 := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26)]
  funext y
  refine View.canon_apply_of_pieces _ _ ?_ y (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23 x24 x25 x26 y)
  intro p hp x
  unfold kernelRun0_A at hp
  dsimp only at hp
  have h := pb_restricts (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 _ _ _ _ _ _ _ _ _ _ _ _ _ _ _ _ _ _ _ _ _ _ _ _ _ _ _ (Nat.le_refl _) p hp x
  rw [h]
  sl_unfold_words
  simp only [ldW_unread]
  show blockFn
      (View.read (Elt F) arg29.view
        (arg29.view.writes (Elt F) arg29.view.junk
          [⟨Rect.unit (s := S8x512) ![0, 0] S8x512.size inb_S8x512_S8x512_0_0,
              k0_pay1
                (View.readAt (Elt F) arg1.view (Rect.unit (s := S8x512) ![0, 0] S8x512.size inb_S8x512_S8x512_0_0).toLoadRect (harg1.unread x0))
                (View.readAt (Elt F) arg16.view (Rect.unit (s := S512) ![0] S512.size inb_S512_S512_0).toLoadRect (harg16.unread x15))
                (View.readAt (Elt F) arg17.view (Rect.unit (s := S512) ![0] S512.size inb_S512_S512_0).toLoadRect (harg17.unread x16))⟩]))
      x1 x2 x3 x4 x5 x6 x7 x8 x9 x10 x11 x12 x13
      (View.readAt (Elt F) arg15.view (Rect.unit (s := S512) ![0] S512.size inb_S512_S512_0).toLoadRect (harg15.unread x14)) x17 x18 x19 x20 x21 x22 x23 x24 x25 x26 (p.fst.emb x) = _
  rw [tile_read, ldT_unread, ldV_unread arg16 harg16, ldV_unread arg17 harg17, ldV_unread arg15 harg15]

end Cert.KernelIdeal.Gen

end
-- ==== Proof.KerHost.lean ====
/-
  What the kernel's operands hold. Before the launch the host cuts every parameter array with a last axis of two into
  its two channels and drops every unit axis, so each [512, 512] operand is one channel of one argument; every such operand
  and the three vectors are staged whole at every grid point, and the input is staged eight rows at a time: the block of
  point `t` holds rows `8 t … 8 t + 7`.

  Three readings are composed for each operand. A block's entry sits, on each axis, at the block index times the block's
  extent plus the entry's own coordinate; for an operand staged whole the block index is zero at every grid point, so the
  block is the array. The array is what the host's operations left there: a reshape that drops unit axes keeps the
  row-major position, so entry (d, u) of the [512, 512] array is entry (0, d, u, 0) (or (d, u, 0)) of what was reshaped;
  and a slice at offset `k` on the last axis reads entry `k` there.
-/
import proofs.«123119_j23965917511984_2_alg».proof.Proof.Gen.KernelIdeal.Frame.Runs
import proofs.«123119_j23965917511984_2_alg».proof.Proof.Spec
import Idealize.ShloMosaic.Lib.Pipeline.Value

noncomputable section

namespace Cert.KerHost

open Cert.KernelIdeal Cert.KernelIdeal.Gen Idealize.ShloMosaic Idealize.ShloMosaic.TcCoe Idealize.SL.Sem Idealize.ShloMosaic.ValueIdx

/-! ## Reshapes and slices read at an index -/

/-- A [1, 512, 512, 1] array viewed [512, 512]: entry (d, u) is entry (0, d, u, 0). -/
theorem unit4_apply (x : S1x512x512x1.Idx → EReal) (hc : S1x512x512x1.ShapeCasts S512x512) (d u : Fin 512) :
    shapeCast S512x512 x hc (ix2 d u) = x (ix4 0 d u 0) := by
  refine shapeCast_apply x hc (ix2 d u) (ix4 0 d u 0) ?_
  rw [Shape.rowMajor_val_four, Shape.rowMajor_val_two]
  show ((0 * 512 + d.val) * 512 + u.val) * 1 + 0 = d.val * 512 + u.val
  omega

/-- A [512, 512, 1] array viewed [512, 512]: entry (d, u) is entry (d, u, 0). -/
theorem unit3_apply (x : S512x512x1.Idx → EReal) (hc : S512x512x1.ShapeCasts S512x512) (d u : Fin 512) :
    shapeCast S512x512 x hc (ix2 d u) = x (ix3 d u 0) := by
  refine shapeCast_apply x hc (ix2 d u) (ix3 d u 0) ?_
  rw [Shape.rowMajor_val_three, Shape.rowMajor_val_two]
  show (d.val * 512 + u.val) * 1 + 0 = d.val * 512 + u.val
  omega

/-- Channel `k` of a [1, 512, 512, 2] array, viewed [512, 512]: entry (d, u) is entry (0, d, u, k). -/
theorem chan4_apply (x : S1x512x512x2.Idx → EReal) (k : Nat) (hk : k < 2)
    (h : S1x512x512x2.Slices ![0, 0, 0, k] S1x512x512x1) (hc : S1x512x512x1.ShapeCasts S512x512) (d u : Fin 512) :
    shapeCast S512x512 (extractStridedSlice S1x512x512x1 ![0, 0, 0, k] x h) hc (ix2 d u) = x (ix4 0 d u ⟨k, hk⟩) := by
  rw [unit4_apply]
  refine extractStridedSlice_apply _ x h _ _ fun a => ?_
  match a with
  | ⟨0, _⟩ => rfl
  | ⟨1, _⟩ => show d.val = 0 + d.val; omega
  | ⟨2, _⟩ => show u.val = 0 + u.val; omega
  | ⟨3, _⟩ => show k = k + 0; omega

/-- Channel `k` of a [512, 512, 2] array, viewed [512, 512]: entry (d, u) is entry (d, u, k). -/
theorem chan3_apply (x : S512x512x2.Idx → EReal) (k : Nat) (hk : k < 2)
    (h : S512x512x2.Slices ![0, 0, k] S512x512x1) (hc : S512x512x1.ShapeCasts S512x512) (d u : Fin 512) :
    shapeCast S512x512 (extractStridedSlice S512x512x1 ![0, 0, k] x h) hc (ix2 d u) = x (ix3 d u ⟨k, hk⟩) := by
  rw [unit3_apply]
  refine extractStridedSlice_apply _ x h _ _ fun a => ?_
  match a with
  | ⟨0, _⟩ => show d.val = 0 + d.val; omega
  | ⟨1, _⟩ => show u.val = 0 + u.val; omega
  | ⟨2, _⟩ => show k = k + 0; omega

/-- Two [512, 512] arrays that are the two channels of `x`, joined along a last axis of two, are `x`. -/
theorem cat_chan {x : Fin 512 → Fin 512 → Fin 2 → EReal} {A B : Fin 512 → Fin 512 → EReal}
    (hA : ∀ d u, A d u = x d u 0) (hB : ∀ d u, B d u = x d u 1) : Cert.Spec.cat A B = x := by
  funext d u ch
  rcases ch with ⟨_ | _ | n, h⟩
  · exact (if_pos rfl).trans (hA d u)
  · exact (if_neg fun e => absurd (congrArg Fin.val e) Nat.one_ne_zero).trans (hB d u)
  · omega

variable (m : (ℓ : Loc nD τ sig) → Buf (Elt Ideal) ℓ)

/-! ## The blocks

  The steps every operand shares are written once, as tactics over the names `m c t d u` of the statements below. -/

set_option hygiene false in
/-- The block of a [512, 512] operand staged whole, read at (d, u): the window's block index is zero on both axes at every
    grid point (decided over the eight points), so the entry sits at `0 · 512 + 1 · d`, `0 · 512 + 1 · u` of the array.
    What is left is the array's entry (d, u) as the host left it. -/
local macro "whole_block " n:num w:ident v:ident : tactic => `(tactic| (
  obtain ⟨e0, e1⟩ := (by decide +kernel : ∀ t : Fin grid0.N, ($w).index t (0 : Fin 2) = 0 ∧ ($w).index t (1 : Fin 2) = 0) t
  show (V m c $v : S512x512.Idx → EReal) (((cfg0.win $n).blk t).view.emb (ix2 d u)) = _
  refine (congrArg (V m c $v : S512x512.Idx → EReal) (?_ : _ = ix2 d u)).trans ?_
  · funext a; apply Fin.ext
    match a with
    | ⟨0, _⟩ => show ($w).index t (0 : Fin 2) * 512 + 1 * d.val = d.val; rw [e0]; omega
    | ⟨1, _⟩ => show ($w).index t (1 : Fin 2) * 512 + 1 * u.val = u.val; rw [e1]; omega))

set_option hygiene false in
/-- The same for a vector of 512 staged whole, read at `d`. -/
local macro "whole_row " n:num w:ident v:ident : tactic => `(tactic| (
  have e0 := (by decide +kernel : ∀ t : Fin grid0.N, ($w).index t (0 : Fin 1) = 0) t
  show (V m c $v : S512.Idx → EReal) (((cfg0.win $n).blk t).view.emb (ix1 d)) = _
  refine (congrArg (V m c $v : S512.Idx → EReal) (?_ : _ = ix1 d)).trans ?_
  · funext a; apply Fin.ext
    match a with
    | ⟨0, _⟩ => show ($w).index t (0 : Fin 1) * 512 + 1 * d.val = d.val; rw [e0]; omega))

set_option hygiene false in
/-- The array is channel `k` of a [1, 512, 512, 2] argument, cut out and reshaped by the host. -/
local macro "cut4 " v:ident a:ident k:num s:ident : tactic => `(tactic| (
  refine (congrFun (show (V m c $v : S512x512.Idx → EReal) = shapeCast S512x512 (extractStridedSlice S1x512x512x1 ![0, 0, 0, $k]
      (m ((c : Thread nD τ).loc $a) : S1x512x512x2.Idx → EReal) $s) shapeCasts_S1x512x512x1_S512x512 from by
    dsimp only [Gen.V, Gen.hostOps0]; after_results; rfl) (ix2 d u)).trans ?_
  exact chan4_apply _ $k (by decide) _ _ d u))

set_option hygiene false in
/-- The array is channel `k` of a [512, 512, 2] argument, cut out and reshaped by the host. -/
local macro "cut3 " v:ident a:ident k:num s:ident : tactic => `(tactic| (
  refine (congrFun (show (V m c $v : S512x512.Idx → EReal) = shapeCast S512x512 (extractStridedSlice S512x512x1 ![0, 0, $k]
      (m ((c : Thread nD τ).loc $a) : S512x512x2.Idx → EReal) $s) shapeCasts_S512x512x1_S512x512 from by
    dsimp only [Gen.V, Gen.hostOps0]; after_results; rfl) (ix2 d u)).trans ?_
  exact chan3_apply _ $k (by decide) _ _ d u))

set_option hygiene false in
/-- The array is a [1, 512, 512, 1] argument reshaped by the host. -/
local macro "flat4 " v:ident a:ident : tactic => `(tactic| (
  refine (congrFun (show (V m c $v : S512x512.Idx → EReal) = shapeCast S512x512
      (m ((c : Thread nD τ).loc $a) : S1x512x512x1.Idx → EReal) shapeCasts_S1x512x512x1_S512x512 from by
    dsimp only [Gen.V, Gen.hostOps0]; after_results; rfl) (ix2 d u)).trans ?_
  exact unit4_apply _ _ d u))

set_option hygiene false in
/-- The array is a [512, 512, 1] argument reshaped by the host. -/
local macro "flat3 " v:ident a:ident : tactic => `(tactic| (
  refine (congrFun (show (V m c $v : S512x512.Idx → EReal) = shapeCast S512x512
      (m ((c : Thread nD τ).loc $a) : S512x512x1.Idx → EReal) shapeCasts_S512x512x1_S512x512 from by
    dsimp only [Gen.V, Gen.hostOps0]; after_results; rfl) (ix2 d u)).trans ?_
  exact unit3_apply _ _ d u))

/-- The first layer's weight, channel 0. -/
theorem w1_0_blk (c : Dev nD) (t : Fin cfg0.N) (d u : Fin 512) :
    (iblk m c 1 t : S512x512.Idx → EReal) (ix2 d u) = m ((c : Thread nD τ).loc main_arg1) (ix4 0 d u 0) := by
  whole_block 1 win0_1 main_v1; cut4 main_v1 main_arg1 0 slices_S1x512x512x2_S1x512x512x1_0_0_0_0
/-- The first layer's weight, channel 1. -/
theorem w1_1_blk (c : Dev nD) (t : Fin cfg0.N) (d u : Fin 512) :
    (iblk m c 2 t : S512x512.Idx → EReal) (ix2 d u) = m ((c : Thread nD τ).loc main_arg1) (ix4 0 d u 1) := by
  whole_block 2 win0_2 main_v3; cut4 main_v3 main_arg1 1 slices_S1x512x512x2_S1x512x512x1_0_0_0_1
/-- The first layer's shift, channel 0. -/
theorem b1_0_blk (c : Dev nD) (t : Fin cfg0.N) (d u : Fin 512) :
    (iblk m c 3 t : S512x512.Idx → EReal) (ix2 d u) = m ((c : Thread nD τ).loc main_arg2) (ix4 0 d u 0) := by
  whole_block 3 win0_3 main_v5; cut4 main_v5 main_arg2 0 slices_S1x512x512x2_S1x512x512x1_0_0_0_0
/-- The first layer's shift, channel 1. -/
theorem b1_1_blk (c : Dev nD) (t : Fin cfg0.N) (d u : Fin 512) :
    (iblk m c 4 t : S512x512.Idx → EReal) (ix2 d u) = m ((c : Thread nD τ).loc main_arg2) (ix4 0 d u 1) := by
  whole_block 4 win0_4 main_v7; cut4 main_v7 main_arg2 1 slices_S1x512x512x2_S1x512x512x1_0_0_0_1
/-- The second layer's first weight, channel 0. -/
theorem w21_0_blk (c : Dev nD) (t : Fin cfg0.N) (d u : Fin 512) :
    (iblk m c 5 t : S512x512.Idx → EReal) (ix2 d u) = m ((c : Thread nD τ).loc main_arg3) (ix4 0 d u 0) := by
  whole_block 5 win0_5 main_v9; cut4 main_v9 main_arg3 0 slices_S1x512x512x2_S1x512x512x1_0_0_0_0
/-- The second layer's first weight, channel 1. -/
theorem w21_1_blk (c : Dev nD) (t : Fin cfg0.N) (d u : Fin 512) :
    (iblk m c 6 t : S512x512.Idx → EReal) (ix2 d u) = m ((c : Thread nD τ).loc main_arg3) (ix4 0 d u 1) := by
  whole_block 6 win0_6 main_v11; cut4 main_v11 main_arg3 1 slices_S1x512x512x2_S1x512x512x1_0_0_0_1
/-- The second layer's second weight, channel 0. -/
theorem w22_0_blk (c : Dev nD) (t : Fin cfg0.N) (d u : Fin 512) :
    (iblk m c 7 t : S512x512.Idx → EReal) (ix2 d u) = m ((c : Thread nD τ).loc main_arg4) (ix4 0 d u 0) := by
  whole_block 7 win0_7 main_v13; cut4 main_v13 main_arg4 0 slices_S1x512x512x2_S1x512x512x1_0_0_0_0
/-- The second layer's second weight, channel 1. -/
theorem w22_1_blk (c : Dev nD) (t : Fin cfg0.N) (d u : Fin 512) :
    (iblk m c 8 t : S512x512.Idx → EReal) (ix2 d u) = m ((c : Thread nD τ).loc main_arg4) (ix4 0 d u 1) := by
  whole_block 8 win0_8 main_v15; cut4 main_v15 main_arg4 1 slices_S1x512x512x2_S1x512x512x1_0_0_0_1
/-- The second layer's first shift. -/
theorem b21_blk (c : Dev nD) (t : Fin cfg0.N) (d u : Fin 512) :
    (iblk m c 9 t : S512x512.Idx → EReal) (ix2 d u) = m ((c : Thread nD τ).loc main_arg5) (ix4 0 d u 0) := by
  whole_block 9 win0_9 main_v20; flat4 main_v20 main_arg5
/-- The second layer's second shift. -/
theorem b22_blk (c : Dev nD) (t : Fin cfg0.N) (d u : Fin 512) :
    (iblk m c 10 t : S512x512.Idx → EReal) (ix2 d u) = m ((c : Thread nD τ).loc main_arg6) (ix4 0 d u 0) := by
  whole_block 10 win0_10 main_v21; flat4 main_v21 main_arg6
/-- The third layer's weight, channel 0. -/
theorem w3_0_blk (c : Dev nD) (t : Fin cfg0.N) (d u : Fin 512) :
    (iblk m c 11 t : S512x512.Idx → EReal) (ix2 d u) = m ((c : Thread nD τ).loc main_arg7) (ix4 0 d u 0) := by
  whole_block 11 win0_11 main_v17; cut4 main_v17 main_arg7 0 slices_S1x512x512x2_S1x512x512x1_0_0_0_0
/-- The third layer's weight, channel 1. -/
theorem w3_1_blk (c : Dev nD) (t : Fin cfg0.N) (d u : Fin 512) :
    (iblk m c 12 t : S512x512.Idx → EReal) (ix2 d u) = m ((c : Thread nD τ).loc main_arg7) (ix4 0 d u 1) := by
  whole_block 12 win0_12 main_v19; cut4 main_v19 main_arg7 1 slices_S1x512x512x2_S1x512x512x1_0_0_0_1
/-- The third layer's shift. -/
theorem b3_blk (c : Dev nD) (t : Fin cfg0.N) (d u : Fin 512) :
    (iblk m c 13 t : S512x512.Idx → EReal) (ix2 d u) = m ((c : Thread nD τ).loc main_arg8) (ix4 0 d u 0) := by
  whole_block 13 win0_13 main_v22; flat4 main_v22 main_arg8
/-- The last shift, a vector staged whole. -/
theorem bias_blk (c : Dev nD) (t : Fin cfg0.N) (d : Fin 512) :
    (iblk m c 14 t : S512.Idx → EReal) (ix1 d) = m ((c : Thread nD τ).loc main_arg9) (ix1 d) := by
  whole_row 14 win0_14 main_arg9; rw [V_main_arg9 m c]
/-- The second normalisation's scale, channel 0. -/
theorem g1_0_blk (c : Dev nD) (t : Fin cfg0.N) (d u : Fin 512) :
    (iblk m c 17 t : S512x512.Idx → EReal) (ix2 d u) = m ((c : Thread nD τ).loc main_arg12) (ix3 d u 0) := by
  whole_block 17 win0_17 main_v24; cut3 main_v24 main_arg12 0 slices_S512x512x2_S512x512x1_0_0_0
/-- The second normalisation's scale, channel 1. -/
theorem g1_1_blk (c : Dev nD) (t : Fin cfg0.N) (d u : Fin 512) :
    (iblk m c 18 t : S512x512.Idx → EReal) (ix2 d u) = m ((c : Thread nD τ).loc main_arg12) (ix3 d u 1) := by
  whole_block 18 win0_18 main_v26; cut3 main_v26 main_arg12 1 slices_S512x512x2_S512x512x1_0_0_1
/-- The second normalisation's shift, channel 0. -/
theorem be1_0_blk (c : Dev nD) (t : Fin cfg0.N) (d u : Fin 512) :
    (iblk m c 19 t : S512x512.Idx → EReal) (ix2 d u) = m ((c : Thread nD τ).loc main_arg13) (ix3 d u 0) := by
  whole_block 19 win0_19 main_v28; cut3 main_v28 main_arg13 0 slices_S512x512x2_S512x512x1_0_0_0
/-- The second normalisation's shift, channel 1. -/
theorem be1_1_blk (c : Dev nD) (t : Fin cfg0.N) (d u : Fin 512) :
    (iblk m c 20 t : S512x512.Idx → EReal) (ix2 d u) = m ((c : Thread nD τ).loc main_arg13) (ix3 d u 1) := by
  whole_block 20 win0_20 main_v30; cut3 main_v30 main_arg13 1 slices_S512x512x2_S512x512x1_0_0_1
/-- The third normalisation's scale, channel 0. -/
theorem g2_0_blk (c : Dev nD) (t : Fin cfg0.N) (d u : Fin 512) :
    (iblk m c 21 t : S512x512.Idx → EReal) (ix2 d u) = m ((c : Thread nD τ).loc main_arg14) (ix3 d u 0) := by
  whole_block 21 win0_21 main_v32; cut3 main_v32 main_arg14 0 slices_S512x512x2_S512x512x1_0_0_0
/-- The third normalisation's scale, channel 1. -/
theorem g2_1_blk (c : Dev nD) (t : Fin cfg0.N) (d u : Fin 512) :
    (iblk m c 22 t : S512x512.Idx → EReal) (ix2 d u) = m ((c : Thread nD τ).loc main_arg14) (ix3 d u 1) := by
  whole_block 22 win0_22 main_v34; cut3 main_v34 main_arg14 1 slices_S512x512x2_S512x512x1_0_0_1
/-- The third normalisation's shift, channel 0. -/
theorem be2_0_blk (c : Dev nD) (t : Fin cfg0.N) (d u : Fin 512) :
    (iblk m c 23 t : S512x512.Idx → EReal) (ix2 d u) = m ((c : Thread nD τ).loc main_arg15) (ix3 d u 0) := by
  whole_block 23 win0_23 main_v36; cut3 main_v36 main_arg15 0 slices_S512x512x2_S512x512x1_0_0_0
/-- The third normalisation's shift, channel 1. -/
theorem be2_1_blk (c : Dev nD) (t : Fin cfg0.N) (d u : Fin 512) :
    (iblk m c 24 t : S512x512.Idx → EReal) (ix2 d u) = m ((c : Thread nD τ).loc main_arg15) (ix3 d u 1) := by
  whole_block 24 win0_24 main_v38; cut3 main_v38 main_arg15 1 slices_S512x512x2_S512x512x1_0_0_1
/-- The last normalisation's scale. -/
theorem g3_blk (c : Dev nD) (t : Fin cfg0.N) (d u : Fin 512) :
    (iblk m c 25 t : S512x512.Idx → EReal) (ix2 d u) = m ((c : Thread nD τ).loc main_arg16) (ix3 d u 0) := by
  whole_block 25 win0_25 main_v39; flat3 main_v39 main_arg16
/-- The last normalisation's shift. -/
theorem be3_blk (c : Dev nD) (t : Fin cfg0.N) (d u : Fin 512) :
    (iblk m c 26 t : S512x512.Idx → EReal) (ix2 d u) = m ((c : Thread nD τ).loc main_arg17) (ix3 d u 0) := by
  whole_block 26 win0_26 main_v40; flat3 main_v40 main_arg17

/-! ## The statements the other modules use -/

/-- Row `k` of the input's block at point `t` is row `8 t + k` of the input. -/
theorem xblk_apply (c : Dev nD) (t : Fin cfg0.N) (k : Fin 8) (d : Fin 512) (b : Fin 64) (hb : b.val = 8 * t.val + k.val) :
    (iblk m c 0 t : S8x512.Idx → EReal) (ix2 k d) = m ((c : Thread nD τ).loc main_arg0) (ix2 b d) := by
  obtain ⟨e0, e1⟩ := (by decide +kernel : ∀ t : Fin grid0.N, win0_0.index t (0 : Fin 2) = t.val ∧ win0_0.index t (1 : Fin 2) = 0) t
  rw [← V_main_arg0 m c]
  show (V m c main_arg0 : S64x512.Idx → EReal) (((cfg0.win 0).blk t).view.emb (ix2 k d)) = _
  refine congrArg (V m c main_arg0 : S64x512.Idx → EReal) ?_
  funext a; apply Fin.ext
  match a with
  | ⟨0, _⟩ => show win0_0.index t (0 : Fin 2) * 8 + 1 * k.val = b.val; rw [e0, hb]; omega
  | ⟨1, _⟩ => show win0_0.index t (1 : Fin 2) * 512 + 1 * d.val = d.val; rw [e1]; omega

/-- The scale of the first normalisation, staged whole. -/
theorem g0blk_apply (c : Dev nD) (t : Fin cfg0.N) (d : Fin 512) :
    (iblk m c 15 t : S512.Idx → EReal) (ix1 d) = m ((c : Thread nD τ).loc main_arg10) (ix1 d) := by
  whole_row 15 win0_15 main_arg10; rw [V_main_arg10 m c]

/-- The shift of the first normalisation, staged whole. -/
theorem be0blk_apply (c : Dev nD) (t : Fin cfg0.N) (d : Fin 512) :
    (iblk m c 16 t : S512.Idx → EReal) (ix1 d) = m ((c : Thread nD τ).loc main_arg11) (ix1 d) := by
  whole_row 16 win0_16 main_arg11; rw [V_main_arg11 m c]

/-- The parameters read off the kernel's staged operands are the parameters read off the argument arrays. -/
theorem prm_blocks (c : Dev nD) (t : Fin cfg0.N) :
    Cert.Spec.prmK (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 17 t) (iblk m c 18 t) (iblk m c 19 t) (iblk m c 20 t) (iblk m c 21 t) (iblk m c 22 t) (iblk m c 23 t) (iblk m c 24 t) (iblk m c 25 t) (iblk m c 26 t)
      = Cert.Spec.prm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Cert.Spec.prmK Cert.Spec.prm
  rw [Cert.Spec.Params.mk.injEq]
  refine ⟨?_, ?_, ?_, ?_, ?_, ?_, ?_, ?_, ?_, ?_, ?_, ?_, ?_, ?_, ?_⟩
  · exact cat_chan (w1_0_blk m c t) (w1_1_blk m c t)
  · exact cat_chan (b1_0_blk m c t) (b1_1_blk m c t)
  · exact cat_chan (w21_0_blk m c t) (w21_1_blk m c t)
  · exact cat_chan (w22_0_blk m c t) (w22_1_blk m c t)
  · exact funext fun d => funext fun u => b21_blk m c t d u
  · exact funext fun d => funext fun u => b22_blk m c t d u
  · exact cat_chan (w3_0_blk m c t) (w3_1_blk m c t)
  · exact funext fun d => funext fun u => b3_blk m c t d u
  · exact funext fun u => bias_blk m c t u
  · exact cat_chan (g1_0_blk m c t) (g1_1_blk m c t)
  · exact cat_chan (be1_0_blk m c t) (be1_1_blk m c t)
  · exact cat_chan (g2_0_blk m c t) (g2_1_blk m c t)
  · exact cat_chan (be2_0_blk m c t) (be2_1_blk m c t)
  · exact funext fun d => funext fun u => g3_blk m c t d u
  · exact funext fun d => funext fun u => be3_blk m c t d u

end Cert.KerHost

end
-- ==== Proof.Algebra.lean ====
/-
  The two arrangements of a normalisation agree on real numbers.

  For real `z` over a finite index set of `N` entries with mean `m = (∑ z) / N`, the mean of the squares less `m²` is the
  mean of the squared differences from `m`; and `z · (r · g) + (be − m · (r · g)) = (z − m) · r · g + be`. The variance is a
  mean of squares, so it is not negative, the constant added to it is positive, and the reciprocal square root of a positive
  real is a real: every layer of the row function keeps real numbers real, and the two arrangements of the row agree.
-/
import proofs.«123119_j23965917511984_2_alg».proof.Proof.Spec

noncomputable section

open scoped BigOperators

namespace Cert.Spec

open Idealize.ShloMosaic

/-! ## Real numbers among the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (hf : ∀ i, IsReal (f i)) :
    IsReal (∑ i ∈ s, f i) := by
  choose g hg using hf
  exact ⟨∑ i ∈ s, g i, by rw [← coe_sum]; exact Finset.sum_congr rfl fun i _ => hg i⟩

/-! ## The literals -/

theorem c512_eq : c512 = ((512 : ℝ) : EReal) := by
  unfold c512; simp [Ideal.ofBits, Ideal.ieee, -EReal.coe_mul]; norm_num

theorem cDU2_eq : cDU2 = ((524288 : ℝ) : EReal) := by
  unfold cDU2; simp [Ideal.ofBits, Ideal.ieee, -EReal.coe_mul]; norm_num

theorem cDU_eq : cDU = ((262144 : ℝ) : EReal) := by
  unfold cDU; simp [Ideal.ofBits, Ideal.ieee, -EReal.coe_mul]; norm_num

/-- The constant added to a variance is a positive real. -/
theorem eps_pos : ∃ e : ℝ, 0 < e ∧ eps = (e : EReal) := by
  refine ⟨_, ?_, by unfold eps; simp [Ideal.ofBits, Ideal.ieee, -EReal.coe_mul]; rfl⟩
  positivity

theorem slope_isReal : IsReal slope :=
  ⟨_, by unfold slope; simp [Ideal.ofBits, Ideal.ieee, -EReal.coe_mul]; rfl⟩

theorem lrelu_isReal {t : EReal} (ht : IsReal t) : IsReal (lrelu t) := by
  unfold lrelu
  split_ifs
  · exact ht
  · exact slope_isReal.mul ht

/-! ## One normalisation over a finite index set, in the reals -/

/-- The mean of the squares less the square of the mean is the mean of the squared differences from the mean. -/
theorem real_var_identity {ι : Type*} [Fintype ι] {N : ℝ} (hN : N ≠ 0) (hc : (Fintype.card ι : ℝ) = N)
    (z : ι → ℝ) (m : ℝ) (hm : m = (∑ i, z i) * (1 / N)) :
    (∑ i, z i * z i) * (1 / N) - m * m = (∑ i, (z i - m) * (z i - m)) * (1 / N) := by
  have hs : ∑ i, z i = m * N := by rw [hm]; field_simp
  have hexp : ∑ i, (z i - m) * (z i - m) = (∑ i, z i * z i) - 2 * m * (∑ i, z i) + N * (m * m) := by
    have h1 : ∀ i, (z i - m) * (z i - m) = z i * z i - 2 * m * z i + m * m := fun i => by ring
    simp only [h1, Finset.sum_add_distrib, Finset.sum_sub_distrib, ← Finset.mul_sum, Finset.sum_const,
      Finset.card_univ, nsmul_eq_mul, hc]
    ring
  rw [hexp, hs]; field_simp; ring

/-- For real entries the mean is a real, and the reciprocal square root of the variance plus a positive constant is
    the same real whichever way the variance is arranged: the variance is a mean of squares, hence not negative. -/
theorem norm_core {ι : Type*} [Fintype ι] {N e : ℝ} (hN : 0 < N) (hc : (Fintype.card ι : ℝ) = N) (he : 0 < e)
    (z : ι → ℝ) :
    ∃ m r : ℝ,
      Ideal.div (∑ i, (z i : EReal)) (N : EReal) = (m : EReal) ∧
      Ideal.rsqrt (Ideal.div (∑ i, ((z i : EReal) - (m : EReal)) * ((z i : EReal) - (m : EReal))) (N : EReal)
        + (e : EReal)) = (r : EReal) ∧
      Ideal.rsqrt (Ideal.div (∑ i, (z i : EReal) * (z i : EReal)) (N : EReal) - (m : EReal) * (m : EReal)
        + (e : EReal)) = (r : EReal) := by
  have hN' : N ≠ 0 := hN.ne'
  set m : ℝ := (∑ i, z i) * (1 / N) with hm
  set v : ℝ := (∑ i, (z i - m) * (z i - m)) * (1 / N) with hv
  have hv0 : 0 ≤ v := by
    rw [hv]
    exact mul_nonneg (Finset.sum_nonneg fun i _ => mul_self_nonneg _) (by positivity)
  have hpos : 0 < v + e := by linarith
  have hK : (∑ i, z i * z i) * (1 / N) - m * m = v := real_var_identity hN' hc z m hm
  have hrs : Ideal.rsqrt ((v + e : ℝ) : EReal) = (((Real.sqrt (v + e))⁻¹ : ℝ) : EReal) := by
    rw [Ideal.rsqrt_coe, if_neg (not_lt.2 hpos.le), if_neg hpos.ne']
  refine ⟨m, (Real.sqrt (v + e))⁻¹, ?_, ?_, ?_⟩
  · rw [coe_sum, Ideal.div_coe hN', ← EReal.coe_mul]
  · simp only [← EReal.coe_sub, ← EReal.coe_mul]
    rw [coe_sum, Ideal.div_coe hN', ← EReal.coe_mul, ← EReal.coe_add, ← hv, hrs]
  · simp only [← EReal.coe_mul]
    rw [coe_sum, Ideal.div_coe hN', ← EReal.coe_mul, ← EReal.coe_sub, ← EReal.coe_add, hK, hrs]

/-! ## The first normalisation -/

/-- The first normalisation keeps a real row real. -/
theorem xnRow_isReal (x g0 be0 : Fin 512 → EReal) (hx : ∀ d, IsReal (x d)) (hg : ∀ d, IsReal (g0 d))
    (hb : ∀ d, IsReal (be0 d)) : ∀ d, IsReal (xnRow x g0 be0 d) := by
  have hx' := hx
  choose xr hxr using hx'
  obtain ⟨e, he, hE⟩ := eps_pos
  obtain ⟨m, r, h1, h2, -⟩ := norm_core (ι := Fin 512) (N := 512) (by norm_num) (by simp) he xr
  have hfun : x = fun d => (xr d : EReal) := funext hxr
  have hm : mean512 x = (m : EReal) := by rw [mean512, c512_eq, hfun]; exact h1
  have hr : Ideal.rsqrt (var512 x + eps) = (r : EReal) := by
    rw [var512, hm, c512_eq, hE, hfun]; exact h2
  intro d
  exact ((((hx d).sub ⟨m, hm⟩).mul ⟨r, hr⟩).mul (hg d)).add (hb d)

/-! ## The canonical nested sums as sums over one finite index set -/

theorem sum3_eq_sum (f : Fin 512 → Fin 512 → Fin 2 → EReal) :
    sum3 f = ∑ x : Fin 512 × Fin 512 × Fin 2, f x.1 x.2.1 x.2.2 := by
  unfold sum3; simp only [Fintype.sum_prod_type]

theorem sum2_eq_sum (f : Fin 512 → Fin 512 → EReal) :
    sum2 f = ∑ x : Fin 512 × Fin 512, f x.1 x.2 := by
  unfold sum2; simp only [Fintype.sum_prod_type]

theorem card3 : (Fintype.card (Fin 512 × Fin 512 × Fin 2) : ℝ) = 524288 := by
  simp only [Fintype.card_prod, Fintype.card_fin]; norm_num

theorem card2 : (Fintype.card (Fin 512 × Fin 512) : ℝ) = 262144 := by
  simp only [Fintype.card_prod, Fintype.card_fin]; norm_num

/-! ## A normalisation over all entries of a [512, 512, 2] array -/

theorem ln3_core (z : Fin 512 → Fin 512 → Fin 2 → EReal) (hz : ∀ d u c, IsReal (z d u c)) :
    ∃ m r : ℝ, mean3 z = (m : EReal) ∧ Ideal.rsqrt (varR3 z + eps) = (r : EReal)
      ∧ Ideal.rsqrt (varK3 z + eps) = (r : EReal) := by
  choose zr hzr using hz
  have hfun : z = fun d u c => (zr d u c : EReal) := by funext d u c; exact hzr d u c
  obtain ⟨e, he, hE⟩ := eps_pos
  obtain ⟨m, r, h1, h2, h3⟩ := norm_core (ι := Fin 512 × Fin 512 × Fin 2) (N := 524288) (by norm_num) card3 he
    (fun x => zr x.1 x.2.1 x.2.2)
  have hm : mean3 z = (m : EReal) := by rw [mean3, sum3_eq_sum, cDU2_eq, hfun]; exact h1
  refine ⟨m, r, hm, ?_, ?_⟩
  · rw [varR3, hm, sum3_eq_sum, cDU2_eq, hE, hfun]; exact h2
  · rw [varK3, hm, sum3_eq_sum, cDU2_eq, hE, hfun]; exact h3

/-- On real entries, scales and shifts the kernel's arrangement of the normalisation is the reference's, and its values
    are real. -/
theorem ln3 (z g be : Fin 512 → Fin 512 → Fin 2 → EReal) (hz : ∀ d u c, IsReal (z d u c))
    (hg : ∀ d u c, IsReal (g d u c)) (hbe : ∀ d u c, IsReal (be d u c)) :
    lnK3 z g be = lnR3 z g be ∧ ∀ d u c, IsReal (lnR3 z g be d u c) := by
  obtain ⟨m, r, hm, hR, hK⟩ := ln3_core z hz
  refine ⟨?_, fun d u c => ((((hz d u c).sub ⟨m, hm⟩).mul ⟨r, hR⟩).mul (hg d u c)).add (hbe d u c)⟩
  funext d u c
  obtain ⟨a, ha⟩ := hz d u c
  obtain ⟨b, hb⟩ := hg d u c
  obtain ⟨t, ht⟩ := hbe d u c
  simp only [lnK3, lnR3, hm, hR, hK, ha, hb, ht]
  simp only [← EReal.coe_mul, ← EReal.coe_sub, ← EReal.coe_add]
  rw [EReal.coe_eq_coe_iff]; ring

/-! ## The same over a [512, 512] array -/

theorem ln2_core (z : Fin 512 → Fin 512 → EReal) (hz : ∀ d u, IsReal (z d u)) :
    ∃ m r : ℝ, mean2 z = (m : EReal) ∧ Ideal.rsqrt (varR2 z + eps) = (r : EReal)
      ∧ Ideal.rsqrt (varK2 z + eps) = (r : EReal) := by
  choose zr hzr using hz
  have hfun : z = fun d u => (zr d u : EReal) := by funext d u; exact hzr d u
  obtain ⟨e, he, hE⟩ := eps_pos
  obtain ⟨m, r, h1, h2, h3⟩ := norm_core (ι := Fin 512 × Fin 512) (N := 262144) (by norm_num) card2 he
    (fun x => zr x.1 x.2)
  have hm : mean2 z = (m : EReal) := by rw [mean2, sum2_eq_sum, cDU_eq, hfun]; exact h1
  refine ⟨m, r, hm, ?_, ?_⟩
  · rw [varR2, hm, sum2_eq_sum, cDU_eq, hE, hfun]; exact h2
  · rw [varK2, hm, sum2_eq_sum, cDU_eq, hE, hfun]; exact h3

theorem ln2 (z g be : Fin 512 → Fin 512 → EReal) (hz : ∀ d u, IsReal (z d u))
    (hg : ∀ d u, IsReal (g d u)) (hbe : ∀ d u, IsReal (be d u)) :
    lnK2 z g be = lnR2 z g be ∧ ∀ d u, IsReal (lnR2 z g be d u) := by
  obtain ⟨m, r, hm, hR, hK⟩ := ln2_core z hz
  refine ⟨?_, fun d u => ((((hz d u).sub ⟨m, hm⟩).mul ⟨r, hR⟩).mul (hg d u)).add (hbe d u)⟩
  funext d u
  obtain ⟨a, ha⟩ := hz d u
  obtain ⟨b, hb⟩ := hg d u
  obtain ⟨t, ht⟩ := hbe d u
  simp only [lnK2, lnR2, hm, hR, hK, ha, hb, ht]
  simp only [← EReal.coe_mul, ← EReal.coe_sub, ← EReal.coe_add]
  rw [EReal.coe_eq_coe_iff]; ring

/-! ## The layers between the normalisations keep real numbers real -/

theorem z1_isReal (p : Params) (hp : p.Finite) (a : Fin 512 → EReal) (ha : ∀ d, IsReal (a d)) :
    ∀ d u c, IsReal (z1 p a d u c) :=
  fun d u c => ((ha d).mul (hp.w1 d u c)).add (hp.b1 d u c)

theorem mix_isReal {l w : Fin 512 → Fin 512 → Fin 2 → EReal} {b : Fin 512 → Fin 512 → EReal}
    (hl : ∀ d u c, IsReal (l d u c)) (hw : ∀ d u c, IsReal (w d u c)) (hb : ∀ d u, IsReal (b d u)) :
    ∀ d u, IsReal (mix l w b d u) :=
  fun d u => (((hl d u 0).mul (hw d u 0)).add ((hl d u 1).mul (hw d u 1))).add (hb d u)

theorem cat_isReal {A B : Fin 512 → Fin 512 → EReal} (hA : ∀ d u, IsReal (A d u)) (hB : ∀ d u, IsReal (B d u)) :
    ∀ d u c, IsReal (cat A B d u c) := by
  intro d u c
  unfold cat
  split_ifs
  · exact hA d u
  · exact hB d u

/-! ## The row: layer by layer the two arrangements agree -/

section Row
variable (p : Params) (hp : p.Finite) (a : Fin 512 → EReal) (ha : ∀ d, IsReal (a d))
include hp ha

theorem l1K_eq : l1K p a = l1R p a := by
  unfold l1K l1R
  rw [(ln3 _ _ _ (z1_isReal p hp a ha) hp.g1 hp.be1).1]

theorem l1R_isReal : ∀ d u c, IsReal (l1R p a d u c) :=
  fun d u c => lrelu_isReal ((ln3 _ _ _ (z1_isReal p hp a ha) hp.g1 hp.be1).2 d u c)

theorem z2K_eq : z2K p a = z2R p a := by
  unfold z2K z2R
  rw [l1K_eq p hp a ha]

theorem z2R_isReal : ∀ d u c, IsReal (z2R p a d u c) :=
  cat_isReal (mix_isReal (l1R_isReal p hp a ha) hp.w21 hp.b21) (mix_isReal (l1R_isReal p hp a ha) hp.w22 hp.b22)

theorem l2K_eq : l2K p a = l2R p a := by
  unfold l2K l2R
  rw [z2K_eq p hp a ha, (ln3 _ _ _ (z2R_isReal p hp a ha) hp.g2 hp.be2).1]

theorem l2R_isReal : ∀ d u c, IsReal (l2R p a d u c) :=
  fun d u c => lrelu_isReal ((ln3 _ _ _ (z2R_isReal p hp a ha) hp.g2 hp.be2).2 d u c)

theorem l3K_eq : l3K p a = l3R p a := by
  unfold l3K l3R
  rw [l2K_eq p hp a ha]

theorem l3R_isReal : ∀ d u, IsReal (l3R p a d u) :=
  mix_isReal (l2R_isReal p hp a ha) hp.w3 hp.b3

end Row

/-- On real parameters and a real normalised row the kernel's arrangement of the row is the reference's. -/
theorem rowK_eq_rowR (p : Params) (hp : p.Finite) (a : Fin 512 → EReal) (ha : ∀ d, IsReal (a d)) :
    rowK p a = rowR p a := by
  unfold rowK rowR
  rw [l3K_eq p hp a ha, (ln2 _ _ _ (l3R_isReal p hp a ha) hp.g3 hp.be3).1]

end Cert.Spec

end
-- ==== Proof.KerValue.lean ====
/-
  From the blocks to the array, and the kernel's run with its result named. Grid point `t` writes back rows
  `8 t … 8 t + 7` of the result; row `r` of its block is the row function (kernel's arrangement) of the normalised row
  `8 t + r` of the input and of the parameters; on real arguments that is the reference's arrangement; the eight blocks
  tile the 64 rows, so the array the run leaves is the specification's result array.
-/
import proofs.«123119_j23965917511984_2_alg».proof.Proof.KIValue
import proofs.«123119_j23965917511984_2_alg».proof.Proof.KerBody
import proofs.«123119_j23965917511984_2_alg».proof.Proof.KerHost
import proofs.«123119_j23965917511984_2_alg».proof.Proof.Algebra

noncomputable section

namespace Cert.KerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's result array of core `c`'s arguments. -/
abbrev G (c : Dev nD) : S64x512.Idx → EReal := Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Every argument entry of core `c` is a real number. -/
abbrev ArgsReal (c : Dev nD) : Prop := Cert.Spec.AllReal (m ((c : Thread nD τ).loc main_arg0)) ∧ Cert.Spec.AllReal (m ((c : Thread nD τ).loc main_arg1)) ∧ Cert.Spec.AllReal (m ((c : Thread nD τ).loc main_arg2)) ∧ Cert.Spec.AllReal (m ((c : Thread nD τ).loc main_arg3)) ∧ Cert.Spec.AllReal (m ((c : Thread nD τ).loc main_arg4)) ∧ Cert.Spec.AllReal (m ((c : Thread nD τ).loc main_arg5)) ∧ Cert.Spec.AllReal (m ((c : Thread nD τ).loc main_arg6)) ∧ Cert.Spec.AllReal (m ((c : Thread nD τ).loc main_arg7)) ∧ Cert.Spec.AllReal (m ((c : Thread nD τ).loc main_arg8)) ∧ Cert.Spec.AllReal (m ((c : Thread nD τ).loc main_arg9)) ∧ Cert.Spec.AllReal (m ((c : Thread nD τ).loc main_arg10)) ∧ Cert.Spec.AllReal (m ((c : Thread nD τ).loc main_arg11)) ∧ Cert.Spec.AllReal (m ((c : Thread nD τ).loc main_arg12)) ∧ Cert.Spec.AllReal (m ((c : Thread nD τ).loc main_arg13)) ∧ Cert.Spec.AllReal (m ((c : Thread nD τ).loc main_arg14)) ∧ Cert.Spec.AllReal (m ((c : Thread nD τ).loc main_arg15)) ∧ Cert.Spec.AllReal (m ((c : Thread nD τ).loc main_arg16)) ∧ Cert.Spec.AllReal (m ((c : Thread nD τ).loc main_arg17))

/-- The result window's index map, decided over the eight grid points: block row `t`, block column 0. -/
theorem idx_facts27 : ∀ t : Fin cfg0.N, win0_27.index t (0 : Fin 2) = t.val ∧ win0_27.index t (1 : Fin 2) = 0 :=
  (by decide +kernel : ∀ t : Fin grid0.N, win0_27.index t (0 : Fin 2) = t.val ∧ win0_27.index t (1 : Fin 2) = 0)

theorem N_eq : cfg0.N = 8 := rfl

/-- WHAT POINT `t` WRITES BACK is block `t` of the result array. -/
theorem flushed_eq (c : Dev nD) (hreal : ArgsReal m c) (t : Fin cfg0.N) :
    (dats m 0 c).flushed 27 t = ((cfg0.win 27).blk t).view.read (Elt Ideal) (G m c) := by
  rw [Cert.KernelIdeal.Value.flushed27_A, out0_A_27_eq]
  obtain ⟨e0, e1⟩ := idx_facts27 t
  have ht : t.val < 8 := t.isLt
  funext j
  obtain ⟨r, u, rfl⟩ : ∃ (r : Fin 8) (u : Fin 512), j = ix2 r u := ⟨j 0, j 1, eq_ix2 j⟩
  have hb : 8 * t.val + r.val < 64 := by have := r.isLt; omega
  show blockFn (k0_pay1 (F := Ideal) (iblk m c 0 t) (iblk m c 15 t) (iblk m c 16 t)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 17 t) (iblk m c 18 t) (iblk m c 19 t) (iblk m c 20 t) (iblk m c 21 t) (iblk m c 22 t) (iblk m c 23 t) (iblk m c 24 t) (iblk m c 25 t) (iblk m c 26 t) (ix2 r u)
      = G m c (((cfg0.win 27).blk t).view.emb (ix2 r u))
  rw [blockFn_tile_apply, Cert.KerHost.prm_blocks m c t]
  have hx : (fun d : Fin 512 => (iblk m c 0 t : S8x512.Idx → EReal) (ix2 r d))
      = fun d => m ((c : Thread nD τ).loc main_arg0) (ix2 (⟨8 * t.val + r.val, hb⟩ : Fin 64) d) :=
    funext fun d => Cert.KerHost.xblk_apply m c t r d ⟨8 * t.val + r.val, hb⟩ rfl
  have hg : (fun d : Fin 512 => (iblk m c 15 t : S512.Idx → EReal) (ix1 d)) = fun d => m ((c : Thread nD τ).loc main_arg10) (ix1 d) :=
    funext fun d => Cert.KerHost.g0blk_apply m c t d
  have hbe : (fun d : Fin 512 => (iblk m c 16 t : S512.Idx → EReal) (ix1 d)) = fun d => m ((c : Thread nD τ).loc main_arg11) (ix1 d) :=
    funext fun d => Cert.KerHost.be0blk_apply m c t d
  rw [hx, hg, hbe]
  have hemb : ((cfg0.win 27).blk t).view.emb (ix2 r u) = ix2 (⟨8 * t.val + r.val, hb⟩ : Fin 64) u := by
    funext a; apply Fin.ext
    match a with
    | ⟨0, _⟩ => show win0_27.index t (0 : Fin 2) * 8 + 1 * r.val = 8 * t.val + r.val; omega
    | ⟨1, _⟩ => show win0_27.index t (1 : Fin 2) * 512 + 1 * u.val = u.val; omega
  rw [hemb]
  obtain ⟨h0, h1, h2, h3, h4, h5, h6, h7, h8, h9, h10, h11, h12, h13, h14, h15, h16, h17⟩ := hreal
  have hP : (Cert.Spec.prm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).Finite :=
    ⟨fun _ _ _ => h1 _, fun _ _ _ => h2 _, fun _ _ _ => h3 _, fun _ _ _ => h4 _, fun _ _ => h5 _, fun _ _ => h6 _, fun _ _ _ => h7 _, fun _ _ => h8 _,
      fun _ => h9 _, fun _ _ _ => h12 _, fun _ _ _ => h13 _, fun _ _ _ => h14 _, fun _ _ _ => h15 _, fun _ _ => h16 _, fun _ _ => h17 _⟩
  have hA := Cert.Spec.xnRow_isReal (fun d => m ((c : Thread nD τ).loc main_arg0) (ix2 (⟨8 * t.val + r.val, hb⟩ : Fin 64) d))
    (fun d => m ((c : Thread nD τ).loc main_arg10) (ix1 d)) (fun d => m ((c : Thread nD τ).loc main_arg11) (ix1 d))
    (fun _ => h0 _) (fun _ => h10 _) (fun _ => h11 _)
  exact congrFun (Cert.Spec.rowK_eq_rowR _ hP _ hA) u

/-- An index of the result array is in point `t`'s block iff each coordinate is in the block's range on its axis. -/
theorem mem_blk27 (t : Fin cfg0.N) (i : S64x512.Idx) :
    i ∈ ((cfg0.win 27).blk t).view.set ↔ ∀ a : Fin 2, win0_27.index t a * S8x512.size a ≤ (i a).val ∧ (i a).val < win0_27.index t a * S8x512.size a + S8x512.size a := by
  show i ∈ ((View.whole main_v41).slice (win0_27.rect t)).set ↔ _
  rw [View.set_slice_whole, Rect.mem_set_unit]
  exact Iff.rfl

/-- The eight blocks tile the 64 rows: row `i` is in the block of point `i / 8`. -/
theorem cover27 (i : S64x512.Idx) : ∃ t : Fin cfg0.N, (cfg0.win 27).flush t = true ∧ i ∈ ((cfg0.win 27).blk t).view.set := by
  have hi0 : (i 0).val < 64 := (i 0).isLt
  have hi1 : (i 1).val < 512 := (i 1).isLt
  have ht : (i 0).val / 8 < 8 := by omega
  refine ⟨⟨(i 0).val / 8, ht⟩, flush0_27 _, ?_⟩
  rw [mem_blk27]
  obtain ⟨e0, e1⟩ := idx_facts27 ⟨(i 0).val / 8, ht⟩
  intro a
  match a with
  | ⟨0, _⟩ =>
    show win0_27.index ⟨(i 0).val / 8, ht⟩ (0 : Fin 2) * 8 ≤ (i 0).val ∧ (i 0).val < win0_27.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_27.index ⟨(i 0).val / 8, ht⟩ (1 : Fin 2) * 512 ≤ (i 1).val ∧ (i 1).val < win0_27.index ⟨(i 0).val / 8, ht⟩ (1 : Fin 2) * 512 + 512
    rw [e1]; omega

/-- THE ARRAY after the run is the specification's result array. -/
theorem final (hreal : ∀ c, ArgsReal m c) (c : Dev nD) : (dats m 0 c).arrAt 27 cfg0.N = G m c :=
  (dats m 0 c).arrAt_eq_of_cover 27 (G m c) (fun t _ => flushed_eq m c (hreal c) t) cover27

/-- The kernel's run with its result named: on real arguments every weakly fair execution ends with the result buffer
    at the specification's result array, the arguments unchanged. -/
theorem run (hreal : ∀ c, ArgsReal m c) : θ_run defs (onTc (τ := τ) (main (F := Ideal))) ⟨m, fun _ => 0, ρ⟩ fun r => ∀ c : Dev nD,
      r.2.mem ((c : Thread nD τ).loc main_v41) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m hreal c), (h c).2⟩)
    (Cert.KernelIdeal.Value.run_blocks m ρ)

end Cert.KerValue

end
-- ==== Proof.RefRunBase.lean ====
/-
  What the reference's run is read through, stretch by stretch.

  A stretch of @main is a short line of host operations. Run from ANY buffer contents `W`, it changes only the buffers
  its operations write. So two kinds of fact travel from one stretch to the next: the argument arrays still hold what
  they held at launch (`ArgsAt`: no operation of the program writes an argument), and each buffer that a LATER stretch
  still reads holds its stage — the operation that wrote it, applied to the stages before it — of the launch contents
  (`H‹N›` for the buffer `main_v‹N›`; the stage is `val_main_v‹N›`, a function of the argument arrays it depends on).
-/
import proofs.«123119_j23965917511984_2_alg».proof.Proof.RefRead

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The argument arrays of @main. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

/-- The contents `W` hold, at every argument array, what the launch contents `V0` hold there. -/
def ArgsAt (V0 W : Valuation τ sig (Elt F)) : Prop := ∀ a ∈ argRefs, W a = V0 a

theorem ArgsAt.refl (V0 : Valuation τ sig (Elt F)) : ArgsAt V0 V0 := fun _ _ => rfl

/-- An operation whose one written buffer `y` is in the list `L` writes inside `L`. -/
theorem writes_of {op : HloOp τ sig (Elt F)} {y : Ref sig .tc} {L : List (Ref sig .tc)}
    (hw : op.writes = {Proc.devRef (τ := τ) .tc y}) (hy : y ∈ L) :
    op.writes ⊆ (L.map (Proc.devRef (τ := τ) .tc)).toFinset := by
  rw [hw, Finset.singleton_subset_iff, List.mem_toFinset]
  exact List.mem_map_of_mem hy

/-- A line whose written buffers `L` hold no argument array leaves the arguments at their launch contents. -/
theorem ArgsAt.after {V0 W : Valuation τ sig (Elt F)} (h : ArgsAt V0 W) (l : List (HloOp τ sig (Elt F)))
    {L : List (Ref sig .tc)} (hw : l.Forall fun op => op.writes ⊆ (L.map (Proc.devRef (τ := τ) .tc)).toFinset)
    (hd : ∀ a ∈ argRefs, a ∉ L) : ArgsAt V0 (after l W) :=
  fun a ha => (after_of_writes_sub l W hw (hd a ha)).trans (h a ha)

/-- Two lines one after the other: the second runs from what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- What a line asks of the run, over two lines in a row: every buffer touched is a TensorCore buffer. -/
theorem sub_append {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_iff_forall_mem.mpr fun op h => (List.mem_append.mp h).elim
    (List.forall_iff_forall_mem.mp h₁ op) (List.forall_iff_forall_mem.mp h₂ op)

/-- Likewise: every operation determines what it writes. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-! ## The stages that outlive the stretch that computes them

`H‹N› V0 W`: in `W` the buffer `main_v‹N›` holds stage `‹N›` of the launch contents `V0`. -/

-- the row means of the first argument, the row variances, and the first argument normalized
abbrev H3 (V0 W : Valuation τ sig (Elt F)) : Prop := W main_v3 = val_main_v3 (F := F) (V0 main_arg0)
abbrev H10 (V0 W : Valuation τ sig (Elt F)) : Prop := W main_v10 = val_main_v10 (F := F) (V0 main_arg0)
abbrev H17 (V0 W : Valuation τ sig (Elt F)) : Prop := W main_v17 = val_main_v17 (F := F) (V0 main_arg0)
-- scaled and shifted (arguments 10 and 11), as a 64×512×1×1 array: read again near the end of the program
abbrev H24 (V0 W : Valuation τ sig (Elt F)) : Prop :=
  W main_v24 = val_main_v24 (F := F) (V0 main_arg0) (V0 main_arg10) (V0 main_arg11)
-- the first 64×512×512×2 array, its means over the last three axes, its variances, itself normalized
abbrev H29 (V0 W : Valuation τ sig (Elt F)) : Prop :=
  W main_v29 = val_main_v29 (F := F) (V0 main_arg0) (V0 main_arg1) (V0 main_arg2) (V0 main_arg10) (V0 main_arg11)
abbrev H33 (V0 W : Valuation τ sig (Elt F)) : Prop :=
  W main_v33 = val_main_v33 (F := F) (V0 main_arg0) (V0 main_arg1) (V0 main_arg2) (V0 main_arg10) (V0 main_arg11)
abbrev H40 (V0 W : Valuation τ sig (Elt F)) : Prop :=
  W main_v40 = val_main_v40 (F := F) (V0 main_arg0) (V0 main_arg1) (V0 main_arg2) (V0 main_arg10) (V0 main_arg11)
abbrev H47 (V0 W : Valuation τ sig (Elt F)) : Prop :=
  W main_v47 = val_main_v47 (F := F) (V0 main_arg0) (V0 main_arg1) (V0 main_arg2) (V0 main_arg10) (V0 main_arg11)
-- argument 12 laid out over the batch
abbrev H49 (V0 W : Valuation τ sig (Elt F)) : Prop := W main_v49 = val_main_v49 (F := F) (V0 main_arg12)
-- scaled and shifted (arguments 12 and 13); then the leaky rectifier of it
abbrev H53 (V0 W : Valuation τ sig (Elt F)) : Prop :=
  W main_v53 = val_main_v53 (F := F) (V0 main_arg0) (V0 main_arg1) (V0 main_arg2) (V0 main_arg10) (V0 main_arg11)
    (V0 main_arg12) (V0 main_arg13)
abbrev H58 (V0 W : Valuation τ sig (Elt F)) : Prop :=
  W main_v58 = val_main_v58 (F := F) (V0 main_arg0) (V0 main_arg1) (V0 main_arg2) (V0 main_arg10) (V0 main_arg11)
    (V0 main_arg12) (V0 main_arg13)
-- the two weighted sums over the last axis (arguments 3, 5 and 4, 6), then the two joined along it
abbrev H64 (V0 W : Valuation τ sig (Elt F)) : Prop :=
  W main_v64 = val_main_v64 (F := F) (V0 main_arg0) (V0 main_arg1) (V0 main_arg2) (V0 main_arg3) (V0 main_arg5)
    (V0 main_arg10) (V0 main_arg11) (V0 main_arg12) (V0 main_arg13)
abbrev H70 (V0 W : Valuation τ sig (Elt F)) : Prop :=
  W main_v70 = val_main_v70 (F := F) (V0 main_arg0) (V0 main_arg1) (V0 main_arg2) (V0 main_arg4) (V0 main_arg6)
    (V0 main_arg10) (V0 main_arg11) (V0 main_arg12) (V0 main_arg13)
abbrev H71 (V0 W : Valuation τ sig (Elt F)) : Prop :=
  W main_v71 = val_main_v71 (F := F) (V0 main_arg0) (V0 main_arg1) (V0 main_arg2) (V0 main_arg3) (V0 main_arg4)
    (V0 main_arg5) (V0 main_arg6) (V0 main_arg10) (V0 main_arg11) (V0 main_arg12) (V0 main_arg13)
-- its means, its variances, itself normalized
abbrev H75 (V0 W : Valuation τ sig (Elt F)) : Prop :=
  W main_v75 = val_main_v75 (F := F) (V0 main_arg0) (V0 main_arg1) (V0 main_arg2) (V0 main_arg3) (V0 main_arg4)
    (V0 main_arg5) (V0 main_arg6) (V0 main_arg10) (V0 main_arg11) (V0 main_arg12) (V0 main_arg13)
abbrev H82 (V0 W : Valuation τ sig (Elt F)) : Prop :=
  W main_v82 = val_main_v82 (F := F) (V0 main_arg0) (V0 main_arg1) (V0 main_arg2) (V0 main_arg3) (V0 main_arg4)
    (V0 main_arg5) (V0 main_arg6) (V0 main_arg10) (V0 main_arg11) (V0 main_arg12) (V0 main_arg13)
abbrev H89 (V0 W : Valuation τ sig (Elt F)) : Prop :=
  W main_v89 = val_main_v89 (F := F) (V0 main_arg0) (V0 main_arg1) (V0 main_arg2) (V0 main_arg3) (V0 main_arg4)
    (V0 main_arg5) (V0 main_arg6) (V0 main_arg10) (V0 main_arg11) (V0 main_arg12) (V0 main_arg13)
-- scaled and shifted (arguments 14 and 15), its sign test, and the slope constant laid out
abbrev H95 (V0 W : Valuation τ sig (Elt F)) : Prop :=
  W main_v95 = val_main_v95 (F := F) (V0 main_arg0) (V0 main_arg1) (V0 main_arg2) (V0 main_arg3) (V0 main_arg4)
    (V0 main_arg5) (V0 main_arg6) (V0 main_arg10) (V0 main_arg11) (V0 main_arg12) (V0 main_arg13) (V0 main_arg14)
    (V0 main_arg15)
abbrev H97 (V0 W : Valuation τ sig (Elt F)) : Prop :=
  W main_v97 = val_main_v97 (F := F) (V0 main_arg0) (V0 main_arg1) (V0 main_arg2) (V0 main_arg3) (V0 main_arg4)
    (V0 main_arg5) (V0 main_arg6) (V0 main_arg10) (V0 main_arg11) (V0 main_arg12) (V0 main_arg13) (V0 main_arg14)
    (V0 main_arg15)
abbrev H98 (_V0 W : Valuation τ sig (Elt F)) : Prop := W main_v98 = val_main_v98 (F := F)
-- the weighted sum over the last axis (arguments 7 and 8), its means, its variances, itself normalized
abbrev H106 (V0 W : Valuation τ sig (Elt F)) : Prop :=
  W main_v106 = val_main_v106 (F := F) (V0 main_arg0) (V0 main_arg1) (V0 main_arg2) (V0 main_arg3) (V0 main_arg4)
    (V0 main_arg5) (V0 main_arg6) (V0 main_arg7) (V0 main_arg8) (V0 main_arg10) (V0 main_arg11) (V0 main_arg12)
    (V0 main_arg13) (V0 main_arg14) (V0 main_arg15)
abbrev H110 (V0 W : Valuation τ sig (Elt F)) : Prop :=
  W main_v110 = val_main_v110 (F := F) (V0 main_arg0) (V0 main_arg1) (V0 main_arg2) (V0 main_arg3) (V0 main_arg4)
    (V0 main_arg5) (V0 main_arg6) (V0 main_arg7) (V0 main_arg8) (V0 main_arg10) (V0 main_arg11) (V0 main_arg12)
    (V0 main_arg13) (V0 main_arg14) (V0 main_arg15)
abbrev H117 (V0 W : Valuation τ sig (Elt F)) : Prop :=
  W main_v117 = val_main_v117 (F := F) (V0 main_arg0) (V0 main_arg1) (V0 main_arg2) (V0 main_arg3) (V0 main_arg4)
    (V0 main_arg5) (V0 main_arg6) (V0 main_arg7) (V0 main_arg8) (V0 main_arg10) (V0 main_arg11) (V0 main_arg12)
    (V0 main_arg13) (V0 main_arg14) (V0 main_arg15)
abbrev H124 (V0 W : Valuation τ sig (Elt F)) : Prop :=
  W main_v124 = val_main_v124 (F := F) (V0 main_arg0) (V0 main_arg1) (V0 main_arg2) (V0 main_arg3) (V0 main_arg4)
    (V0 main_arg5) (V0 main_arg6) (V0 main_arg7) (V0 main_arg8) (V0 main_arg10) (V0 main_arg11) (V0 main_arg12)
    (V0 main_arg13) (V0 main_arg14) (V0 main_arg15)
-- scaled and shifted (arguments 16 and 17)
abbrev H130 (V0 W : Valuation τ sig (Elt F)) : Prop :=
  W main_v130 = val_main_v130 (F := F) (V0 main_arg0) (V0 main_arg1) (V0 main_arg2) (V0 main_arg3) (V0 main_arg4)
    (V0 main_arg5) (V0 main_arg6) (V0 main_arg7) (V0 main_arg8) (V0 main_arg10) (V0 main_arg11) (V0 main_arg12)
    (V0 main_arg13) (V0 main_arg14) (V0 main_arg15) (V0 main_arg16) (V0 main_arg17)
-- plus the early array, summed over the middle axis, plus argument 9; then the leaky rectifier of it, as a 64×512 array
abbrev H137 (V0 W : Valuation τ sig (Elt F)) : Prop :=
  W main_v137 = val_main_v137 (F := F) (V0 main_arg0) (V0 main_arg1) (V0 main_arg2) (V0 main_arg3) (V0 main_arg4)
    (V0 main_arg5) (V0 main_arg6) (V0 main_arg7) (V0 main_arg8) (V0 main_arg9) (V0 main_arg10) (V0 main_arg11)
    (V0 main_arg12) (V0 main_arg13) (V0 main_arg14) (V0 main_arg15) (V0 main_arg16) (V0 main_arg17)
abbrev H143 (V0 W : Valuation τ sig (Elt F)) : Prop :=
  W main_v143 = val_main_v143 (F := F) (V0 main_arg0) (V0 main_arg1) (V0 main_arg2) (V0 main_arg3) (V0 main_arg4)
    (V0 main_arg5) (V0 main_arg6) (V0 main_arg7) (V0 main_arg8) (V0 main_arg9) (V0 main_arg10) (V0 main_arg11)
    (V0 main_arg12) (V0 main_arg13) (V0 main_arg14) (V0 main_arg15) (V0 main_arg16) (V0 main_arg17)

end Cert.RefRun

end
-- ==== Proof.RefRunA.lean ====
/-
  The first window of the reference's @main (operations 1 … 60), stretch by stretch: the row statistics of the first
  argument and its normalization, the scale and shift, the first four-axis array with its statistics and normalization.
  Each stretch is run from ANY buffer contents that hold the stages it reads, and leaves the stages later stretches read.
-/
import proofs.«123119_j23965917511984_2_alg».proof.Proof.RefRunBase

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Operations 1 … 6: the mean of each row of the first argument -/

/-- Operations 1 … 6 of @main. -/
abbrev ops01 : List (HloOp τ sig (Elt F)) :=
  [ nullary main_cst (constant S_ .f32 0x00000000#32),
    binary main_arg0 main_cst main_v0 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v0 main_v1 (broadcastInDim S64x1 ![0] bcast_S64_S64x1_0 : (⟨S64, .f32⟩ : BufTy).Contents (Elt F) → (⟨S64x1, .f32⟩ : BufTy).Contents (Elt F)),
    nullary main_cst_0 (constant S_ .f32 0x44000000#32),
    unary main_cst_0 main_v2 (broadcastInDim S64x1 ![] bcast_S_S64x1 : (⟨S_, .f32⟩ : BufTy).Contents (Elt F) → (⟨S64x1, .f32⟩ : BufTy).Contents (Elt F)),
    binary main_v1 main_v2 main_v3 (Host.divf : (⟨S64x1, .f32⟩ : BufTy).Contents (Elt F) → (⟨S64x1, .f32⟩ : BufTy).Contents (Elt F) → (⟨S64x1, .f32⟩ : BufTy).Contents (Elt F)) ]
/-- The buffers they write. -/
abbrev ops01_W : List (Ref sig .tc) := [main_cst, main_v0, main_v1, main_cst_0, main_v2, main_v3]
theorem ops01_writes : (ops01 (F := F)).Forall fun op => op.writes ⊆ (ops01_W.map (Proc.devRef (τ := τ) .tc)).toFinset :=
  ⟨writes_of rfl (by decide), writes_of rfl (by decide), writes_of rfl (by decide), writes_of rfl (by decide),
   writes_of rfl (by decide), writes_of rfl (by decide)⟩
theorem ops01_sub : (ops01 (F := F)).Forall fun op => op.bufs ⊆ tcRefs τ sig :=
  ⟨nullary_bufs_sub .., binary_bufs_sub .., unary_bufs_sub .., nullary_bufs_sub .., unary_bufs_sub .., binary_bufs_sub ..⟩
theorem ops01_fresh : ∀ op ∈ ops01 (F := F), op.fresh = ∅ := by
  intro _ h; (repeat (cases h with | head => rfl | tail _ h => ?_)); exact nomatch h

theorem st01 {V0 W : Valuation τ sig (Elt F)} (hA : ArgsAt V0 W) :
    ArgsAt V0 (after ops01 W) ∧ H3 V0 (after ops01 W) := by
  refine ⟨hA.after ops01 ops01_writes (by decide), ?_⟩
  show after ops01 W main_v3 = _
  after_results
  rw [hA main_arg0 (by decide)]
  rfl

/-! ## Operations 7 … 15: the variance of each row -/

/-- Operations 7 … 15 of @main. -/
abbrev ops02 : List (HloOp τ sig (Elt F)) :=
  [ unary main_v3 main_v4 (broadcastInDim S64x512 ![0, 1] bcast_S64x1_S64x512_0_1 : (⟨S64x1, .f32⟩ : BufTy).Contents (Elt F) → (⟨S64x512, .f32⟩ : BufTy).Contents (Elt F)),
    binary main_arg0 main_v4 main_v5 (subf : (⟨S64x512, .f32⟩ : BufTy).Contents (Elt F) → (⟨S64x512, .f32⟩ : BufTy).Contents (Elt F) → (⟨S64x512, .f32⟩ : BufTy).Contents (Elt F)),
    binary main_v5 main_v5 main_v6 (mulf : (⟨S64x512, .f32⟩ : BufTy).Contents (Elt F) → (⟨S64x512, .f32⟩ : BufTy).Contents (Elt F) → (⟨S64x512, .f32⟩ : BufTy).Contents (Elt F)),
    nullary main_cst_1 (constant S_ .f32 0x00000000#32),
    binary main_v6 main_cst_1 main_v7 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v7 main_v8 (broadcastInDim S64x1 ![0] bcast_S64_S64x1_0 : (⟨S64, .f32⟩ : BufTy).Contents (Elt F) → (⟨S64x1, .f32⟩ : BufTy).Contents (Elt F)),
    nullary main_cst_2 (constant S_ .f32 0x44000000#32),
    unary main_cst_2 main_v9 (broadcastInDim S64x1 ![] bcast_S_S64x1 : (⟨S_, .f32⟩ : BufTy).Contents (Elt F) → (⟨S64x1, .f32⟩ : BufTy).Contents (Elt F)),
    binary main_v8 main_v9 main_v10 (Host.divf : (⟨S64x1, .f32⟩ : BufTy).Contents (Elt F) → (⟨S64x1, .f32⟩ : BufTy).Contents (Elt F) → (⟨S64x1, .f32⟩ : BufTy).Contents (Elt F)) ]
/-- The buffers they write. -/
abbrev ops02_W : List (Ref sig .tc) :=
  [main_v4, main_v5, main_v6, main_cst_1, main_v7, main_v8, main_cst_2, main_v9, main_v10]
theorem ops02_writes : (ops02 (F := F)).Forall fun op => op.writes ⊆ (ops02_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide)⟩
theorem ops02_sub : (ops02 (F := F)).Forall fun op => op.bufs ⊆ tcRefs τ sig :=
  ⟨unary_bufs_sub .., binary_bufs_sub .., binary_bufs_sub .., nullary_bufs_sub .., binary_bufs_sub .., unary_bufs_sub ..,
   nullary_bufs_sub .., unary_bufs_sub .., binary_bufs_sub ..⟩
theorem ops02_fresh : ∀ op ∈ ops02 (F := F), op.fresh = ∅ := by
  intro _ h; (repeat (cases h with | head => rfl | tail _ h => ?_)); exact nomatch h

theorem st02 {V0 W : Valuation τ sig (Elt F)} (hA : ArgsAt V0 W) (h3 : H3 V0 W) :
    ArgsAt V0 (after ops02 W) ∧ H3 V0 (after ops02 W) ∧ H10 V0 (after ops02 W) := by
  refine ⟨hA.after ops02 ops02_writes (by decide), (after_of_writes_sub ops02 W ops02_writes (by decide)).trans h3, ?_⟩
  show after ops02 W main_v10 = _
  after_results
  rw [h3, hA main_arg0 (by decide)]
  rfl

/-! ## Operations 16 … 23: the first argument minus its row mean, over the root of the variance plus a small constant -/

/-- Operations 16 … 23 of @main. -/
abbrev ops03 : List (HloOp τ sig (Elt F)) :=
  [ unary main_v3 main_v11 (broadcastInDim S64x512 ![0, 1] bcast_S64x1_S64x512_0_1 : (⟨S64x1, .f32⟩ : BufTy).Contents (Elt F) → (⟨S64x512, .f32⟩ : BufTy).Contents (Elt F)),
    binary main_arg0 main_v11 main_v12 (subf : (⟨S64x512, .f32⟩ : BufTy).Contents (Elt F) → (⟨S64x512, .f32⟩ : BufTy).Contents (Elt F) → (⟨S64x512, .f32⟩ : BufTy).Contents (Elt F)),
    nullary main_cst_3 (constant S_ .f32 0x3727C5AC#32),
    unary main_cst_3 main_v13 (broadcastInDim S64x1 ![] bcast_S_S64x1 : (⟨S_, .f32⟩ : BufTy).Contents (Elt F) → (⟨S64x1, .f32⟩ : BufTy).Contents (Elt F)),
    binary main_v10 main_v13 main_v14 (addf : (⟨S64x1, .f32⟩ : BufTy).Contents (Elt F) → (⟨S64x1, .f32⟩ : BufTy).Contents (Elt F) → (⟨S64x1, .f32⟩ : BufTy).Contents (Elt F)),
    unary main_v14 main_v15 (Host.rsqrt : (⟨S64x1, .f32⟩ : BufTy).Contents (Elt F) → (⟨S64x1, .f32⟩ : BufTy).Contents (Elt F)),
    unary main_v15 main_v16 (broadcastInDim S64x512 ![0, 1] bcast_S64x1_S64x512_0_1 : (⟨S64x1, .f32⟩ : BufTy).Contents (Elt F) → (⟨S64x512, .f32⟩ : BufTy).Contents (Elt F)),
    binary main_v12 main_v16 main_v17 (mulf : (⟨S64x512, .f32⟩ : BufTy).Contents (Elt F) → (⟨S64x512, .f32⟩ : BufTy).Contents (Elt F) → (⟨S64x512, .f32⟩ : BufTy).Contents (Elt F)) ]
/-- The buffers they write. -/
abbrev ops03_W : List (Ref sig .tc) :=
  [main_v11, main_v12, main_cst_3, main_v13, main_v14, main_v15, main_v16, main_v17]
theorem ops03_writes : (ops03 (F := F)).Forall fun op => op.writes ⊆ (ops03_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide)⟩
theorem ops03_sub : (ops03 (F := F)).Forall fun op => op.bufs ⊆ tcRefs τ sig :=
  ⟨unary_bufs_sub .., binary_bufs_sub .., nullary_bufs_sub .., unary_bufs_sub .., binary_bufs_sub .., unary_bufs_sub ..,
   unary_bufs_sub .., binary_bufs_sub ..⟩
theorem ops03_fresh : ∀ op ∈ ops03 (F := F), op.fresh = ∅ := by
  intro _ h; (repeat (cases h with | head => rfl | tail _ h => ?_)); exact nomatch h

theorem st03 {V0 W : Valuation τ sig (Elt F)} (hA : ArgsAt V0 W) (h3 : H3 V0 W) (h10 : H10 V0 W) :
    ArgsAt V0 (after ops03 W) ∧ H17 V0 (after ops03 W) := by
  refine ⟨hA.after ops03 ops03_writes (by decide), ?_⟩
  show after ops03 W main_v17 = _
  after_results
  rw [h3, h10, hA main_arg0 (by decide)]
  rfl

/-! ## Operations 24 … 30: scaled by argument 10, shifted by argument 11, as a 64×512×1×1 array -/

/-- Operations 24 … 30 of @main. -/
abbrev ops04 : List (HloOp τ sig (Elt F)) :=
  [ unary main_arg10 main_v18 (broadcastInDim S1x512 ![1] bcast_S512_S1x512_1 : (⟨S512, .f32⟩ : BufTy).Contents (Elt F) → (⟨S1x512, .f32⟩ : BufTy).Contents (Elt F)),
    unary main_v18 main_v19 (broadcastInDim S64x512 ![0, 1] bcast_S1x512_S64x512_0_1 : (⟨S1x512, .f32⟩ : BufTy).Contents (Elt F) → (⟨S64x512, .f32⟩ : BufTy).Contents (Elt F)),
    binary main_v17 main_v19 main_v20 (mulf : (⟨S64x512, .f32⟩ : BufTy).Contents (Elt F) → (⟨S64x512, .f32⟩ : BufTy).Contents (Elt F) → (⟨S64x512, .f32⟩ : BufTy).Contents (Elt F)),
    unary main_arg11 main_v21 (broadcastInDim S1x512 ![1] bcast_S512_S1x512_1 : (⟨S512, .f32⟩ : BufTy).Contents (Elt F) → (⟨S1x512, .f32⟩ : BufTy).Contents (Elt F)),
    unary main_v21 main_v22 (broadcastInDim S64x512 ![0, 1] bcast_S1x512_S64x512_0_1 : (⟨S1x512, .f32⟩ : BufTy).Contents (Elt F) → (⟨S64x512, .f32⟩ : BufTy).Contents (Elt F)),
    binary main_v20 main_v22 main_v23 (addf : (⟨S64x512, .f32⟩ : BufTy).Contents (Elt F) → (⟨S64x512, .f32⟩ : BufTy).Contents (Elt F) → (⟨S64x512, .f32⟩ : BufTy).Contents (Elt F)),
    unary main_v23 main_v24 (broadcastInDim S64x512x1x1 ![0, 1] bcast_S64x512_S64x512x1x1_0_1 : (⟨S64x512, .f32⟩ : BufTy).Contents (Elt F) → (⟨S64x512x1x1, .f32⟩ : BufTy).Contents (Elt F)) ]
/-- The buffers they write. -/
abbrev ops04_W : List (Ref sig .tc) := [main_v18, main_v19, main_v20, main_v21, main_v22, main_v23, main_v24]
theorem ops04_writes : (ops04 (F := F)).Forall fun op => op.writes ⊆ (ops04_W.map (Proc.devRef (τ := τ) .tc)).toFinset :=
  ⟨writes_of rfl (by decide), writes_of rfl (by decide), writes_of rfl (by decide), writes_of rfl (by decide),
   writes_of rfl (by decide), writes_of rfl (by decide), writes_of rfl (by decide)⟩
theorem ops04_sub : (ops04 (F := F)).Forall fun op => op.bufs ⊆ tcRefs τ sig :=
  ⟨unary_bufs_sub .., unary_bufs_sub .., binary_bufs_sub .., unary_bufs_sub .., unary_bufs_sub .., binary_bufs_sub ..,
   unary_bufs_sub ..⟩
theorem ops04_fresh : ∀ op ∈ ops04 (F := F), op.fresh = ∅ := by
  intro _ h; (repeat (cases h with | head => rfl | tail _ h => ?_)); exact nomatch h

theorem st04 {V0 W : Valuation τ sig (Elt F)} (hA : ArgsAt V0 W) (h17 : H17 V0 W) :
    ArgsAt V0 (after ops04 W) ∧ H24 V0 (after ops04 W) := by
  refine ⟨hA.after ops04 ops04_writes (by decide), ?_⟩
  show after ops04 W main_v24 = _
  after_results
  rw [h17, hA main_arg10 (by decide), hA main_arg11 (by decide)]
  rfl

/-! ## Operations 31 … 35: laid out over two more axes, times argument 1, plus argument 2 -/

/-- Operations 31 … 35 of @main. -/
abbrev ops05 : List (HloOp τ sig (Elt F)) :=
  [ unary main_v24 main_v25 (broadcastInDim S64x512x512x2 ![0, 1, 2, 3] bcast_S64x512x1x1_S64x512x512x2_0_1_2_3 : (⟨S64x512x1x1, .f32⟩ : BufTy).Contents (Elt F) → (⟨S64x512x512x2, .f32⟩ : BufTy).Contents (Elt F)),
    unary main_arg1 main_v26 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v25 main_v26 main_v27 (mulf : (⟨S64x512x512x2, .f32⟩ : BufTy).Contents (Elt F) → (⟨S64x512x512x2, .f32⟩ : BufTy).Contents (Elt F) → (⟨S64x512x512x2, .f32⟩ : BufTy).Contents (Elt F)),
    unary main_arg2 main_v28 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v27 main_v28 main_v29 (addf : (⟨S64x512x512x2, .f32⟩ : BufTy).Contents (Elt F) → (⟨S64x512x512x2, .f32⟩ : BufTy).Contents (Elt F) → (⟨S64x512x512x2, .f32⟩ : BufTy).Contents (Elt F)) ]
/-- The buffers they write. -/
abbrev ops05_W : List (Ref sig .tc) := [main_v25, main_v26, main_v27, main_v28, main_v29]
theorem ops05_writes : (ops05 (F := F)).Forall fun op => op.writes ⊆ (ops05_W.map (Proc.devRef (τ := τ) .tc)).toFinset :=
  ⟨writes_of rfl (by decide), writes_of rfl (by decide), writes_of rfl (by decide), writes_of rfl (by decide),
   writes_of rfl (by decide)⟩
theorem ops05_sub : (ops05 (F := F)).Forall fun op => op.bufs ⊆ tcRefs τ sig :=
  ⟨unary_bufs_sub .., unary_bufs_sub .., binary_bufs_sub .., unary_bufs_sub .., binary_bufs_sub ..⟩
theorem ops05_fresh : ∀ op ∈ ops05 (F := F), op.fresh = ∅ := by
  intro _ h; (repeat (cases h with | head => rfl | tail _ h => ?_)); exact nomatch h

theorem st05 {V0 W : Valuation τ sig (Elt F)} (hA : ArgsAt V0 W) (h24 : H24 V0 W) :
    ArgsAt V0 (after ops05 W) ∧ H24 V0 (after ops05 W) ∧ H29 V0 (after ops05 W) := by
  refine ⟨hA.after ops05 ops05_writes (by decide), (after_of_writes_sub ops05 W ops05_writes (by decide)).trans h24, ?_⟩
  show after ops05 W main_v29 = _
  after_results
  rw [h24, hA main_arg1 (by decide), hA main_arg2 (by decide)]
  rfl

/-! ## Operations 36 … 41: its mean over the last three axes -/

/-- Operations 36 … 41 of @main. -/
abbrev ops06 : List (HloOp τ sig (Elt F)) :=
  [ nullary main_cst_4 (constant S_ .f32 0x00000000#32),
    binary main_v29 main_cst_4 main_v30 ((fun x v => Host.reduceAdd x v reducesTo_S64x512x512x2_S64_d1_2_3 h_S_) : (⟨S64x512x512x2, .f32⟩ : BufTy).Contents (Elt F) → (⟨S_, .f32⟩ : BufTy).Contents (Elt F) → (⟨S64, .f32⟩ : BufTy).Contents (Elt F)),
    unary main_v30 main_v31 (broadcastInDim S64x1x1x1 ![0] bcast_S64_S64x1x1x1_0 : (⟨S64, .f32⟩ : BufTy).Contents (Elt F) → (⟨S64x1x1x1, .f32⟩ : BufTy).Contents (Elt F)),
    nullary main_cst_5 (constant S_ .f32 0x49000000#32),
    unary main_cst_5 main_v32 (broadcastInDim S64x1x1x1 ![] bcast_S_S64x1x1x1 : (⟨S_, .f32⟩ : BufTy).Contents (Elt F) → (⟨S64x1x1x1, .f32⟩ : BufTy).Contents (Elt F)),
    binary main_v31 main_v32 main_v33 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops06_W : List (Ref sig .tc) := [main_cst_4, main_v30, main_v31, main_cst_5, main_v32, main_v33]
theorem ops06_writes : (ops06 (F := F)).Forall fun op => op.writes ⊆ (ops06_W.map (Proc.devRef (τ := τ) .tc)).toFinset :=
  ⟨writes_of rfl (by decide), writes_of rfl (by decide), writes_of rfl (by decide), writes_of rfl (by decide),
   writes_of rfl (by decide), writes_of rfl (by decide)⟩
theorem ops06_sub : (ops06 (F := F)).Forall fun op => op.bufs ⊆ tcRefs τ sig :=
  ⟨nullary_bufs_sub .., binary_bufs_sub .., unary_bufs_sub .., nullary_bufs_sub .., unary_bufs_sub .., binary_bufs_sub ..⟩
theorem ops06_fresh : ∀ op ∈ ops06 (F := F), op.fresh = ∅ := by
  intro _ h; (repeat (cases h with | head => rfl | tail _ h => ?_)); exact nomatch h

theorem st06 {V0 W : Valuation τ sig (Elt F)} (hA : ArgsAt V0 W) (h24 : H24 V0 W) (h29 : H29 V0 W) :
    ArgsAt V0 (after ops06 W) ∧ H24 V0 (after ops06 W) ∧ H29 V0 (after ops06 W) ∧ H33 V0 (after ops06 W) := by
  refine ⟨hA.after ops06 ops06_writes (by decide), (after_of_writes_sub ops06 W ops06_writes (by decide)).trans h24,
    (after_of_writes_sub ops06 W ops06_writes (by decide)).trans h29, ?_⟩
  show after ops06 W main_v33 = _
  after_results
  rw [h29]
  rfl

/-! ## Operations 42 … 50: its variance over the last three axes -/

/-- Operations 42 … 50 of @main. -/
abbrev ops07 : List (HloOp τ sig (Elt F)) :=
  [ unary main_v33 main_v34 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v29 main_v34 main_v35 (subf : (⟨S64x512x512x2, .f32⟩ : BufTy).Contents (Elt F) → (⟨S64x512x512x2, .f32⟩ : BufTy).Contents (Elt F) → (⟨S64x512x512x2, .f32⟩ : BufTy).Contents (Elt F)),
    binary main_v35 main_v35 main_v36 (mulf : (⟨S64x512x512x2, .f32⟩ : BufTy).Contents (Elt F) → (⟨S64x512x512x2, .f32⟩ : BufTy).Contents (Elt F) → (⟨S64x512x512x2, .f32⟩ : BufTy).Contents (Elt F)),
    nullary main_cst_6 (constant S_ .f32 0x00000000#32),
    binary main_v36 main_cst_6 main_v37 ((fun x v => Host.reduceAdd x v reducesTo_S64x512x512x2_S64_d1_2_3 h_S_) : (⟨S64x512x512x2, .f32⟩ : BufTy).Contents (Elt F) → (⟨S_, .f32⟩ : BufTy).Contents (Elt F) → (⟨S64, .f32⟩ : BufTy).Contents (Elt F)),
    unary main_v37 main_v38 (broadcastInDim S64x1x1x1 ![0] bcast_S64_S64x1x1x1_0 : (⟨S64, .f32⟩ : BufTy).Contents (Elt F) → (⟨S64x1x1x1, .f32⟩ : BufTy).Contents (Elt F)),
    nullary main_cst_7 (constant S_ .f32 0x49000000#32),
    unary main_cst_7 main_v39 (broadcastInDim S64x1x1x1 ![] bcast_S_S64x1x1x1 : (⟨S_, .f32⟩ : BufTy).Contents (Elt F) → (⟨S64x1x1x1, .f32⟩ : BufTy).Contents (Elt F)),
    binary main_v38 main_v39 main_v40 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops07_W : List (Ref sig .tc) :=
  [main_v34, main_v35, main_v36, main_cst_6, main_v37, main_v38, main_cst_7, main_v39, main_v40]
theorem ops07_writes : (ops07 (F := F)).Forall fun op => op.writes ⊆ (ops07_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide)⟩
theorem ops07_sub : (ops07 (F := F)).Forall fun op => op.bufs ⊆ tcRefs τ sig :=
  ⟨unary_bufs_sub .., binary_bufs_sub .., binary_bufs_sub .., nullary_bufs_sub .., binary_bufs_sub .., unary_bufs_sub ..,
   nullary_bufs_sub .., unary_bufs_sub .., binary_bufs_sub ..⟩
theorem ops07_fresh : ∀ op ∈ ops07 (F := F), op.fresh = ∅ := by
  intro _ h; (repeat (cases h with | head => rfl | tail _ h => ?_)); exact nomatch h

theorem st07 {V0 W : Valuation τ sig (Elt F)} (hA : ArgsAt V0 W) (h24 : H24 V0 W) (h29 : H29 V0 W) (h33 : H33 V0 W) :
    ArgsAt V0 (after ops07 W) ∧ H24 V0 (after ops07 W) ∧ H29 V0 (after ops07 W) ∧ H33 V0 (after ops07 W)
      ∧ H40 V0 (after ops07 W) := by
  refine ⟨hA.after ops07 ops07_writes (by decide), (after_of_writes_sub ops07 W ops07_writes (by decide)).trans h24,
    (after_of_writes_sub ops07 W ops07_writes (by decide)).trans h29,
    (after_of_writes_sub ops07 W ops07_writes (by decide)).trans h33, ?_⟩
  show after ops07 W main_v40 = _
  after_results
  rw [h29, h33]
  rfl

/-! ## Operations 51 … 60: the array normalized; argument 12 laid out over the batch -/

/-- Operations 51 … 60 of @main. -/
abbrev ops08 : List (HloOp τ sig (Elt F)) :=
  [ unary main_v33 main_v41 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v29 main_v41 main_v42 (subf : (⟨S64x512x512x2, .f32⟩ : BufTy).Contents (Elt F) → (⟨S64x512x512x2, .f32⟩ : BufTy).Contents (Elt F) → (⟨S64x512x512x2, .f32⟩ : BufTy).Contents (Elt F)),
    nullary main_cst_8 (constant S_ .f32 0x3727C5AC#32),
    unary main_cst_8 main_v43 (broadcastInDim S64x1x1x1 ![] bcast_S_S64x1x1x1 : (⟨S_, .f32⟩ : BufTy).Contents (Elt F) → (⟨S64x1x1x1, .f32⟩ : BufTy).Contents (Elt F)),
    binary main_v40 main_v43 main_v44 (addf : (⟨S64x1x1x1, .f32⟩ : BufTy).Contents (Elt F) → (⟨S64x1x1x1, .f32⟩ : BufTy).Contents (Elt F) → (⟨S64x1x1x1, .f32⟩ : BufTy).Contents (Elt F)),
    unary main_v44 main_v45 (Host.rsqrt : (⟨S64x1x1x1, .f32⟩ : BufTy).Contents (Elt F) → (⟨S64x1x1x1, .f32⟩ : BufTy).Contents (Elt F)),
    unary main_v45 main_v46 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v42 main_v46 main_v47 (mulf : (⟨S64x512x512x2, .f32⟩ : BufTy).Contents (Elt F) → (⟨S64x512x512x2, .f32⟩ : BufTy).Contents (Elt F) → (⟨S64x512x512x2, .f32⟩ : BufTy).Contents (Elt F)),
    unary main_arg12 main_v48 (broadcastInDim S1x512x512x2 ![1, 2, 3] bcast_S512x512x2_S1x512x512x2_1_2_3 : (⟨S512x512x2, .f32⟩ : BufTy).Contents (Elt F) → (⟨S1x512x512x2, .f32⟩ : BufTy).Contents (Elt F)),
    unary main_v48 main_v49 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)) ]
/-- The buffers they write. -/
abbrev ops08_W : List (Ref sig .tc) :=
  [main_v41, main_v42, main_cst_8, main_v43, main_v44, main_v45, main_v46, main_v47, main_v48, main_v49]
theorem ops08_writes : (ops08 (F := F)).Forall fun op => op.writes ⊆ (ops08_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide), writes_of rfl (by decide)⟩
theorem ops08_sub : (ops08 (F := F)).Forall fun op => op.bufs ⊆ tcRefs τ sig :=
  ⟨unary_bufs_sub .., binary_bufs_sub .., nullary_bufs_sub .., unary_bufs_sub .., binary_bufs_sub .., unary_bufs_sub ..,
   unary_bufs_sub .., binary_bufs_sub .., unary_bufs_sub .., unary_bufs_sub ..⟩
theorem ops08_fresh : ∀ op ∈ ops08 (F := F), op.fresh = ∅ := by
  intro _ h; (repeat (cases h with | head => rfl | tail _ h => ?_)); exact nomatch h

theorem st08 {V0 W : Valuation τ sig (Elt F)} (hA : ArgsAt V0 W) (h24 : H24 V0 W) (h29 : H29 V0 W) (h33 : H33 V0 W)
    (h40 : H40 V0 W) :
    ArgsAt V0 (after ops08 W) ∧ H24 V0 (after ops08 W) ∧ H47 V0 (after ops08 W) ∧ H49 V0 (after ops08 W) := by
  refine ⟨hA.after ops08 ops08_writes (by decide), (after_of_writes_sub ops08 W ops08_writes (by decide)).trans h24, ?_, ?_⟩
  · show after ops08 W main_v47 = _
    after_results
    rw [h29, h33, h40]
    rfl
  · show after ops08 W main_v49 = _
    after_results
    rw [hA main_arg12 (by decide)]
    rfl

/-! ## The window -/

/-- The first window of @main: operations 1 … 60. -/
def ops_p0 : List (HloOp τ sig (Elt F)) :=
  ops01 ++ (ops02 ++ (ops03 ++ (ops04 ++ (ops05 ++ (ops06 ++ (ops07 ++ ops08))))))

set_option maxRecDepth 8192 in
set_option maxHeartbeats 4000000 in
theorem main_part0_eq (c : Dev nD) : main_part0 (F := F) c = seq ops_p0 := rfl

theorem ops_p0_sub : (ops_p0 (F := F)).Forall fun op => op.bufs ⊆ tcRefs τ sig :=
  sub_append ops01_sub (sub_append ops02_sub (sub_append ops03_sub (sub_append ops04_sub (sub_append ops05_sub
    (sub_append ops06_sub (sub_append ops07_sub ops08_sub))))))

theorem ops_p0_fresh : ∀ op ∈ ops_p0 (F := F), op.fresh = ∅ :=
  fresh_append ops01_fresh (fresh_append ops02_fresh (fresh_append ops03_fresh (fresh_append ops04_fresh
    (fresh_append ops05_fresh (fresh_append ops06_fresh (fresh_append ops07_fresh ops08_fresh))))))

/-- The window run from contents `W`: its stretches in turn. -/
theorem after_p0 (W : Valuation τ sig (Elt F)) :
    after ops_p0 W = after ops08 (after ops07 (after ops06 (after ops05 (after ops04 (after ops03 (after ops02 (after ops01 W))))))) := by
  simp only [ops_p0, after_append']

/-- After the first window, from contents that hold the arguments: the arguments, and the three stages read later. -/
theorem window0 {V0 W : Valuation τ sig (Elt F)} (hA : ArgsAt V0 W) :
    ArgsAt V0 (after ops_p0 W) ∧ H24 V0 (after ops_p0 W) ∧ H47 V0 (after ops_p0 W) ∧ H49 V0 (after ops_p0 W) := by
  rw [after_p0]
  obtain ⟨a1, b3⟩ := st01 hA
  obtain ⟨a2, b3, b10⟩ := st02 a1 b3
  obtain ⟨a3, b17⟩ := st03 a2 b3 b10
  obtain ⟨a4, b24⟩ := st04 a3 b17
  obtain ⟨a5, b24, b29⟩ := st05 a4 b24
  obtain ⟨a6, b24, b29, b33⟩ := st06 a5 b24 b29
  obtain ⟨a7, b24, b29, b33, b40⟩ := st07 a6 b24 b29 b33
  exact st08 a7 b24 b29 b33 b40

end Cert.RefRun

end
-- ==== Proof.RefRunB.lean ====
/-
  The second window of the reference's @main (operations 61 … 120), stretch by stretch: the scale and shift of the first
  normalized four-axis array and its leaky rectifier, the two weighted sums over the last axis and their join, the
  joined array's statistics, normalization, scale and shift, and the start of its leaky rectifier.
  Each stretch is run from ANY buffer contents that hold the stages it reads, and leaves the stages later stretches read.
-/
import proofs.«123119_j23965917511984_2_alg».proof.Proof.RefRunBase

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Operations 61 … 64: times argument 12, plus argument 13 -/

/-- Operations 61 … 64 of @main. -/
abbrev ops09 : List (HloOp τ sig (Elt F)) :=
  [ binary main_v47 main_v49 main_v50 (mulf : (⟨S64x512x512x2, .f32⟩ : BufTy).Contents (Elt F) → (⟨S64x512x512x2, .f32⟩ : BufTy).Contents (Elt F) → (⟨S64x512x512x2, .f32⟩ : BufTy).Contents (Elt F)),
    unary main_arg13 main_v51 (broadcastInDim S1x512x512x2 ![1, 2, 3] bcast_S512x512x2_S1x512x512x2_1_2_3 : (⟨S512x512x2, .f32⟩ : BufTy).Contents (Elt F) → (⟨S1x512x512x2, .f32⟩ : BufTy).Contents (Elt F)),
    unary main_v51 main_v52 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v50 main_v52 main_v53 (addf : (⟨S64x512x512x2, .f32⟩ : BufTy).Contents (Elt F) → (⟨S64x512x512x2, .f32⟩ : BufTy).Contents (Elt F) → (⟨S64x512x512x2, .f32⟩ : BufTy).Contents (Elt F)) ]
/-- The buffers they write. -/
abbrev ops09_W : List (Ref sig .tc) := [main_v50, main_v51, main_v52, main_v53]
theorem ops09_writes : (ops09 (F := F)).Forall fun op => op.writes ⊆ (ops09_W.map (Proc.devRef (τ := τ) .tc)).toFinset :=
  ⟨writes_of rfl (by decide), writes_of rfl (by decide), writes_of rfl (by decide), writes_of rfl (by decide)⟩
theorem ops09_sub : (ops09 (F := F)).Forall fun op => op.bufs ⊆ tcRefs τ sig :=
  ⟨binary_bufs_sub .., unary_bufs_sub .., unary_bufs_sub .., binary_bufs_sub ..⟩
theorem ops09_fresh : ∀ op ∈ ops09 (F := F), op.fresh = ∅ := by
  intro _ h; (repeat (cases h with | head => rfl | tail _ h => ?_)); exact nomatch h

theorem st09 {V0 W : Valuation τ sig (Elt F)} (hA : ArgsAt V0 W) (h24 : H24 V0 W) (h47 : H47 V0 W) (h49 : H49 V0 W) :
    ArgsAt V0 (after ops09 W) ∧ H24 V0 (after ops09 W) ∧ H53 V0 (after ops09 W) := by
  refine ⟨hA.after ops09 ops09_writes (by decide), (after_of_writes_sub ops09 W ops09_writes (by decide)).trans h24, ?_⟩
  show after ops09 W main_v53 = _
  after_results
  rw [h47, h49, hA main_arg13 (by decide)]
  rfl

/-! ## Operations 65 … 71: the leaky rectifier — where it is at least zero itself, elsewhere a small multiple of it -/

/-- Operations 65 … 71 of @main (the last one is the called function's one operation, in the call's place). -/
abbrev ops10 : List (HloOp τ sig (Elt F)) :=
  [ nullary main_cst_9 (constant S_ .f32 0x00000000#32),
    unary main_cst_9 main_v54 (broadcastInDim S64x512x512x2 ![] bcast_S_S64x512x512x2 : (⟨S_, .f32⟩ : BufTy).Contents (Elt F) → (⟨S64x512x512x2, .f32⟩ : BufTy).Contents (Elt F)),
    binary main_v53 main_v54 main_v55 (cmpf .oge : (⟨S64x512x512x2, .f32⟩ : BufTy).Contents (Elt F) → (⟨S64x512x512x2, .f32⟩ : BufTy).Contents (Elt F) → (⟨S64x512x512x2, .i1⟩ : BufTy).Contents (Elt F)),
    nullary main_cst_10 (constant S_ .f32 0x3C23D70A#32),
    unary main_cst_10 main_v56 (broadcastInDim S64x512x512x2 ![] bcast_S_S64x512x512x2 : (⟨S_, .f32⟩ : BufTy).Contents (Elt F) → (⟨S64x512x512x2, .f32⟩ : BufTy).Contents (Elt F)),
    binary main_v56 main_v53 main_v57 (mulf : (⟨S64x512x512x2, .f32⟩ : BufTy).Contents (Elt F) → (⟨S64x512x512x2, .f32⟩ : BufTy).Contents (Elt F) → (⟨S64x512x512x2, .f32⟩ : BufTy).Contents (Elt F)),
    TRef.ternary (TRef.of (T := ⟨S64x512x512x2, .i1⟩) main_v55) (TRef.of (T := ⟨S64x512x512x2, .f32⟩) main_v53) (TRef.of (T := ⟨S64x512x512x2, .f32⟩) main_v57) (TRef.of (T := ⟨S64x512x512x2, .f32⟩) main_v58) select ]
/-- The buffers they write. -/
abbrev ops10_W : List (Ref sig .tc) := [main_cst_9, main_v54, main_v55, main_cst_10, main_v56, main_v57, main_v58]
theorem ops10_writes : (ops10 (F := F)).Forall fun op => op.writes ⊆ (ops10_W.map (Proc.devRef (τ := τ) .tc)).toFinset :=
  ⟨writes_of rfl (by decide), writes_of rfl (by decide), writes_of rfl (by decide), writes_of rfl (by decide),
   writes_of rfl (by decide), writes_of rfl (by decide), writes_of rfl (by decide)⟩
theorem ops10_sub : (ops10 (F := F)).Forall fun op => op.bufs ⊆ tcRefs τ sig :=
  ⟨nullary_bufs_sub .., unary_bufs_sub .., binary_bufs_sub .., nullary_bufs_sub .., unary_bufs_sub .., binary_bufs_sub ..,
   ternary_bufs_sub ..⟩
theorem ops10_fresh : ∀ op ∈ ops10 (F := F), op.fresh = ∅ := by
  intro _ h; (repeat (cases h with | head => rfl | tail _ h => ?_)); exact nomatch h

theorem st10 {V0 W : Valuation τ sig (Elt F)} (hA : ArgsAt V0 W) (h24 : H24 V0 W) (h53 : H53 V0 W) :
    ArgsAt V0 (after ops10 W) ∧ H24 V0 (after ops10 W) ∧ H58 V0 (after ops10 W) := by
  refine ⟨hA.after ops10 ops10_writes (by decide), (after_of_writes_sub ops10 W ops10_writes (by decide)).trans h24, ?_⟩
  show after ops10 W main_v58 = _
  after_results
  rw [h53]
  rfl

/-! ## Operations 72 … 78: times argument 3, summed over the last axis, plus argument 5 -/

/-- Operations 72 … 78 of @main. -/
abbrev ops11 : List (HloOp τ sig (Elt F)) :=
  [ unary main_arg3 main_v59 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v58 main_v59 main_v60 (mulf : (⟨S64x512x512x2, .f32⟩ : BufTy).Contents (Elt F) → (⟨S64x512x512x2, .f32⟩ : BufTy).Contents (Elt F) → (⟨S64x512x512x2, .f32⟩ : BufTy).Contents (Elt F)),
    nullary main_cst_11 (constant S_ .f32 0x00000000#32),
    binary main_v60 main_cst_11 main_v61 ((fun x v => Host.reduceAdd x v reducesTo_S64x512x512x2_S64x512x512_d3 h_S_) : (⟨S64x512x512x2, .f32⟩ : BufTy).Contents (Elt F) → (⟨S_, .f32⟩ : BufTy).Contents (Elt F) → (⟨S64x512x512, .f32⟩ : BufTy).Contents (Elt F)),
    unary main_v61 main_v62 (broadcastInDim S64x512x512x1 ![0, 1, 2] bcast_S64x512x512_S64x512x512x1_0_1_2 : (⟨S64x512x512, .f32⟩ : BufTy).Contents (Elt F) → (⟨S64x512x512x1, .f32⟩ : BufTy).Contents (Elt F)),
    unary main_arg5 main_v63 (broadcastInDim S64x512x512x1 ![0, 1, 2, 3] bcast_S1x512x512x1_S64x512x512x1_0_1_2_3 : (⟨S1x512x512x1, .f32⟩ : BufTy).Contents (Elt F) → (⟨S64x512x512x1, .f32⟩ : BufTy).Contents (Elt F)),
    binary main_v62 main_v63 main_v64 (addf : (⟨S64x512x512x1, .f32⟩ : BufTy).Contents (Elt F) → (⟨S64x512x512x1, .f32⟩ : BufTy).Contents (Elt F) → (⟨S64x512x512x1, .f32⟩ : BufTy).Contents (Elt F)) ]
/-- The buffers they write. -/
abbrev ops11_W : List (Ref sig .tc) := [main_v59, main_v60, main_cst_11, main_v61, main_v62, main_v63, main_v64]
theorem ops11_writes : (ops11 (F := F)).Forall fun op => op.writes ⊆ (ops11_W.map (Proc.devRef (τ := τ) .tc)).toFinset :=
  ⟨writes_of rfl (by decide), writes_of rfl (by decide), writes_of rfl (by decide), writes_of rfl (by decide),
   writes_of rfl (by decide), writes_of rfl (by decide), writes_of rfl (by decide)⟩
theorem ops11_sub : (ops11 (F := F)).Forall fun op => op.bufs ⊆ tcRefs τ sig :=
  ⟨unary_bufs_sub .., binary_bufs_sub .., nullary_bufs_sub .., binary_bufs_sub .., unary_bufs_sub .., unary_bufs_sub ..,
   binary_bufs_sub ..⟩
theorem ops11_fresh : ∀ op ∈ ops11 (F := F), op.fresh = ∅ := by
  intro _ h; (repeat (cases h with | head => rfl | tail _ h => ?_)); exact nomatch h

theorem st11 {V0 W : Valuation τ sig (Elt F)} (hA : ArgsAt V0 W) (h24 : H24 V0 W) (h58 : H58 V0 W) :
    ArgsAt V0 (after ops11 W) ∧ H24 V0 (after ops11 W) ∧ H58 V0 (after ops11 W) ∧ H64 V0 (after ops11 W) := by
  refine ⟨hA.after ops11 ops11_writes (by decide), (after_of_writes_sub ops11 W ops11_writes (by decide)).trans h24,
    (after_of_writes_sub ops11 W ops11_writes (by decide)).trans h58, ?_⟩
  show after ops11 W main_v64 = _
  after_results
  rw [h58, hA main_arg3 (by decide), hA main_arg5 (by decide)]
  rfl

/-! ## Operations 79 … 85: times argument 4, summed over the last axis, plus argument 6 -/

/-- Operations 79 … 85 of @main. -/
abbrev ops12 : List (HloOp τ sig (Elt F)) :=
  [ unary main_arg4 main_v65 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v58 main_v65 main_v66 (mulf : (⟨S64x512x512x2, .f32⟩ : BufTy).Contents (Elt F) → (⟨S64x512x512x2, .f32⟩ : BufTy).Contents (Elt F) → (⟨S64x512x512x2, .f32⟩ : BufTy).Contents (Elt F)),
    nullary main_cst_12 (constant S_ .f32 0x00000000#32),
    binary main_v66 main_cst_12 main_v67 ((fun x v => Host.reduceAdd x v reducesTo_S64x512x512x2_S64x512x512_d3 h_S_) : (⟨S64x512x512x2, .f32⟩ : BufTy).Contents (Elt F) → (⟨S_, .f32⟩ : BufTy).Contents (Elt F) → (⟨S64x512x512, .f32⟩ : BufTy).Contents (Elt F)),
    unary main_v67 main_v68 (broadcastInDim S64x512x512x1 ![0, 1, 2] bcast_S64x512x512_S64x512x512x1_0_1_2 : (⟨S64x512x512, .f32⟩ : BufTy).Contents (Elt F) → (⟨S64x512x512x1, .f32⟩ : BufTy).Contents (Elt F)),
    unary main_arg6 main_v69 (broadcastInDim S64x512x512x1 ![0, 1, 2, 3] bcast_S1x512x512x1_S64x512x512x1_0_1_2_3 : (⟨S1x512x512x1, .f32⟩ : BufTy).Contents (Elt F) → (⟨S64x512x512x1, .f32⟩ : BufTy).Contents (Elt F)),
    binary main_v68 main_v69 main_v70 (addf : (⟨S64x512x512x1, .f32⟩ : BufTy).Contents (Elt F) → (⟨S64x512x512x1, .f32⟩ : BufTy).Contents (Elt F) → (⟨S64x512x512x1, .f32⟩ : BufTy).Contents (Elt F)) ]
/-- The buffers they write. -/
abbrev ops12_W : List (Ref sig .tc) := [main_v65, main_v66, main_cst_12, main_v67, main_v68, main_v69, main_v70]
theorem ops12_writes : (ops12 (F := F)).Forall fun op => op.writes ⊆ (ops12_W.map (Proc.devRef (τ := τ) .tc)).toFinset :=
  ⟨writes_of rfl (by decide), writes_of rfl (by decide), writes_of rfl (by decide), writes_of rfl (by decide),
   writes_of rfl (by decide), writes_of rfl (by decide), writes_of rfl (by decide)⟩
theorem ops12_sub : (ops12 (F := F)).Forall fun op => op.bufs ⊆ tcRefs τ sig :=
  ⟨unary_bufs_sub .., binary_bufs_sub .., nullary_bufs_sub .., binary_bufs_sub .., unary_bufs_sub .., unary_bufs_sub ..,
   binary_bufs_sub ..⟩
theorem ops12_fresh : ∀ op ∈ ops12 (F := F), op.fresh = ∅ := by
  intro _ h; (repeat (cases h with | head => rfl | tail _ h => ?_)); exact nomatch h

theorem st12 {V0 W : Valuation τ sig (Elt F)} (hA : ArgsAt V0 W) (h24 : H24 V0 W) (h58 : H58 V0 W) (h64 : H64 V0 W) :
    ArgsAt V0 (after ops12 W) ∧ H24 V0 (after ops12 W) ∧ H64 V0 (after ops12 W) ∧ H70 V0 (after ops12 W) := by
  refine ⟨hA.after ops12 ops12_writes (by decide), (after_of_writes_sub ops12 W ops12_writes (by decide)).trans h24,
    (after_of_writes_sub ops12 W ops12_writes (by decide)).trans h64, ?_⟩
  show after ops12 W main_v70 = _
  after_results
  rw [h58, hA main_arg4 (by decide), hA main_arg6 (by decide)]
  rfl

/-! ## Operations 86 … 92: the two sums joined along the last axis, and the joined array's mean over the last three axes -/

/-- Operations 86 … 92 of @main. -/
abbrev ops13 : List (HloOp τ sig (Elt F)) :=
  [ binary main_v64 main_v70 main_v71 ((fun a b => concatenate S64x512x512x2 3 [⟨S64x512x512x1, a⟩, ⟨S64x512x512x1, b⟩] concatenates_S64x512x512x1_S64x512x512x1_S64x512x512x2_d3) : (⟨S64x512x512x1, .f32⟩ : BufTy).Contents (Elt F) → (⟨S64x512x512x1, .f32⟩ : BufTy).Contents (Elt F) → (⟨S64x512x512x2, .f32⟩ : BufTy).Contents (Elt F)),
    nullary main_cst_13 (constant S_ .f32 0x00000000#32),
    binary main_v71 main_cst_13 main_v72 ((fun x v => Host.reduceAdd x v reducesTo_S64x512x512x2_S64_d1_2_3 h_S_) : (⟨S64x512x512x2, .f32⟩ : BufTy).Contents (Elt F) → (⟨S_, .f32⟩ : BufTy).Contents (Elt F) → (⟨S64, .f32⟩ : BufTy).Contents (Elt F)),
    unary main_v72 main_v73 (broadcastInDim S64x1x1x1 ![0] bcast_S64_S64x1x1x1_0 : (⟨S64, .f32⟩ : BufTy).Contents (Elt F) → (⟨S64x1x1x1, .f32⟩ : BufTy).Contents (Elt F)),
    nullary main_cst_14 (constant S_ .f32 0x49000000#32),
    unary main_cst_14 main_v74 (broadcastInDim S64x1x1x1 ![] bcast_S_S64x1x1x1 : (⟨S_, .f32⟩ : BufTy).Contents (Elt F) → (⟨S64x1x1x1, .f32⟩ : BufTy).Contents (Elt F)),
    binary main_v73 main_v74 main_v75 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops13_W : List (Ref sig .tc) := [main_v71, main_cst_13, main_v72, main_v73, main_cst_14, main_v74, main_v75]
theorem ops13_writes : (ops13 (F := F)).Forall fun op => op.writes ⊆ (ops13_W.map (Proc.devRef (τ := τ) .tc)).toFinset :=
  ⟨writes_of rfl (by decide), writes_of rfl (by decide), writes_of rfl (by decide), writes_of rfl (by decide),
   writes_of rfl (by decide), writes_of rfl (by decide), writes_of rfl (by decide)⟩
theorem ops13_sub : (ops13 (F := F)).Forall fun op => op.bufs ⊆ tcRefs τ sig :=
  ⟨binary_bufs_sub .., nullary_bufs_sub .., binary_bufs_sub .., unary_bufs_sub .., nullary_bufs_sub .., unary_bufs_sub ..,
   binary_bufs_sub ..⟩
theorem ops13_fresh : ∀ op ∈ ops13 (F := F), op.fresh = ∅ := by
  intro _ h; (repeat (cases h with | head => rfl | tail _ h => ?_)); exact nomatch h

theorem st13 {V0 W : Valuation τ sig (Elt F)} (hA : ArgsAt V0 W) (h24 : H24 V0 W) (h64 : H64 V0 W) (h70 : H70 V0 W) :
    ArgsAt V0 (after ops13 W) ∧ H24 V0 (after ops13 W) ∧ H71 V0 (after ops13 W) ∧ H75 V0 (after ops13 W) := by
  refine ⟨hA.after ops13 ops13_writes (by decide), (after_of_writes_sub ops13 W ops13_writes (by decide)).trans h24, ?_, ?_⟩
  · show after ops13 W main_v71 = _
    after_results
    rw [h64, h70]
    rfl
  · show after ops13 W main_v75 = _
    after_results
    rw [h64, h70]
    rfl

/-! ## Operations 93 … 101: the joined array's variance over the last three axes -/

/-- Operations 93 … 101 of @main. -/
abbrev ops14 : List (HloOp τ sig (Elt F)) :=
  [ unary main_v75 main_v76 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v71 main_v76 main_v77 (subf : (⟨S64x512x512x2, .f32⟩ : BufTy).Contents (Elt F) → (⟨S64x512x512x2, .f32⟩ : BufTy).Contents (Elt F) → (⟨S64x512x512x2, .f32⟩ : BufTy).Contents (Elt F)),
    binary main_v77 main_v77 main_v78 (mulf : (⟨S64x512x512x2, .f32⟩ : BufTy).Contents (Elt F) → (⟨S64x512x512x2, .f32⟩ : BufTy).Contents (Elt F) → (⟨S64x512x512x2, .f32⟩ : BufTy).Contents (Elt F)),
    nullary main_cst_15 (constant S_ .f32 0x00000000#32),
    binary main_v78 main_cst_15 main_v79 ((fun x v => Host.reduceAdd x v reducesTo_S64x512x512x2_S64_d1_2_3 h_S_) : (⟨S64x512x512x2, .f32⟩ : BufTy).Contents (Elt F) → (⟨S_, .f32⟩ : BufTy).Contents (Elt F) → (⟨S64, .f32⟩ : BufTy).Contents (Elt F)),
    unary main_v79 main_v80 (broadcastInDim S64x1x1x1 ![0] bcast_S64_S64x1x1x1_0 : (⟨S64, .f32⟩ : BufTy).Contents (Elt F) → (⟨S64x1x1x1, .f32⟩ : BufTy).Contents (Elt F)),
    nullary main_cst_16 (constant S_ .f32 0x49000000#32),
    unary main_cst_16 main_v81 (broadcastInDim S64x1x1x1 ![] bcast_S_S64x1x1x1 : (⟨S_, .f32⟩ : BufTy).Contents (Elt F) → (⟨S64x1x1x1, .f32⟩ : BufTy).Contents (Elt F)),
    binary main_v80 main_v81 main_v82 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops14_W : List (Ref sig .tc) :=
  [main_v76, main_v77, main_v78, main_cst_15, main_v79, main_v80, main_cst_16, main_v81, main_v82]
theorem ops14_writes : (ops14 (F := F)).Forall fun op => op.writes ⊆ (ops14_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide)⟩
theorem ops14_sub : (ops14 (F := F)).Forall fun op => op.bufs ⊆ tcRefs τ sig :=
  ⟨unary_bufs_sub .., binary_bufs_sub .., binary_bufs_sub .., nullary_bufs_sub .., binary_bufs_sub .., unary_bufs_sub ..,
   nullary_bufs_sub .., unary_bufs_sub .., binary_bufs_sub ..⟩
theorem ops14_fresh : ∀ op ∈ ops14 (F := F), op.fresh = ∅ := by
  intro _ h; (repeat (cases h with | head => rfl | tail _ h => ?_)); exact nomatch h

theorem st14 {V0 W : Valuation τ sig (Elt F)} (hA : ArgsAt V0 W) (h24 : H24 V0 W) (h71 : H71 V0 W) (h75 : H75 V0 W) :
    ArgsAt V0 (after ops14 W) ∧ H24 V0 (after ops14 W) ∧ H71 V0 (after ops14 W) ∧ H75 V0 (after ops14 W)
      ∧ H82 V0 (after ops14 W) := by
  refine ⟨hA.after ops14 ops14_writes (by decide), (after_of_writes_sub ops14 W ops14_writes (by decide)).trans h24,
    (after_of_writes_sub ops14 W ops14_writes (by decide)).trans h71,
    (after_of_writes_sub ops14 W ops14_writes (by decide)).trans h75, ?_⟩
  show after ops14 W main_v82 = _
  after_results
  rw [h71, h75]
  rfl

/-! ## Operations 102 … 109: the joined array normalized -/

/-- Operations 102 … 109 of @main. -/
abbrev ops15 : List (HloOp τ sig (Elt F)) :=
  [ unary main_v75 main_v83 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v71 main_v83 main_v84 (subf : (⟨S64x512x512x2, .f32⟩ : BufTy).Contents (Elt F) → (⟨S64x512x512x2, .f32⟩ : BufTy).Contents (Elt F) → (⟨S64x512x512x2, .f32⟩ : BufTy).Contents (Elt F)),
    nullary main_cst_17 (constant S_ .f32 0x3727C5AC#32),
    unary main_cst_17 main_v85 (broadcastInDim S64x1x1x1 ![] bcast_S_S64x1x1x1 : (⟨S_, .f32⟩ : BufTy).Contents (Elt F) → (⟨S64x1x1x1, .f32⟩ : BufTy).Contents (Elt F)),
    binary main_v82 main_v85 main_v86 (addf : (⟨S64x1x1x1, .f32⟩ : BufTy).Contents (Elt F) → (⟨S64x1x1x1, .f32⟩ : BufTy).Contents (Elt F) → (⟨S64x1x1x1, .f32⟩ : BufTy).Contents (Elt F)),
    unary main_v86 main_v87 (Host.rsqrt : (⟨S64x1x1x1, .f32⟩ : BufTy).Contents (Elt F) → (⟨S64x1x1x1, .f32⟩ : BufTy).Contents (Elt F)),
    unary main_v87 main_v88 (broadcastInDim S64x512x512x2 ![0, 1, 2, 3] bcast_S64x1x1x1_S64x512x512x2_0_1_2_3 : (⟨S64x1x1x1, .f32⟩ : BufTy).Contents (Elt F) → (⟨S64x512x512x2, .f32⟩ : BufTy).Contents (Elt F)),
    binary main_v84 main_v88 main_v89 (mulf : (⟨S64x512x512x2, .f32⟩ : BufTy).Contents (Elt F) → (⟨S64x512x512x2, .f32⟩ : BufTy).Contents (Elt F) → (⟨S64x512x512x2, .f32⟩ : BufTy).Contents (Elt F)) ]
/-- The buffers they write. -/
abbrev ops15_W : List (Ref sig .tc) :=
  [main_v83, main_v84, main_cst_17, main_v85, main_v86, main_v87, main_v88, main_v89]
theorem ops15_writes : (ops15 (F := F)).Forall fun op => op.writes ⊆ (ops15_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide)⟩
theorem ops15_sub : (ops15 (F := F)).Forall fun op => op.bufs ⊆ tcRefs τ sig :=
  ⟨unary_bufs_sub .., binary_bufs_sub .., nullary_bufs_sub .., unary_bufs_sub .., binary_bufs_sub .., unary_bufs_sub ..,
   unary_bufs_sub .., binary_bufs_sub ..⟩
theorem ops15_fresh : ∀ op ∈ ops15 (F := F), op.fresh = ∅ := by
  intro _ h; (repeat (cases h with | head => rfl | tail _ h => ?_)); exact nomatch h

theorem st15 {V0 W : Valuation τ sig (Elt F)} (hA : ArgsAt V0 W) (h24 : H24 V0 W) (h71 : H71 V0 W) (h75 : H75 V0 W)
    (h82 : H82 V0 W) :
    ArgsAt V0 (after ops15 W) ∧ H24 V0 (after ops15 W) ∧ H89 V0 (after ops15 W) := by
  refine ⟨hA.after ops15 ops15_writes (by decide), (after_of_writes_sub ops15 W ops15_writes (by decide)).trans h24, ?_⟩
  show after ops15 W main_v89 = _
  after_results
  rw [h71, h75, h82]
  rfl

/-! ## Operations 110 … 115: times argument 14, plus argument 15 -/

/-- Operations 110 … 115 of @main. -/
abbrev ops16 : List (HloOp τ sig (Elt F)) :=
  [ unary main_arg14 main_v90 (broadcastInDim S1x512x512x2 ![1, 2, 3] bcast_S512x512x2_S1x512x512x2_1_2_3 : (⟨S512x512x2, .f32⟩ : BufTy).Contents (Elt F) → (⟨S1x512x512x2, .f32⟩ : BufTy).Contents (Elt F)),
    unary main_v90 main_v91 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v89 main_v91 main_v92 (mulf : (⟨S64x512x512x2, .f32⟩ : BufTy).Contents (Elt F) → (⟨S64x512x512x2, .f32⟩ : BufTy).Contents (Elt F) → (⟨S64x512x512x2, .f32⟩ : BufTy).Contents (Elt F)),
    unary main_arg15 main_v93 (broadcastInDim S1x512x512x2 ![1, 2, 3] bcast_S512x512x2_S1x512x512x2_1_2_3 : (⟨S512x512x2, .f32⟩ : BufTy).Contents (Elt F) → (⟨S1x512x512x2, .f32⟩ : BufTy).Contents (Elt F)),
    unary main_v93 main_v94 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v92 main_v94 main_v95 (addf : (⟨S64x512x512x2, .f32⟩ : BufTy).Contents (Elt F) → (⟨S64x512x512x2, .f32⟩ : BufTy).Contents (Elt F) → (⟨S64x512x512x2, .f32⟩ : BufTy).Contents (Elt F)) ]
/-- The buffers they write. -/
abbrev ops16_W : List (Ref sig .tc) := [main_v90, main_v91, main_v92, main_v93, main_v94, main_v95]
theorem ops16_writes : (ops16 (F := F)).Forall fun op => op.writes ⊆ (ops16_W.map (Proc.devRef (τ := τ) .tc)).toFinset :=
  ⟨writes_of rfl (by decide), writes_of rfl (by decide), writes_of rfl (by decide), writes_of rfl (by decide),
   writes_of rfl (by decide), writes_of rfl (by decide)⟩
theorem ops16_sub : (ops16 (F := F)).Forall fun op => op.bufs ⊆ tcRefs τ sig :=
  ⟨unary_bufs_sub .., unary_bufs_sub .., binary_bufs_sub .., unary_bufs_sub .., unary_bufs_sub .., binary_bufs_sub ..⟩
theorem ops16_fresh : ∀ op ∈ ops16 (F := F), op.fresh = ∅ := by
  intro _ h; (repeat (cases h with | head => rfl | tail _ h => ?_)); exact nomatch h

theorem st16 {V0 W : Valuation τ sig (Elt F)} (hA : ArgsAt V0 W) (h24 : H24 V0 W) (h89 : H89 V0 W) :
    ArgsAt V0 (after ops16 W) ∧ H24 V0 (after ops16 W) ∧ H95 V0 (after ops16 W) := by
  refine ⟨hA.after ops16 ops16_writes (by decide), (after_of_writes_sub ops16 W ops16_writes (by decide)).trans h24, ?_⟩
  show after ops16 W main_v95 = _
  after_results
  rw [h89, hA main_arg14 (by decide), hA main_arg15 (by decide)]
  rfl

/-! ## Operations 116 … 120: where it is at least zero; the small slope laid out -/

/-- Operations 116 … 120 of @main. -/
abbrev ops17 : List (HloOp τ sig (Elt F)) :=
  [ nullary main_cst_18 (constant S_ .f32 0x00000000#32),
    unary main_cst_18 main_v96 (broadcastInDim S64x512x512x2 ![] bcast_S_S64x512x512x2 : (⟨S_, .f32⟩ : BufTy).Contents (Elt F) → (⟨S64x512x512x2, .f32⟩ : BufTy).Contents (Elt F)),
    binary main_v95 main_v96 main_v97 (cmpf .oge : (⟨S64x512x512x2, .f32⟩ : BufTy).Contents (Elt F) → (⟨S64x512x512x2, .f32⟩ : BufTy).Contents (Elt F) → (⟨S64x512x512x2, .i1⟩ : BufTy).Contents (Elt F)),
    nullary main_cst_19 (constant S_ .f32 0x3C23D70A#32),
    unary main_cst_19 main_v98 (broadcastInDim S64x512x512x2 ![] bcast_S_S64x512x512x2 : (⟨S_, .f32⟩ : BufTy).Contents (Elt F) → (⟨S64x512x512x2, .f32⟩ : BufTy).Contents (Elt F)) ]
/-- The buffers they write. -/
abbrev ops17_W : List (Ref sig .tc) := [main_cst_18, main_v96, main_v97, main_cst_19, main_v98]
theorem ops17_writes : (ops17 (F := F)).Forall fun op => op.writes ⊆ (ops17_W.map (Proc.devRef (τ := τ) .tc)).toFinset :=
  ⟨writes_of rfl (by decide), writes_of rfl (by decide), writes_of rfl (by decide), writes_of rfl (by decide),
   writes_of rfl (by decide)⟩
theorem ops17_sub : (ops17 (F := F)).Forall fun op => op.bufs ⊆ tcRefs τ sig :=
  ⟨nullary_bufs_sub .., unary_bufs_sub .., binary_bufs_sub .., nullary_bufs_sub .., unary_bufs_sub ..⟩
theorem ops17_fresh : ∀ op ∈ ops17 (F := F), op.fresh = ∅ := by
  intro _ h; (repeat (cases h with | head => rfl | tail _ h => ?_)); exact nomatch h

theorem st17 {V0 W : Valuation τ sig (Elt F)} (hA : ArgsAt V0 W) (h24 : H24 V0 W) (h95 : H95 V0 W) :
    ArgsAt V0 (after ops17 W) ∧ H24 V0 (after ops17 W) ∧ H95 V0 (after ops17 W) ∧ H97 V0 (after ops17 W)
      ∧ H98 V0 (after ops17 W) := by
  refine ⟨hA.after ops17 ops17_writes (by decide), (after_of_writes_sub ops17 W ops17_writes (by decide)).trans h24,
    (after_of_writes_sub ops17 W ops17_writes (by decide)).trans h95, ?_, ?_⟩
  · show after ops17 W main_v97 = _
    after_results
    rw [h95]
    rfl
  · show after ops17 W main_v98 = _
    after_results
    rfl

/-! ## The window -/

/-- The second window of @main: operations 61 … 120. -/
def ops_p1 : List (HloOp τ sig (Elt F)) :=
  ops09 ++ (ops10 ++ (ops11 ++ (ops12 ++ (ops13 ++ (ops14 ++ (ops15 ++ (ops16 ++ ops17)))))))

set_option maxRecDepth 8192 in
set_option maxHeartbeats 4000000 in
theorem main_part1_eq (c : Dev nD) : main_part1 (F := F) c = seq ops_p1 := rfl

theorem ops_p1_sub : (ops_p1 (F := F)).Forall fun op => op.bufs ⊆ tcRefs τ sig :=
  sub_append ops09_sub (sub_append ops10_sub (sub_append ops11_sub (sub_append ops12_sub (sub_append ops13_sub
    (sub_append ops14_sub (sub_append ops15_sub (sub_append ops16_sub ops17_sub)))))))

theorem ops_p1_fresh : ∀ op ∈ ops_p1 (F := F), op.fresh = ∅ :=
  fresh_append ops09_fresh (fresh_append ops10_fresh (fresh_append ops11_fresh (fresh_append ops12_fresh
    (fresh_append ops13_fresh (fresh_append ops14_fresh (fresh_append ops15_fresh (fresh_append ops16_fresh ops17_fresh)))))))

/-- The window run from contents `W`: its stretches in turn. -/
theorem after_p1 (W : Valuation τ sig (Elt F)) :
    after ops_p1 W = after ops17 (after ops16 (after ops15 (after ops14 (after ops13 (after ops12 (after ops11
      (after ops10 (after ops09 W)))))))) := by
  simp only [ops_p1, after_append']

/-- After the second window, from contents that hold the arguments and the three stages the first window leaves. -/
theorem window1 {V0 W : Valuation τ sig (Elt F)} (hA : ArgsAt V0 W) (h24 : H24 V0 W) (h47 : H47 V0 W) (h49 : H49 V0 W) :
    ArgsAt V0 (after ops_p1 W) ∧ H24 V0 (after ops_p1 W) ∧ H95 V0 (after ops_p1 W) ∧ H97 V0 (after ops_p1 W)
      ∧ H98 V0 (after ops_p1 W) := by
  rw [after_p1]
  obtain ⟨a, b24, b53⟩ := st09 hA h24 h47 h49
  obtain ⟨a, b24, b58⟩ := st10 a b24 b53
  obtain ⟨a, b24, b58, b64⟩ := st11 a b24 b58
  obtain ⟨a, b24, b64, b70⟩ := st12 a b24 b58 b64
  obtain ⟨a, b24, b71, b75⟩ := st13 a b24 b64 b70
  obtain ⟨a, b24, b71, b75, b82⟩ := st14 a b24 b71 b75
  obtain ⟨a, b24, b89⟩ := st15 a b24 b71 b75 b82
  obtain ⟨a, b24, b95⟩ := st16 a b24 b89
  exact st17 a b24 b95

end Cert.RefRun

end
-- ==== Proof.RefRunC.lean ====
/-
  The third window of the reference's @main (operations 121 … 174), stretch by stretch: the second leaky rectifier and its
  weighted sum over the last axis, that array's statistics, normalization, scale and shift, the early array added back,
  the sum over the middle axis plus argument 9, and the last leaky rectifier, read as a 64×512 array.
  Each stretch is run from ANY buffer contents that hold the stages it reads, and leaves the stages later stretches read.
-/
import proofs.«123119_j23965917511984_2_alg».proof.Proof.RefRunBase

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Operations 121 … 129: the leaky rectifier, times argument 7, summed over the last axis, plus argument 8 -/

/-- Operations 121 … 129 of @main (the second is the called function's one operation, in the call's place). -/
abbrev ops18 : List (HloOp τ sig (Elt F)) :=
  [ binary main_v98 main_v95 main_v99 (mulf : (⟨S64x512x512x2, .f32⟩ : BufTy).Contents (Elt F) → (⟨S64x512x512x2, .f32⟩ : BufTy).Contents (Elt F) → (⟨S64x512x512x2, .f32⟩ : BufTy).Contents (Elt F)),
    TRef.ternary (TRef.of (T := ⟨S64x512x512x2, .i1⟩) main_v97) (TRef.of (T := ⟨S64x512x512x2, .f32⟩) main_v95) (TRef.of (T := ⟨S64x512x512x2, .f32⟩) main_v99) (TRef.of (T := ⟨S64x512x512x2, .f32⟩) main_v100) select,
    unary main_arg7 main_v101 (broadcastInDim S64x512x512x2 ![0, 1, 2, 3] bcast_S1x512x512x2_S64x512x512x2_0_1_2_3 : (⟨S1x512x512x2, .f32⟩ : BufTy).Contents (Elt F) → (⟨S64x512x512x2, .f32⟩ : BufTy).Contents (Elt F)),
    binary main_v100 main_v101 main_v102 (mulf : (⟨S64x512x512x2, .f32⟩ : BufTy).Contents (Elt F) → (⟨S64x512x512x2, .f32⟩ : BufTy).Contents (Elt F) → (⟨S64x512x512x2, .f32⟩ : BufTy).Contents (Elt F)),
    nullary main_cst_20 (constant S_ .f32 0x00000000#32),
    binary main_v102 main_cst_20 main_v103 ((fun x v => Host.reduceAdd x v reducesTo_S64x512x512x2_S64x512x512_d3 h_S_) : (⟨S64x512x512x2, .f32⟩ : BufTy).Contents (Elt F) → (⟨S_, .f32⟩ : BufTy).Contents (Elt F) → (⟨S64x512x512, .f32⟩ : BufTy).Contents (Elt F)),
    unary main_v103 main_v104 (broadcastInDim S64x512x512x1 ![0, 1, 2] bcast_S64x512x512_S64x512x512x1_0_1_2 : (⟨S64x512x512, .f32⟩ : BufTy).Contents (Elt F) → (⟨S64x512x512x1, .f32⟩ : BufTy).Contents (Elt F)),
    unary main_arg8 main_v105 (broadcastInDim S64x512x512x1 ![0, 1, 2, 3] bcast_S1x512x512x1_S64x512x512x1_0_1_2_3 : (⟨S1x512x512x1, .f32⟩ : BufTy).Contents (Elt F) → (⟨S64x512x512x1, .f32⟩ : BufTy).Contents (Elt F)),
    binary main_v104 main_v105 main_v106 (addf : (⟨S64x512x512x1, .f32⟩ : BufTy).Contents (Elt F) → (⟨S64x512x512x1, .f32⟩ : BufTy).Contents (Elt F) → (⟨S64x512x512x1, .f32⟩ : BufTy).Contents (Elt F)) ]
/-- The buffers they write. -/
abbrev ops18_W : List (Ref sig .tc) :=
  [main_v99, main_v100, main_v101, main_v102, main_cst_20, main_v103, main_v104, main_v105, main_v106]
theorem ops18_writes : (ops18 (F := F)).Forall fun op => op.writes ⊆ (ops18_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide)⟩
theorem ops18_sub : (ops18 (F := F)).Forall fun op => op.bufs ⊆ tcRefs τ sig :=
  ⟨binary_bufs_sub .., ternary_bufs_sub .., unary_bufs_sub .., binary_bufs_sub .., nullary_bufs_sub .., binary_bufs_sub ..,
   unary_bufs_sub .., unary_bufs_sub .., binary_bufs_sub ..⟩
theorem ops18_fresh : ∀ op ∈ ops18 (F := F), op.fresh = ∅ := by
  intro _ h; (repeat (cases h with | head => rfl | tail _ h => ?_)); exact nomatch h

theorem st18 {V0 W : Valuation τ sig (Elt F)} (hA : ArgsAt V0 W) (h24 : H24 V0 W) (h95 : H95 V0 W) (h97 : H97 V0 W)
    (h98 : H98 V0 W) :
    ArgsAt V0 (after ops18 W) ∧ H24 V0 (after ops18 W) ∧ H106 V0 (after ops18 W) := by
  refine ⟨hA.after ops18 ops18_writes (by decide), (after_of_writes_sub ops18 W ops18_writes (by decide)).trans h24, ?_⟩
  show after ops18 W main_v106 = _
  after_results
  rw [h95, h97, h98, hA main_arg7 (by decide), hA main_arg8 (by decide)]
  rfl

/-! ## Operations 130 … 135: its mean over the last three axes -/

/-- Operations 130 … 135 of @main. -/
abbrev ops19 : List (HloOp τ sig (Elt F)) :=
  [ nullary main_cst_21 (constant S_ .f32 0x00000000#32),
    binary main_v106 main_cst_21 main_v107 ((fun x v => Host.reduceAdd x v reducesTo_S64x512x512x1_S64_d1_2_3 h_S_) : (⟨S64x512x512x1, .f32⟩ : BufTy).Contents (Elt F) → (⟨S_, .f32⟩ : BufTy).Contents (Elt F) → (⟨S64, .f32⟩ : BufTy).Contents (Elt F)),
    unary main_v107 main_v108 (broadcastInDim S64x1x1x1 ![0] bcast_S64_S64x1x1x1_0 : (⟨S64, .f32⟩ : BufTy).Contents (Elt F) → (⟨S64x1x1x1, .f32⟩ : BufTy).Contents (Elt F)),
    nullary main_cst_22 (constant S_ .f32 0x48800000#32),
    unary main_cst_22 main_v109 (broadcastInDim S64x1x1x1 ![] bcast_S_S64x1x1x1 : (⟨S_, .f32⟩ : BufTy).Contents (Elt F) → (⟨S64x1x1x1, .f32⟩ : BufTy).Contents (Elt F)),
    binary main_v108 main_v109 main_v110 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops19_W : List (Ref sig .tc) := [main_cst_21, main_v107, main_v108, main_cst_22, main_v109, main_v110]
theorem ops19_writes : (ops19 (F := F)).Forall fun op => op.writes ⊆ (ops19_W.map (Proc.devRef (τ := τ) .tc)).toFinset :=
  ⟨writes_of rfl (by decide), writes_of rfl (by decide), writes_of rfl (by decide), writes_of rfl (by decide),
   writes_of rfl (by decide), writes_of rfl (by decide)⟩
theorem ops19_sub : (ops19 (F := F)).Forall fun op => op.bufs ⊆ tcRefs τ sig :=
  ⟨nullary_bufs_sub .., binary_bufs_sub .., unary_bufs_sub .., nullary_bufs_sub .., unary_bufs_sub .., binary_bufs_sub ..⟩
theorem ops19_fresh : ∀ op ∈ ops19 (F := F), op.fresh = ∅ := by
  intro _ h; (repeat (cases h with | head => rfl | tail _ h => ?_)); exact nomatch h

theorem st19 {V0 W : Valuation τ sig (Elt F)} (hA : ArgsAt V0 W) (h24 : H24 V0 W) (h106 : H106 V0 W) :
    ArgsAt V0 (after ops19 W) ∧ H24 V0 (after ops19 W) ∧ H106 V0 (after ops19 W) ∧ H110 V0 (after ops19 W) := by
  refine ⟨hA.after ops19 ops19_writes (by decide), (after_of_writes_sub ops19 W ops19_writes (by decide)).trans h24,
    (after_of_writes_sub ops19 W ops19_writes (by decide)).trans h106, ?_⟩
  show after ops19 W main_v110 = _
  after_results
  rw [h106]
  rfl

/-! ## Operations 136 … 144: its variance over the last three axes -/

/-- Operations 136 … 144 of @main. -/
abbrev ops20 : List (HloOp τ sig (Elt F)) :=
  [ unary main_v110 main_v111 (broadcastInDim S64x512x512x1 ![0, 1, 2, 3] bcast_S64x1x1x1_S64x512x512x1_0_1_2_3 : (⟨S64x1x1x1, .f32⟩ : BufTy).Contents (Elt F) → (⟨S64x512x512x1, .f32⟩ : BufTy).Contents (Elt F)),
    binary main_v106 main_v111 main_v112 (subf : (⟨S64x512x512x1, .f32⟩ : BufTy).Contents (Elt F) → (⟨S64x512x512x1, .f32⟩ : BufTy).Contents (Elt F) → (⟨S64x512x512x1, .f32⟩ : BufTy).Contents (Elt F)),
    binary main_v112 main_v112 main_v113 (mulf : (⟨S64x512x512x1, .f32⟩ : BufTy).Contents (Elt F) → (⟨S64x512x512x1, .f32⟩ : BufTy).Contents (Elt F) → (⟨S64x512x512x1, .f32⟩ : BufTy).Contents (Elt F)),
    nullary main_cst_23 (constant S_ .f32 0x00000000#32),
    binary main_v113 main_cst_23 main_v114 ((fun x v => Host.reduceAdd x v reducesTo_S64x512x512x1_S64_d1_2_3 h_S_) : (⟨S64x512x512x1, .f32⟩ : BufTy).Contents (Elt F) → (⟨S_, .f32⟩ : BufTy).Contents (Elt F) → (⟨S64, .f32⟩ : BufTy).Contents (Elt F)),
    unary main_v114 main_v115 (broadcastInDim S64x1x1x1 ![0] bcast_S64_S64x1x1x1_0 : (⟨S64, .f32⟩ : BufTy).Contents (Elt F) → (⟨S64x1x1x1, .f32⟩ : BufTy).Contents (Elt F)),
    nullary main_cst_24 (constant S_ .f32 0x48800000#32),
    unary main_cst_24 main_v116 (broadcastInDim S64x1x1x1 ![] bcast_S_S64x1x1x1 : (⟨S_, .f32⟩ : BufTy).Contents (Elt F) → (⟨S64x1x1x1, .f32⟩ : BufTy).Contents (Elt F)),
    binary main_v115 main_v116 main_v117 (Host.divf : (⟨S64x1x1x1, .f32⟩ : BufTy).Contents (Elt F) → (⟨S64x1x1x1, .f32⟩ : BufTy).Contents (Elt F) → (⟨S64x1x1x1, .f32⟩ : BufTy).Contents (Elt F)) ]
/-- The buffers they write. -/
abbrev ops20_W : List (Ref sig .tc) :=
  [main_v111, main_v112, main_v113, main_cst_23, main_v114, main_v115, main_cst_24, main_v116, main_v117]
theorem ops20_writes : (ops20 (F := F)).Forall fun op => op.writes ⊆ (ops20_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide),
   writes_of rfl (by decide)⟩
theorem ops20_sub : (ops20 (F := F)).Forall fun op => op.bufs ⊆ tcRefs τ sig :=
  ⟨unary_bufs_sub .., binary_bufs_sub .., binary_bufs_sub .., nullary_bufs_sub .., binary_bufs_sub .., unary_bufs_sub ..,
   nullary_bufs_sub .., unary_bufs_sub .., binary_bufs_sub ..⟩
theorem ops20_fresh : ∀ op ∈ ops20 (F := F), op.fresh = ∅ := by
  intro _ h; (repeat (cases h with | head => rfl | tail _ h => ?_)); exact nomatch h

theorem st20 {V0 W : Valuation τ sig (Elt F)} (hA : ArgsAt V0 W) (h24 : H24 V0 W) (h106 : H106 V0 W) (h110 : H110 V0 W) :
    ArgsAt V0 (after ops20 W) ∧ H24 V0 (after ops20 W) ∧ H106 V0 (after ops20 W) ∧ H110 V0 (after ops20 W)
      ∧ H117 V0 (after ops20 W) := by
  refine ⟨hA.after ops20 ops20_writes (by decide), (after_of_writes_sub ops20 W ops20_writes (by decide)).trans h24,
    (after_of_writes_sub ops20 W ops20_writes (by decide)).trans h106,
    (after_of_writes_sub ops20 W ops20_writes (by decide)).trans h110, ?_⟩
  show after ops20 W main_v117 = _
  after_results
  rw [h106, h110]
  rfl

/-! ## Operations 145 … 152: the array normalized -/

/-- Operations 145 … 152 of @main. -/
abbrev ops21 : List (HloOp τ sig (Elt F)) :=
  [ unary main_v110 main_v118 (broadcastInDim S64x512x512x1 ![0, 1, 2, 3] bcast_S64x1x1x1_S64x512x512x1_0_1_2_3 : (⟨S64x1x1x1, .f32⟩ : BufTy).Contents (Elt F) → (⟨S64x512x512x1, .f32⟩ : BufTy).Contents (Elt F)),
    binary main_v106 main_v118 main_v119 (subf : (⟨S64x512x512x1, .f32⟩ : BufTy).Contents (Elt F) → (⟨S64x512x512x1, .f32⟩ : BufTy).Contents (Elt F) → (⟨S64x512x512x1, .f32⟩ : BufTy).Contents (Elt F)),
    nullary main_cst_25 (constant S_ .f32 0x3727C5AC#32),
    unary main_cst_25 main_v120 (broadcastInDim S64x1x1x1 ![] bcast_S_S64x1x1x1 : (⟨S_, .f32⟩ : BufTy).Contents (Elt F) → (⟨S64x1x1x1, .f32⟩ : BufTy).Contents (Elt F)),
    binary main_v117 main_v120 main_v121 (addf : (⟨S64x1x1x1, .f32⟩ : BufTy).Contents (Elt F) → (⟨S64x1x1x1, .f32⟩ : BufTy).Contents (Elt F) → (⟨S64x1x1x1, .f32⟩ : BufTy).Contents (Elt F)),
    unary main_v121 main_v122 (Host.rsqrt : (⟨S64x1x1x1, .f32⟩ : BufTy).Contents (Elt F) → (⟨S64x1x1x1, .f32⟩ : BufTy).Contents (Elt F)),
    unary main_v122 main_v123 (broadcastInDim S64x512x512x1 ![0, 1, 2, 3] bcast_S64x1x1x1_S64x512x512x1_0_1_2_3 : (⟨S64x1x1x1, .f32⟩ : BufTy).Contents (Elt F) → (⟨S64x512x512x1, .f32⟩ : BufTy).Contents (Elt F)),
    binary main_v119 main_v123 main_v124 (mulf : (⟨S64x512x512x1, .f32⟩ : BufTy).Contents (Elt F) → (⟨S64x512x512x1, .f32⟩ : BufTy).Contents (Elt F) → (⟨S64x512x512x1, .f32⟩ : BufTy).Contents (Elt F)) ]
/-- The buffers they write. -/
abbrev ops21_W : List (Ref sig .tc) :=
  [main_v118, main_v119, main_cst_25, main_v120, main_v121, main_v122, main_v123, main_v124]
theorem ops21_writes : (ops21 (F := F)).Forall fun op => op.writes ⊆ (ops21_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide)⟩
theorem ops21_sub : (ops21 (F := F)).Forall fun op => op.bufs ⊆ tcRefs τ sig :=
  ⟨unary_bufs_sub .., binary_bufs_sub .., nullary_bufs_sub .., unary_bufs_sub .., binary_bufs_sub .., unary_bufs_sub ..,
   unary_bufs_sub .., binary_bufs_sub ..⟩
theorem ops21_fresh : ∀ op ∈ ops21 (F := F), op.fresh = ∅ := by
  intro _ h; (repeat (cases h with | head => rfl | tail _ h => ?_)); exact nomatch h

theorem st21 {V0 W : Valuation τ sig (Elt F)} (hA : ArgsAt V0 W) (h24 : H24 V0 W) (h106 : H106 V0 W) (h110 : H110 V0 W)
    (h117 : H117 V0 W) :
    ArgsAt V0 (after ops21 W) ∧ H24 V0 (after ops21 W) ∧ H124 V0 (after ops21 W) := by
  refine ⟨hA.after ops21 ops21_writes (by decide), (after_of_writes_sub ops21 W ops21_writes (by decide)).trans h24, ?_⟩
  show after ops21 W main_v124 = _
  after_results
  rw [h106, h110, h117]
  rfl

/-! ## Operations 153 … 158: times argument 16, plus argument 17 -/

/-- Operations 153 … 158 of @main. -/
abbrev ops22 : List (HloOp τ sig (Elt F)) :=
  [ unary main_arg16 main_v125 (broadcastInDim S1x512x512x1 ![1, 2, 3] bcast_S512x512x1_S1x512x512x1_1_2_3 : (⟨S512x512x1, .f32⟩ : BufTy).Contents (Elt F) → (⟨S1x512x512x1, .f32⟩ : BufTy).Contents (Elt F)),
    unary main_v125 main_v126 (broadcastInDim S64x512x512x1 ![0, 1, 2, 3] bcast_S1x512x512x1_S64x512x512x1_0_1_2_3 : (⟨S1x512x512x1, .f32⟩ : BufTy).Contents (Elt F) → (⟨S64x512x512x1, .f32⟩ : BufTy).Contents (Elt F)),
    binary main_v124 main_v126 main_v127 (mulf : (⟨S64x512x512x1, .f32⟩ : BufTy).Contents (Elt F) → (⟨S64x512x512x1, .f32⟩ : BufTy).Contents (Elt F) → (⟨S64x512x512x1, .f32⟩ : BufTy).Contents (Elt F)),
    unary main_arg17 main_v128 (broadcastInDim S1x512x512x1 ![1, 2, 3] bcast_S512x512x1_S1x512x512x1_1_2_3 : (⟨S512x512x1, .f32⟩ : BufTy).Contents (Elt F) → (⟨S1x512x512x1, .f32⟩ : BufTy).Contents (Elt F)),
    unary main_v128 main_v129 (broadcastInDim S64x512x512x1 ![0, 1, 2, 3] bcast_S1x512x512x1_S64x512x512x1_0_1_2_3 : (⟨S1x512x512x1, .f32⟩ : BufTy).Contents (Elt F) → (⟨S64x512x512x1, .f32⟩ : BufTy).Contents (Elt F)),
    binary main_v127 main_v129 main_v130 (addf : (⟨S64x512x512x1, .f32⟩ : BufTy).Contents (Elt F) → (⟨S64x512x512x1, .f32⟩ : BufTy).Contents (Elt F) → (⟨S64x512x512x1, .f32⟩ : BufTy).Contents (Elt F)) ]
/-- The buffers they write. -/
abbrev ops22_W : List (Ref sig .tc) := [main_v125, main_v126, main_v127, main_v128, main_v129, main_v130]
theorem ops22_writes : (ops22 (F := F)).Forall fun op => op.writes ⊆ (ops22_W.map (Proc.devRef (τ := τ) .tc)).toFinset :=
  ⟨writes_of rfl (by decide), writes_of rfl (by decide), writes_of rfl (by decide), writes_of rfl (by decide),
   writes_of rfl (by decide), writes_of rfl (by decide)⟩
theorem ops22_sub : (ops22 (F := F)).Forall fun op => op.bufs ⊆ tcRefs τ sig :=
  ⟨unary_bufs_sub .., unary_bufs_sub .., binary_bufs_sub .., unary_bufs_sub .., unary_bufs_sub .., binary_bufs_sub ..⟩
theorem ops22_fresh : ∀ op ∈ ops22 (F := F), op.fresh = ∅ := by
  intro _ h; (repeat (cases h with | head => rfl | tail _ h => ?_)); exact nomatch h

theorem st22 {V0 W : Valuation τ sig (Elt F)} (hA : ArgsAt V0 W) (h24 : H24 V0 W) (h124 : H124 V0 W) :
    ArgsAt V0 (after ops22 W) ∧ H24 V0 (after ops22 W) ∧ H130 V0 (after ops22 W) := by
  refine ⟨hA.after ops22 ops22_writes (by decide), (after_of_writes_sub ops22 W ops22_writes (by decide)).trans h24, ?_⟩
  show after ops22 W main_v130 = _
  after_results
  rw [h124, hA main_arg16 (by decide), hA main_arg17 (by decide)]
  rfl

/-! ## Operations 159 … 166: plus the early array, summed over the middle axis, plus argument 9 -/

/-- Operations 159 … 166 of @main. -/
abbrev ops23 : List (HloOp τ sig (Elt F)) :=
  [ unary main_v24 main_v131 (broadcastInDim S64x512x512x1 ![0, 1, 2, 3] bcast_S64x512x1x1_S64x512x512x1_0_1_2_3 : (⟨S64x512x1x1, .f32⟩ : BufTy).Contents (Elt F) → (⟨S64x512x512x1, .f32⟩ : BufTy).Contents (Elt F)),
    binary main_v130 main_v131 main_v132 (addf : (⟨S64x512x512x1, .f32⟩ : BufTy).Contents (Elt F) → (⟨S64x512x512x1, .f32⟩ : BufTy).Contents (Elt F) → (⟨S64x512x512x1, .f32⟩ : BufTy).Contents (Elt F)),
    nullary main_cst_26 (constant S_ .f32 0x00000000#32),
    binary main_v132 main_cst_26 main_v133 ((fun x v => Host.reduceAdd x v reducesTo_S64x512x512x1_S64x512x1_d1 h_S_) : (⟨S64x512x512x1, .f32⟩ : BufTy).Contents (Elt F) → (⟨S_, .f32⟩ : BufTy).Contents (Elt F) → (⟨S64x512x1, .f32⟩ : BufTy).Contents (Elt F)),
    unary main_arg9 main_v134 (broadcastInDim S512x1 ![0] bcast_S512_S512x1_0 : (⟨S512, .f32⟩ : BufTy).Contents (Elt F) → (⟨S512x1, .f32⟩ : BufTy).Contents (Elt F)),
    unary main_v134 main_v135 (broadcastInDim S1x512x1 ![1, 2] bcast_S512x1_S1x512x1_1_2 : (⟨S512x1, .f32⟩ : BufTy).Contents (Elt F) → (⟨S1x512x1, .f32⟩ : BufTy).Contents (Elt F)),
    unary main_v135 main_v136 (broadcastInDim S64x512x1 ![0, 1, 2] bcast_S1x512x1_S64x512x1_0_1_2 : (⟨S1x512x1, .f32⟩ : BufTy).Contents (Elt F) → (⟨S64x512x1, .f32⟩ : BufTy).Contents (Elt F)),
    binary main_v133 main_v136 main_v137 (addf : (⟨S64x512x1, .f32⟩ : BufTy).Contents (Elt F) → (⟨S64x512x1, .f32⟩ : BufTy).Contents (Elt F) → (⟨S64x512x1, .f32⟩ : BufTy).Contents (Elt F)) ]
/-- The buffers they write. -/
abbrev ops23_W : List (Ref sig .tc) :=
  [main_v131, main_v132, main_cst_26, main_v133, main_v134, main_v135, main_v136, main_v137]
theorem ops23_writes : (ops23 (F := F)).Forall fun op => op.writes ⊆ (ops23_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide)⟩
theorem ops23_sub : (ops23 (F := F)).Forall fun op => op.bufs ⊆ tcRefs τ sig :=
  ⟨unary_bufs_sub .., binary_bufs_sub .., nullary_bufs_sub .., binary_bufs_sub .., unary_bufs_sub .., unary_bufs_sub ..,
   unary_bufs_sub .., binary_bufs_sub ..⟩
theorem ops23_fresh : ∀ op ∈ ops23 (F := F), op.fresh = ∅ := by
  intro _ h; (repeat (cases h with | head => rfl | tail _ h => ?_)); exact nomatch h

theorem st23 {V0 W : Valuation τ sig (Elt F)} (hA : ArgsAt V0 W) (h24 : H24 V0 W) (h130 : H130 V0 W) :
    ArgsAt V0 (after ops23 W) ∧ H137 V0 (after ops23 W) := by
  refine ⟨hA.after ops23 ops23_writes (by decide), ?_⟩
  show after ops23 W main_v137 = _
  after_results
  rw [h24, h130, hA main_arg9 (by decide)]
  rfl

/-! ## Operations 167 … 174: the leaky rectifier of it, read as a 64×512 array: the result -/

/-- Operations 167 … 174 of @main (the seventh is the called function's one operation, in the call's place). -/
abbrev ops24 : List (HloOp τ sig (Elt F)) :=
  [ nullary main_cst_27 (constant S_ .f32 0x00000000#32),
    unary main_cst_27 main_v138 (broadcastInDim S64x512x1 ![] bcast_S_S64x512x1 : (⟨S_, .f32⟩ : BufTy).Contents (Elt F) → (⟨S64x512x1, .f32⟩ : BufTy).Contents (Elt F)),
    binary main_v137 main_v138 main_v139 (cmpf .oge : (⟨S64x512x1, .f32⟩ : BufTy).Contents (Elt F) → (⟨S64x512x1, .f32⟩ : BufTy).Contents (Elt F) → (⟨S64x512x1, .i1⟩ : BufTy).Contents (Elt F)),
    nullary main_cst_28 (constant S_ .f32 0x3C23D70A#32),
    unary main_cst_28 main_v140 (broadcastInDim S64x512x1 ![] bcast_S_S64x512x1 : (⟨S_, .f32⟩ : BufTy).Contents (Elt F) → (⟨S64x512x1, .f32⟩ : BufTy).Contents (Elt F)),
    binary main_v140 main_v137 main_v141 (mulf : (⟨S64x512x1, .f32⟩ : BufTy).Contents (Elt F) → (⟨S64x512x1, .f32⟩ : BufTy).Contents (Elt F) → (⟨S64x512x1, .f32⟩ : BufTy).Contents (Elt F)),
    TRef.ternary (TRef.of (T := ⟨S64x512x1, .i1⟩) main_v139) (TRef.of (T := ⟨S64x512x1, .f32⟩) main_v137) (TRef.of (T := ⟨S64x512x1, .f32⟩) main_v141) (TRef.of (T := ⟨S64x512x1, .f32⟩) main_v142) select,
    reshape main_v142 main_v143 rfl shapeCasts_S64x512x1_S64x512 ]
/-- The buffers they write. -/
abbrev ops24_W : List (Ref sig .tc) :=
  [main_cst_27, main_v138, main_v139, main_cst_28, main_v140, main_v141, main_v142, main_v143]
theorem ops24_writes : (ops24 (F := F)).Forall fun op => op.writes ⊆ (ops24_W.map (Proc.devRef (τ := τ) .tc)).toFinset :=
  ⟨writes_of rfl (by decide), writes_of rfl (by decide), writes_of rfl (by decide), writes_of rfl (by decide),
   writes_of rfl (by decide), writes_of rfl (by decide), writes_of rfl (by decide), writes_of rfl (by decide)⟩
theorem ops24_sub : (ops24 (F := F)).Forall fun op => op.bufs ⊆ tcRefs τ sig :=
  ⟨nullary_bufs_sub .., unary_bufs_sub .., binary_bufs_sub .., nullary_bufs_sub .., unary_bufs_sub .., binary_bufs_sub ..,
   ternary_bufs_sub .., reshape_bufs_sub ..⟩
theorem ops24_fresh : ∀ op ∈ ops24 (F := F), op.fresh = ∅ := by
  intro _ h; (repeat (cases h with | head => rfl | tail _ h => ?_)); exact nomatch h

theorem st24 {V0 W : Valuation τ sig (Elt F)} (hA : ArgsAt V0 W) (h137 : H137 V0 W) :
    ArgsAt V0 (after ops24 W) ∧ H143 V0 (after ops24 W) := by
  refine ⟨hA.after ops24 ops24_writes (by decide), ?_⟩
  show after ops24 W main_v143 = _
  after_results
  rw [h137]
  rfl

/-! ## The window -/

/-- The third window of @main: operations 121 … 174. -/
def ops_p2 : List (HloOp τ sig (Elt F)) :=
  ops18 ++ (ops19 ++ (ops20 ++ (ops21 ++ (ops22 ++ (ops23 ++ ops24)))))

set_option maxRecDepth 8192 in
set_option maxHeartbeats 4000000 in
theorem main_part2_eq (c : Dev nD) : main_part2 (F := F) c = seq ops_p2 := rfl

theorem ops_p2_sub : (ops_p2 (F := F)).Forall fun op => op.bufs ⊆ tcRefs τ sig :=
  sub_append ops18_sub (sub_append ops19_sub (sub_append ops20_sub (sub_append ops21_sub (sub_append ops22_sub
    (sub_append ops23_sub ops24_sub)))))

theorem ops_p2_fresh : ∀ op ∈ ops_p2 (F := F), op.fresh = ∅ :=
  fresh_append ops18_fresh (fresh_append ops19_fresh (fresh_append ops20_fresh (fresh_append ops21_fresh
    (fresh_append ops22_fresh (fresh_append ops23_fresh ops24_fresh)))))

/-- The window run from contents `W`: its stretches in turn. -/
theorem after_p2 (W : Valuation τ sig (Elt F)) :
    after ops_p2 W = after ops24 (after ops23 (after ops22 (after ops21 (after ops20 (after ops19 (after ops18 W)))))) := by
  simp only [ops_p2, after_append']

/-- After the third window, from contents that hold the arguments and the four stages the second window leaves: the
    arguments, and the result. -/
theorem window2 {V0 W : Valuation τ sig (Elt F)} (hA : ArgsAt V0 W) (h24 : H24 V0 W) (h95 : H95 V0 W) (h97 : H97 V0 W)
    (h98 : H98 V0 W) :
    ArgsAt V0 (after ops_p2 W) ∧ H143 V0 (after ops_p2 W) := by
  rw [after_p2]
  obtain ⟨a, b24, b106⟩ := st18 hA h24 h95 h97 h98
  obtain ⟨a, b24, b106, b110⟩ := st19 a b24 b106
  obtain ⟨a, b24, b106, b110, b117⟩ := st20 a b24 b106 b110
  obtain ⟨a, b24, b124⟩ := st21 a b24 b106 b110 b117
  obtain ⟨a, b24, b130⟩ := st22 a b24 b124
  obtain ⟨a, b137⟩ := st23 a b24 b130
  exact st24 a b137

end Cert.RefRun

end
-- ==== Proof.RefRun.lean ====
/-
  The reference program's run: every weakly fair execution of its @main terminates, its argument arrays unchanged, with
  the result buffer holding the last of the program's stages — each stage one host operation applied to the stages before
  it — as a function of the argument arrays as they were at launch.
-/
import proofs.«123119_j23965917511984_2_alg».proof.Proof.RefRead
import proofs.«123119_j23965917511984_2_alg».proof.Proof.RefRunA
import proofs.«123119_j23965917511984_2_alg».proof.Proof.RefRunB
import proofs.«123119_j23965917511984_2_alg».proof.Proof.RefRunC

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 174 operations, in order: its three windows in a row. -/
def ops : List (HloOp τ sig (Elt F)) := ops_p0 ++ (ops_p1 ++ ops_p2)

/-- @main is the line of its operations: window by window. -/
theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  sub_append ops_p0_sub (sub_append ops_p1_sub ops_p2_sub)

theorem ops_fresh : ∀ op ∈ ops (F := F), op.fresh = ∅ :=
  fresh_append ops_p0_fresh (fresh_append ops_p1_fresh ops_p2_fresh)

/-- The whole line run from the launch contents `V0`: the arguments are as at launch, and the result buffer holds the
    last stage of them. Each window takes over the stages the one before leaves. -/
theorem after_ops (V0 : Valuation τ sig (Elt F)) : ArgsAt V0 (after ops V0) ∧ H143 V0 (after ops V0) := by
  rw [ops, after_append', after_append']
  obtain ⟨a, b24, b47, b49⟩ := window0 (ArgsAt.refl V0)
  obtain ⟨a, b24, b95, b97, b98⟩ := window1 a b24 b47 b49
  exact window2 a b24 b95 b97 b98

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = Cert.ReferenceIdeal.Read.val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      obtain ⟨hA, h143⟩ := after_ops (F := F) (launchContents m c)
      exact ⟨(h c main_v143).trans h143,
        (h c main_arg0).trans (hA main_arg0 (by decide)), (h c main_arg1).trans (hA main_arg1 (by decide)),
        (h c main_arg2).trans (hA main_arg2 (by decide)), (h c main_arg3).trans (hA main_arg3 (by decide)),
        (h c main_arg4).trans (hA main_arg4 (by decide)), (h c main_arg5).trans (hA main_arg5 (by decide)),
        (h c main_arg6).trans (hA main_arg6 (by decide)), (h c main_arg7).trans (hA main_arg7 (by decide)),
        (h c main_arg8).trans (hA main_arg8 (by decide)), (h c main_arg9).trans (hA main_arg9 (by decide)),
        (h c main_arg10).trans (hA main_arg10 (by decide)), (h c main_arg11).trans (hA main_arg11 (by decide)),
        (h c main_arg12).trans (hA main_arg12 (by decide)), (h c main_arg13).trans (hA main_arg13 (by decide)),
        (h c main_arg14).trans (hA main_arg14 (by decide)), (h c main_arg15).trans (hA main_arg15 (by decide)),
        (h c main_arg16).trans (hA main_arg16 (by decide)), (h c main_arg17).trans (hA main_arg17 (by decide))⟩)
    (run_seq scopedRefs_eq scopedSems_eq defs main (fun _ => ops) main_eq (fun _ => ops_sub) m ρ (fun _ => ops_fresh))

end Cert.RefRun

end
-- ==== Proof.RefValueNorm0.lean ====
/-
  The reference's first stretch, read at row `b`: the input row is normalised over its own 512 entries.

  The mean of the row is its sum over 512; the centred row is the row less that mean; the variance is the mean of the
  squares of the centred row; the normalised entry is the centred entry times the reciprocal square root of the
  variance plus a small constant, scaled and shifted entry by entry. Each sum starts from the zero word, which is 0.
-/
import proofs.«123119_j23965917511984_2_alg».proof.Proof.RefRead
import proofs.«123119_j23965917511984_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

section Row

variable (x0 : (⟨S64x512, .f32⟩ : BufTy).Contents (Elt Ideal)) (b : Fin 64)

/-- The mean of row `b` (kept on a unit axis, so read at any coordinate of it). -/
theorem v3_at (z : Fin 1) :
    val_main_v3 (F := Ideal) x0 (ix2 b z) = Spec.mean512 (fun k => x0 (ix2 b k)) := by
  have e : ∀ k : Fin 512, idx_main_v0 (idx_main_v1 (ix2 b z)) k = ix2 b k := fun k => by idx2_eq
  rw [val_main_v3_apply, val_main_v1_apply, val_main_v0_apply, val_main_v2_apply, val_main_cst_0_apply,
    val_main_cst_apply]
  simp only [e, Ideal.ofBits_def, Ideal.ofBits_zero_f32, zero_add]
  rfl

/-- The centred row, as the variance reads it. -/
theorem v5_at (d : Fin 512) :
    val_main_v5 (F := Ideal) x0 (ix2 b d) = x0 (ix2 b d) - Spec.mean512 (fun k => x0 (ix2 b k)) := by
  have e : idx_main_v4 (ix2 b d) = ix2 b (0 : Fin 1) := by idx2_eq
  rw [val_main_v5_apply, val_main_v4_apply, e, v3_at]
  rfl

/-- The centred row again, as the normalised entry reads it (the program broadcasts the mean a second time). -/
theorem v12_at (d : Fin 512) :
    val_main_v12 (F := Ideal) x0 (ix2 b d) = x0 (ix2 b d) - Spec.mean512 (fun k => x0 (ix2 b k)) := by
  have e : idx_main_v11 (ix2 b d) = ix2 b (0 : Fin 1) := by idx2_eq
  rw [val_main_v12_apply, val_main_v11_apply, e, v3_at]
  rfl

/-- The variance of row `b`: the mean of the squared differences from the mean. -/
theorem v10_at (z : Fin 1) :
    val_main_v10 (F := Ideal) x0 (ix2 b z) = Spec.var512 (fun k => x0 (ix2 b k)) := by
  have e : ∀ k : Fin 512, idx_main_v7 (idx_main_v8 (ix2 b z)) k = ix2 b k := fun k => by idx2_eq
  rw [val_main_v10_apply, val_main_v8_apply, val_main_v7_apply, val_main_v9_apply, val_main_cst_2_apply,
    val_main_cst_1_apply]
  simp only [e, val_main_v6_apply, v5_at, Ideal.ofBits_def, Ideal.ofBits_zero_f32, zero_add]
  rfl

/-- The centred entry times the reciprocal square root of the variance plus the small constant. -/
theorem v17_at (d : Fin 512) :
    val_main_v17 (F := Ideal) x0 (ix2 b d)
      = (x0 (ix2 b d) - Spec.mean512 (fun k => x0 (ix2 b k)))
          * Ideal.rsqrt (Spec.var512 (fun k => x0 (ix2 b k)) + Spec.eps) := by
  have e : idx_main_v16 (ix2 b d) = ix2 b (0 : Fin 1) := by idx2_eq
  rw [val_main_v17_apply, v12_at, val_main_v16_apply, e, val_main_v15_apply, val_main_v14_apply, v10_at,
    val_main_v13_apply, val_main_cst_3_apply]
  rfl

/-- THE NORMALISED ROW: stage 23 at `(b, d)` is the specification's normalised row of row `b`, at `d`. -/
theorem v23_at (x10 x11 : (⟨S512, .f32⟩ : BufTy).Contents (Elt Ideal)) (d : Fin 512) :
    val_main_v23 (F := Ideal) x0 x10 x11 (ix2 b d)
      = Spec.xnRow (fun k => x0 (ix2 b k)) (fun k => x10 (ix1 k)) (fun k => x11 (ix1 k)) d := by
  have e1 : idx_main_v18 (idx_main_v19 (ix2 b d)) = ix1 d := by idx1_eq
  have e2 : idx_main_v21 (idx_main_v22 (ix2 b d)) = ix1 d := by idx1_eq
  rw [val_main_v23_apply, val_main_v20_apply, v17_at, val_main_v19_apply, val_main_v18_apply, e1,
    val_main_v22_apply, val_main_v21_apply, e2]
  rfl

end Row

end Cert.RefValue

end
-- ==== Proof.LibSum4.lean ====
/-
  A host float sum over the last three axes of a rank-four array, read at an index.

  The host's sum over a list of axes is, at each index of the result, the initial value plus the sum of the
  operand's entries whose index drops to it. Over the axes 1, 2 and 3 of a [B, M, N, K] array an index (a, p, q, r)
  drops to (a), so the entries that reach the result's entry b are exactly those with first coordinate b, and their
  sum is the triple sum over the three dropped coordinates. Stated for every B, M, N and K.
-/
import Idealize.ShloMosaic.PureOps.Ideal.Laws
import Idealize.ShloMosaic.Lib.ValueIdx

noncomputable section

open scoped BigOperators

namespace Cert.LibSum4

open Idealize.ShloMosaic Idealize.ShloMosaic.ValueIdx

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates, first axis outermost. -/
theorem sum_idx4 {A : Type*} [AddCommMonoid A] {n0 n1 n2 n3 : Nat}
    (f : (⟨4, ![n0, n1, n2, n3]⟩ : Shape).Idx → A) :
    ∑ i, f i = ∑ a : Fin n0, ∑ p : Fin n1, ∑ q : Fin n2, ∑ r : Fin n3, f (ix4 a p q r) := by
  rw [← Equiv.sum_comp (idxEquiv4 (n0 := n0) (n1 := n1) (n2 := n2) (n3 := n3)).symm f]
  simp only [Fintype.sum_prod_type]
  rfl

/-- Dropping the axes 1, 2 and 3 keeps the first coordinate: (a, p, q, r) drops to (b) exactly when a = b. -/
theorem drop_ix4_eq_iff {B M N K : Nat} (h : (⟨4, ![B, M, N, K]⟩ : Shape).ReducesTo [1, 2, 3] ⟨1, ![B]⟩)
    (a : Fin B) (p : Fin M) (q : Fin N) (r : Fin K) (b : Fin B) :
    h.drop (ix4 a p q r) = ix1 b ↔ a = b := by
  have hv : (h.drop (ix4 a p q r) 0 : Nat) = a.val := rfl
  constructor
  · intro e
    have e0 : (h.drop (ix4 a p q r) 0 : Nat) = (ix1 b (0 : Fin 1) : Nat) := congrArg (fun j => ((j 0 : Fin B) : Nat)) e
    exact Fin.ext (hv.symm.trans e0)
  · rintro rfl
    funext d
    match d with
    | ⟨0, _⟩ => exact Fin.ext hv

/-- THE SUM OVER THE LAST THREE AXES READ AT `b`: the initial value plus the triple sum of the array at
    `(b, p, q, r)`, first dropped axis outermost. -/
theorem hostReduceAdd_d123 {B M N K : Nat} (h : (⟨4, ![B, M, N, K]⟩ : Shape).ReducesTo [1, 2, 3] ⟨1, ![B]⟩)
    (x : (⟨4, ![B, M, N, K]⟩ : Shape).Idx → EReal) (init : EReal) (b : Fin B) :
    Ideal.hostReduceAdd h x init (ix1 b)
      = init + ∑ p : Fin M, ∑ q : Fin N, ∑ r : Fin K, x (ix4 b p q r) := by
  unfold Ideal.hostReduceAdd
  refine congrArg (init + ·) ?_
  rw [Finset.sum_filter, sum_idx4]
  rw [Finset.sum_eq_single b]
  · refine Finset.sum_congr rfl fun p _ => Finset.sum_congr rfl fun q _ => Finset.sum_congr rfl fun r _ => ?_
    rw [if_pos ((drop_ix4_eq_iff h b p q r b).mpr rfl)]
  · intro a _ hab
    refine Finset.sum_eq_zero fun p _ => Finset.sum_eq_zero fun q _ => Finset.sum_eq_zero fun r _ => ?_
    rw [if_neg fun e => hab ((drop_ix4_eq_iff h a p q r b).mp e)]
  · intro hb
    exact absurd (Finset.mem_univ b) hb

end Cert.LibSum4

end
-- ==== Proof.RefValueLn1.lean ====
/-
  The reference's second stretch, read at batch row `b`: the normalised row `a` feeds the [512, 512, 2] array
  `a d · w1 d u c + b1 d u c`, which is normalised over ALL its entries and rectified.

  Each lemma takes the previous stage's reading as a hypothesis:
  if stage 23 reads as `a` on row `b`, stage 29 reads as that array; and if stage 29 reads as an array `z` on row
  `b`, then the sum over the last three axes is the triple sum of `z`, the mean is that sum over the number of
  entries, the variance is the mean of the squared differences, and stage 58 is the rectified normalised entry.
-/
import proofs.«123119_j23965917511984_2_alg».proof.Proof.RefRead
import proofs.«123119_j23965917511984_2_alg».proof.Proof.Spec
import proofs.«123119_j23965917511984_2_alg».proof.Proof.LibSum4

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

/-! ## The array fed to the first whole-array normalisation -/

section Feed

variable (x0 : (⟨S64x512, .f32⟩ : BufTy).Contents (Elt Ideal)) (x1 x2 : (⟨S1x512x512x2, .f32⟩ : BufTy).Contents (Elt Ideal)) (x10 x11 : (⟨S512, .f32⟩ : BufTy).Contents (Elt Ideal)) (b : Fin 64) (a : Fin 512 → EReal)
  (ha : ∀ d : Fin 512, val_main_v23 (F := Ideal) x0 x10 x11 (ix2 b d) = a d)
include ha

/-- Stage 29 at `(b, d, u, c)`: the normalised row's entry `d` times the weight plus the shift. -/
theorem v29_of (d u : Fin 512) (c : Fin 2) :
    val_main_v29 (F := Ideal) x0 x1 x2 x10 x11 (ix4 b d u c)
      = a d * x1 (ix4 (0 : Fin 1) d u c) + x2 (ix4 (0 : Fin 1) d u c) := by
  have e1 : idx_main_v24 (idx_main_v25 (ix4 b d u c)) = ix2 b d := by idx2_eq
  have e2 : idx_main_v26 (ix4 b d u c) = ix4 (0 : Fin 1) d u c := by idx4_eq
  have e3 : idx_main_v28 (ix4 b d u c) = ix4 (0 : Fin 1) d u c := by idx4_eq
  rw [val_main_v29_apply, val_main_v27_apply, val_main_v25_apply, val_main_v24_apply, e1, ha, val_main_v26_apply, e2,
    val_main_v28_apply, e3]
  rfl

end Feed

/-! ## The first whole-array normalisation and the rectifier -/

section Norm

variable (x0 : (⟨S64x512, .f32⟩ : BufTy).Contents (Elt Ideal)) (x1 x2 : (⟨S1x512x512x2, .f32⟩ : BufTy).Contents (Elt Ideal)) (x10 x11 : (⟨S512, .f32⟩ : BufTy).Contents (Elt Ideal)) (b : Fin 64) (z : Fin 512 → Fin 512 → Fin 2 → EReal)
  (hz : ∀ (d u : Fin 512) (c : Fin 2), val_main_v29 (F := Ideal) x0 x1 x2 x10 x11 (ix4 b d u c) = z d u c)
include hz

/-- The sum of all entries of row `b`'s array. -/
theorem v30_of : val_main_v30 (F := Ideal) x0 x1 x2 x10 x11 (ix1 b) = Spec.sum3 z := by
  unfold val_main_v30
  simp only [Host.reduceAdd, Ideal.hostReduceAdd_def]
  refine (LibSum4.hostReduceAdd_d123 reducesTo_S64x512x512x2_S64_d1_2_3 _ _ b).trans ?_
  rw [val_main_cst_4_apply]
  simp only [hz, Ideal.ofBits_def, Ideal.ofBits_zero_f32, zero_add]
  rfl

/-- Its mean (kept on three unit axes). -/
theorem v33_of (o1 o2 o3 : Fin 1) :
    val_main_v33 (F := Ideal) x0 x1 x2 x10 x11 (ix4 b o1 o2 o3) = Spec.mean3 z := by
  have e : idx_main_v31 (ix4 b o1 o2 o3) = ix1 b := by idx1_eq
  rw [val_main_v33_apply, val_main_v31_apply, e, v30_of x0 x1 x2 x10 x11 b z hz, val_main_v32_apply,
    val_main_cst_5_apply]
  rfl

/-- The centred array, as the variance reads it. -/
theorem v35_of (d u : Fin 512) (c : Fin 2) :
    val_main_v35 (F := Ideal) x0 x1 x2 x10 x11 (ix4 b d u c) = z d u c - Spec.mean3 z := by
  have e : idx_main_v34 (ix4 b d u c) = ix4 b (0 : Fin 1) (0 : Fin 1) (0 : Fin 1) := by idx4_eq
  rw [val_main_v35_apply, hz, val_main_v34_apply, e, v33_of x0 x1 x2 x10 x11 b z hz]
  rfl

/-- The sum of the squared differences from the mean. -/
theorem v37_of :
    val_main_v37 (F := Ideal) x0 x1 x2 x10 x11 (ix1 b)
      = Spec.sum3 (fun d u c => (z d u c - Spec.mean3 z) * (z d u c - Spec.mean3 z)) := by
  unfold val_main_v37
  simp only [Host.reduceAdd, Ideal.hostReduceAdd_def]
  refine (LibSum4.hostReduceAdd_d123 reducesTo_S64x512x512x2_S64_d1_2_3 _ _ b).trans ?_
  rw [val_main_cst_6_apply]
  simp only [val_main_v36_apply, v35_of x0 x1 x2 x10 x11 b z hz, Ideal.ofBits_def, Ideal.ofBits_zero_f32, zero_add]
  rfl

/-- The variance. -/
theorem v40_of (o1 o2 o3 : Fin 1) :
    val_main_v40 (F := Ideal) x0 x1 x2 x10 x11 (ix4 b o1 o2 o3) = Spec.varR3 z := by
  have e : idx_main_v38 (ix4 b o1 o2 o3) = ix1 b := by idx1_eq
  rw [val_main_v40_apply, val_main_v38_apply, e, v37_of x0 x1 x2 x10 x11 b z hz, val_main_v39_apply,
    val_main_cst_7_apply]
  rfl

/-- The normalised entry, scaled and shifted by the third and fourth parameter pair. -/
theorem v53_of (x12 x13 : (⟨S512x512x2, .f32⟩ : BufTy).Contents (Elt Ideal)) (d u : Fin 512) (c : Fin 2) :
    val_main_v53 (F := Ideal) x0 x1 x2 x10 x11 x12 x13 (ix4 b d u c)
      = Spec.lnR3 z (fun d u c => x12 (ix3 d u c)) (fun d u c => x13 (ix3 d u c)) d u c := by
  have e41 : idx_main_v41 (ix4 b d u c) = ix4 b (0 : Fin 1) (0 : Fin 1) (0 : Fin 1) := by idx4_eq
  have e46 : idx_main_v46 (ix4 b d u c) = ix4 b (0 : Fin 1) (0 : Fin 1) (0 : Fin 1) := by idx4_eq
  have e49 : idx_main_v48 (idx_main_v49 (ix4 b d u c)) = ix3 d u c := by idx3_eq
  have e52 : idx_main_v51 (idx_main_v52 (ix4 b d u c)) = ix3 d u c := by idx3_eq
  rw [val_main_v53_apply, val_main_v50_apply, val_main_v47_apply, val_main_v42_apply, hz, val_main_v41_apply, e41,
    v33_of x0 x1 x2 x10 x11 b z hz, val_main_v46_apply, e46, val_main_v45_apply, val_main_v44_apply,
    v40_of x0 x1 x2 x10 x11 b z hz, val_main_v43_apply, val_main_cst_8_apply, val_main_v49_apply, val_main_v48_apply,
    e49, val_main_v52_apply, val_main_v51_apply, e52]
  rfl

/-- THE RECTIFIED NORMALISED ENTRY: stage 58 at `(b, d, u, c)`. -/
theorem v58_of (x12 x13 : (⟨S512x512x2, .f32⟩ : BufTy).Contents (Elt Ideal)) (d u : Fin 512) (c : Fin 2) :
    val_main_v58 (F := Ideal) x0 x1 x2 x10 x11 x12 x13 (ix4 b d u c)
      = Spec.lrelu (Spec.lnR3 z (fun d u c => x12 (ix3 d u c)) (fun d u c => x13 (ix3 d u c)) d u c) := by
  rw [val_main_v58_apply, val_main_v55_apply, val_main_v57_apply, v53_of x0 x1 x2 x10 x11 b z hz, val_main_v54_apply,
    val_main_cst_9_apply, val_main_v56_apply, val_main_cst_10_apply]
  exact Spec.select_cmp_eq_lrelu _

end Norm

end Cert.RefValue

end
-- ==== Proof.RefValueMix.lean ====
/-
  The reference's third stretch, read at batch row `b`: the rectified array `l` is contracted over its last axis
  of two against two weights, each contraction shifted, and the two [512, 512] results are joined along a new last
  axis of two.

  A sum over an axis of size two is the sum of its two terms; a join along the last axis reads its first piece where
  the last coordinate is 0 and its second piece where it is 1. The hypothesis is the previous stretch's reading: stage
  58 reads as `l` on row `b`.
-/
import proofs.«123119_j23965917511984_2_alg».proof.Proof.RefRead
import proofs.«123119_j23965917511984_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

section Mix

variable (x0 : (⟨S64x512, .f32⟩ : BufTy).Contents (Elt Ideal)) (x1 x2 : (⟨S1x512x512x2, .f32⟩ : BufTy).Contents (Elt Ideal)) (x10 x11 : (⟨S512, .f32⟩ : BufTy).Contents (Elt Ideal)) (x12 x13 : (⟨S512x512x2, .f32⟩ : BufTy).Contents (Elt Ideal)) (b : Fin 64)
  (l : Fin 512 → Fin 512 → Fin 2 → EReal)
  (hl : ∀ (d u : Fin 512) (c : Fin 2),
    val_main_v58 (F := Ideal) x0 x1 x2 x10 x11 x12 x13 (ix4 b d u c) = l d u c)
include hl

/-- The first contraction, against the third argument array, shifted by the fifth. -/
theorem v64_of (x3 : (⟨S1x512x512x2, .f32⟩ : BufTy).Contents (Elt Ideal)) (x5 : (⟨S1x512x512x1, .f32⟩ : BufTy).Contents (Elt Ideal)) (d u : Fin 512) (o : Fin 1) :
    val_main_v64 (F := Ideal) x0 x1 x2 x3 x5 x10 x11 x12 x13 (ix4 b d u o)
      = Spec.mix l (fun d u c => x3 (ix4 (0 : Fin 1) d u c)) (fun d u => x5 (ix4 (0 : Fin 1) d u (0 : Fin 1))) d u := by
  have e62 : idx_main_v62 (ix4 b d u o) = ix3 b d u := by idx3_eq
  have e61 : ∀ k : Fin 2, idx_main_v61 (ix3 b d u) k = ix4 b d u k := fun k => by idx4_eq
  have e59 : ∀ k : Fin 2, idx_main_v59 (ix4 b d u k) = ix4 (0 : Fin 1) d u k := fun k => by idx4_eq
  have e63 : idx_main_v63 (ix4 b d u o) = ix4 (0 : Fin 1) d u (0 : Fin 1) := by idx4_eq
  rw [val_main_v64_apply, val_main_v62_apply, e62, val_main_v61_apply, val_main_cst_11_apply, val_main_v63_apply, e63,
    Fin.sum_univ_two]
  simp only [e61, val_main_v60_apply, hl, val_main_v59_apply, e59, Ideal.ofBits_def, Ideal.ofBits_zero_f32, zero_add]
  rfl

/-- The second contraction, against the fourth argument array, shifted by the sixth. -/
theorem v70_of (x4 : (⟨S1x512x512x2, .f32⟩ : BufTy).Contents (Elt Ideal)) (x6 : (⟨S1x512x512x1, .f32⟩ : BufTy).Contents (Elt Ideal)) (d u : Fin 512) (o : Fin 1) :
    val_main_v70 (F := Ideal) x0 x1 x2 x4 x6 x10 x11 x12 x13 (ix4 b d u o)
      = Spec.mix l (fun d u c => x4 (ix4 (0 : Fin 1) d u c)) (fun d u => x6 (ix4 (0 : Fin 1) d u (0 : Fin 1))) d u := by
  have e68 : idx_main_v68 (ix4 b d u o) = ix3 b d u := by idx3_eq
  have e67 : ∀ k : Fin 2, idx_main_v67 (ix3 b d u) k = ix4 b d u k := fun k => by idx4_eq
  have e65 : ∀ k : Fin 2, idx_main_v65 (ix4 b d u k) = ix4 (0 : Fin 1) d u k := fun k => by idx4_eq
  have e69 : idx_main_v69 (ix4 b d u o) = ix4 (0 : Fin 1) d u (0 : Fin 1) := by idx4_eq
  rw [val_main_v70_apply, val_main_v68_apply, e68, val_main_v67_apply, val_main_cst_12_apply, val_main_v69_apply, e69,
    Fin.sum_univ_two]
  simp only [e67, val_main_v66_apply, hl, val_main_v65_apply, e65, Ideal.ofBits_def, Ideal.ofBits_zero_f32, zero_add]
  rfl

/-- The join where the last coordinate is 0: the first contraction. -/
theorem v71_left (x3 x4 : (⟨S1x512x512x2, .f32⟩ : BufTy).Contents (Elt Ideal)) (x5 x6 : (⟨S1x512x512x1, .f32⟩ : BufTy).Contents (Elt Ideal)) (d u : Fin 512) :
    val_main_v71 (F := Ideal) x0 x1 x2 x3 x4 x5 x6 x10 x11 x12 x13 (ix4 b d u (0 : Fin 2))
      = Spec.mix l (fun d u c => x3 (ix4 (0 : Fin 1) d u c)) (fun d u => x5 (ix4 (0 : Fin 1) d u (0 : Fin 1))) d u := by
  unfold val_main_v71
  refine (concatenate_pair_apply_left (t := S64x512x512x2) (s₁ := S64x512x512x1) (s₂ := S64x512x512x1) 3 _ _
    concatenates_S64x512x512x1_S64x512x512x1_S64x512x512x2_d3 (ix4 b d u (0 : Fin 2)) rfl (ix4 b d u (0 : Fin 1))
    (fun a => match a with | ⟨0, _⟩ => rfl | ⟨1, _⟩ => rfl | ⟨2, _⟩ => rfl | ⟨3, _⟩ => rfl)).trans ?_
  exact v64_of x0 x1 x2 x10 x11 x12 x13 b l hl x3 x5 d u 0

/-- The join where the last coordinate is 1: the second contraction. -/
theorem v71_right (x3 x4 : (⟨S1x512x512x2, .f32⟩ : BufTy).Contents (Elt Ideal)) (x5 x6 : (⟨S1x512x512x1, .f32⟩ : BufTy).Contents (Elt Ideal)) (d u : Fin 512) :
    val_main_v71 (F := Ideal) x0 x1 x2 x3 x4 x5 x6 x10 x11 x12 x13 (ix4 b d u (1 : Fin 2))
      = Spec.mix l (fun d u c => x4 (ix4 (0 : Fin 1) d u c)) (fun d u => x6 (ix4 (0 : Fin 1) d u (0 : Fin 1))) d u := by
  unfold val_main_v71
  refine (concatenate_pair_apply_right (t := S64x512x512x2) (s₁ := S64x512x512x1) (s₂ := S64x512x512x1) 3 _ _
    concatenates_S64x512x512x1_S64x512x512x1_S64x512x512x2_d3 (ix4 b d u (1 : Fin 2)) rfl rfl (ix4 b d u (0 : Fin 1))
    (fun a => match a with
      | ⟨0, _⟩ => fun _ => rfl
      | ⟨1, _⟩ => fun _ => rfl
      | ⟨2, _⟩ => fun _ => rfl
      | ⟨3, _⟩ => fun h3 => absurd rfl h3) rfl).trans ?_
  exact v70_of x0 x1 x2 x10 x11 x12 x13 b l hl x4 x6 d u 0

/-- THE JOINED ARRAY: stage 71 at `(b, d, u, c)` is the specification's join of the two contractions. -/
theorem v71_of (x3 x4 : (⟨S1x512x512x2, .f32⟩ : BufTy).Contents (Elt Ideal)) (x5 x6 : (⟨S1x512x512x1, .f32⟩ : BufTy).Contents (Elt Ideal)) (d u : Fin 512) (c : Fin 2) :
    val_main_v71 (F := Ideal) x0 x1 x2 x3 x4 x5 x6 x10 x11 x12 x13 (ix4 b d u c)
      = Spec.cat
          (Spec.mix l (fun d u c => x3 (ix4 (0 : Fin 1) d u c)) (fun d u => x5 (ix4 (0 : Fin 1) d u (0 : Fin 1))))
          (Spec.mix l (fun d u c => x4 (ix4 (0 : Fin 1) d u c)) (fun d u => x6 (ix4 (0 : Fin 1) d u (0 : Fin 1))))
          d u c := by
  revert c
  refine Fin.forall_fin_two.mpr ⟨?_, ?_⟩
  · exact (v71_left x0 x1 x2 x10 x11 x12 x13 b l hl x3 x4 x5 x6 d u).trans (if_pos rfl).symm
  · exact (v71_right x0 x1 x2 x10 x11 x12 x13 b l hl x3 x4 x5 x6 d u).trans (if_neg (by decide)).symm

end Mix

end Cert.RefValue

end
-- ==== Proof.RefValueLn2.lean ====
/-
  The reference's fourth stretch, read at batch row `b`: the joined [512, 512, 2] array is normalised over ALL its
  entries and rectified, exactly as the first whole-array normalisation was.

  The hypothesis is the previous stretch's reading: stage 71 reads as an array `z` on row `b`. Then the sum over
  the last three axes is the triple sum of `z`, the mean is that sum over the number of entries, the variance is the
  mean of the squared differences from the mean, and stage 100 is the rectified normalised entry.
-/
import proofs.«123119_j23965917511984_2_alg».proof.Proof.RefRead
import proofs.«123119_j23965917511984_2_alg».proof.Proof.Spec
import proofs.«123119_j23965917511984_2_alg».proof.Proof.LibSum4

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

section Norm

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x10 x11 : (⟨S512, .f32⟩ : BufTy).Contents (Elt Ideal)) (x12 x13 : (⟨S512x512x2, .f32⟩ : BufTy).Contents (Elt Ideal)) (b : Fin 64)
  (z : Fin 512 → Fin 512 → Fin 2 → EReal)
  (hz : ∀ (d u : Fin 512) (c : Fin 2),
    val_main_v71 (F := Ideal) x0 x1 x2 x3 x4 x5 x6 x10 x11 x12 x13 (ix4 b d u c) = z d u c)
include hz

/-- The sum of all entries of row `b`'s joined array. -/
theorem v72_of : val_main_v72 (F := Ideal) x0 x1 x2 x3 x4 x5 x6 x10 x11 x12 x13 (ix1 b) = Spec.sum3 z := by
  unfold val_main_v72
  simp only [Host.reduceAdd, Ideal.hostReduceAdd_def]
  refine (LibSum4.hostReduceAdd_d123 reducesTo_S64x512x512x2_S64_d1_2_3 _ _ b).trans ?_
  rw [val_main_cst_13_apply]
  simp only [hz, Ideal.ofBits_def, Ideal.ofBits_zero_f32, zero_add]
  rfl

/-- Its mean (kept on three unit axes). -/
theorem v75_of (o1 o2 o3 : Fin 1) :
    val_main_v75 (F := Ideal) x0 x1 x2 x3 x4 x5 x6 x10 x11 x12 x13 (ix4 b o1 o2 o3) = Spec.mean3 z := by
  have e : idx_main_v73 (ix4 b o1 o2 o3) = ix1 b := by idx1_eq
  rw [val_main_v75_apply, val_main_v73_apply, e, v72_of x0 x1 x2 x3 x4 x5 x6 x10 x11 x12 x13 b z hz, val_main_v74_apply, val_main_cst_14_apply]
  rfl

/-- The centred array, as the variance reads it. -/
theorem v77_of (d u : Fin 512) (c : Fin 2) :
    val_main_v77 (F := Ideal) x0 x1 x2 x3 x4 x5 x6 x10 x11 x12 x13 (ix4 b d u c) = z d u c - Spec.mean3 z := by
  have e : idx_main_v76 (ix4 b d u c) = ix4 b (0 : Fin 1) (0 : Fin 1) (0 : Fin 1) := by idx4_eq
  rw [val_main_v77_apply, hz, val_main_v76_apply, e, v75_of x0 x1 x2 x3 x4 x5 x6 x10 x11 x12 x13 b z hz]
  rfl

/-- The sum of the squared differences from the mean. -/
theorem v79_of :
    val_main_v79 (F := Ideal) x0 x1 x2 x3 x4 x5 x6 x10 x11 x12 x13 (ix1 b)
      = Spec.sum3 (fun d u c => (z d u c - Spec.mean3 z) * (z d u c - Spec.mean3 z)) := by
  unfold val_main_v79
  simp only [Host.reduceAdd, Ideal.hostReduceAdd_def]
  refine (LibSum4.hostReduceAdd_d123 reducesTo_S64x512x512x2_S64_d1_2_3 _ _ b).trans ?_
  rw [val_main_cst_15_apply]
  simp only [val_main_v78_apply, v77_of x0 x1 x2 x3 x4 x5 x6 x10 x11 x12 x13 b z hz, Ideal.ofBits_def, Ideal.ofBits_zero_f32, zero_add]
  rfl

/-- The variance. -/
theorem v82_of (o1 o2 o3 : Fin 1) :
    val_main_v82 (F := Ideal) x0 x1 x2 x3 x4 x5 x6 x10 x11 x12 x13 (ix4 b o1 o2 o3) = Spec.varR3 z := by
  have e : idx_main_v80 (ix4 b o1 o2 o3) = ix1 b := by idx1_eq
  rw [val_main_v82_apply, val_main_v80_apply, e, v79_of x0 x1 x2 x3 x4 x5 x6 x10 x11 x12 x13 b z hz, val_main_v81_apply, val_main_cst_16_apply]
  rfl

/-- The normalised entry, scaled and shifted by the fifth and sixth parameter pair. -/
theorem v95_of (x14 x15 : (⟨S512x512x2, .f32⟩ : BufTy).Contents (Elt Ideal)) (d u : Fin 512) (c : Fin 2) :
    val_main_v95 (F := Ideal) x0 x1 x2 x3 x4 x5 x6 x10 x11 x12 x13 x14 x15 (ix4 b d u c)
      = Spec.lnR3 z (fun d u c => x14 (ix3 d u c)) (fun d u c => x15 (ix3 d u c)) d u c := by
  have e83 : idx_main_v83 (ix4 b d u c) = ix4 b (0 : Fin 1) (0 : Fin 1) (0 : Fin 1) := by idx4_eq
  have e88 : idx_main_v88 (ix4 b d u c) = ix4 b (0 : Fin 1) (0 : Fin 1) (0 : Fin 1) := by idx4_eq
  have e91 : idx_main_v90 (idx_main_v91 (ix4 b d u c)) = ix3 d u c := by idx3_eq
  have e94 : idx_main_v93 (idx_main_v94 (ix4 b d u c)) = ix3 d u c := by idx3_eq
  rw [val_main_v95_apply, val_main_v92_apply, val_main_v89_apply, val_main_v84_apply, hz, val_main_v83_apply, e83,
    v75_of x0 x1 x2 x3 x4 x5 x6 x10 x11 x12 x13 b z hz, val_main_v88_apply, e88, val_main_v87_apply, val_main_v86_apply,
    v82_of x0 x1 x2 x3 x4 x5 x6 x10 x11 x12 x13 b z hz, val_main_v85_apply, val_main_cst_17_apply, val_main_v91_apply, val_main_v90_apply, e91,
    val_main_v94_apply, val_main_v93_apply, e94]
  rfl

/-- THE RECTIFIED NORMALISED ENTRY: stage 100 at `(b, d, u, c)`. -/
theorem v100_of (x14 x15 : (⟨S512x512x2, .f32⟩ : BufTy).Contents (Elt Ideal)) (d u : Fin 512) (c : Fin 2) :
    val_main_v100 (F := Ideal) x0 x1 x2 x3 x4 x5 x6 x10 x11 x12 x13 x14 x15 (ix4 b d u c)
      = Spec.lrelu (Spec.lnR3 z (fun d u c => x14 (ix3 d u c)) (fun d u c => x15 (ix3 d u c)) d u c) := by
  rw [val_main_v100_apply, val_main_v97_apply, val_main_v99_apply, v95_of x0 x1 x2 x3 x4 x5 x6 x10 x11 x12 x13 b z hz, val_main_v96_apply,
    val_main_cst_18_apply, val_main_v98_apply, val_main_cst_19_apply]
  exact Spec.select_cmp_eq_lrelu _

end Norm

end Cert.RefValue

end
-- ==== Proof.RefValueLn3.lean ====
/-
  The reference's fifth stretch, read at batch row `b`: the second rectified array is contracted over its last
  axis of two against a weight and shifted, and the resulting [512, 512] array (kept with a last axis of one) is
  normalised over all its 512 · 512 entries.

  The sum over the last three axes now has a last axis of size one, whose sum is its one term. The hypotheses are the
  previous stretches' readings: stage 100 reads as `l` on row `b`, and then stage 106 reads as an array `y`.
-/
import proofs.«123119_j23965917511984_2_alg».proof.Proof.RefRead
import proofs.«123119_j23965917511984_2_alg».proof.Proof.Spec
import proofs.«123119_j23965917511984_2_alg».proof.Proof.LibSum4

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

/-! ## The third contraction -/

section Mix

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x10 x11 : (⟨S512, .f32⟩ : BufTy).Contents (Elt Ideal)) (x12 x13 x14 x15 : (⟨S512x512x2, .f32⟩ : BufTy).Contents (Elt Ideal)) (b : Fin 64)
  (l : Fin 512 → Fin 512 → Fin 2 → EReal)
  (hl : ∀ (d u : Fin 512) (c : Fin 2),
    val_main_v100 (F := Ideal) x0 x1 x2 x3 x4 x5 x6 x10 x11 x12 x13 x14 x15 (ix4 b d u c) = l d u c)
include hl

/-- The contraction against the seventh argument array, shifted by the eighth. -/
theorem v106_of (x7 : (⟨S1x512x512x2, .f32⟩ : BufTy).Contents (Elt Ideal)) (x8 : (⟨S1x512x512x1, .f32⟩ : BufTy).Contents (Elt Ideal)) (d u : Fin 512) (o : Fin 1) :
    val_main_v106 (F := Ideal) x0 x1 x2 x3 x4 x5 x6 x7 x8 x10 x11 x12 x13 x14 x15 (ix4 b d u o)
      = Spec.mix l (fun d u c => x7 (ix4 (0 : Fin 1) d u c)) (fun d u => x8 (ix4 (0 : Fin 1) d u (0 : Fin 1))) d u := by
  have e104 : idx_main_v104 (ix4 b d u o) = ix3 b d u := by idx3_eq
  have e103 : ∀ k : Fin 2, idx_main_v103 (ix3 b d u) k = ix4 b d u k := fun k => by idx4_eq
  have e101 : ∀ k : Fin 2, idx_main_v101 (ix4 b d u k) = ix4 (0 : Fin 1) d u k := fun k => by idx4_eq
  have e105 : idx_main_v105 (ix4 b d u o) = ix4 (0 : Fin 1) d u (0 : Fin 1) := by idx4_eq
  rw [val_main_v106_apply, val_main_v104_apply, e104, val_main_v103_apply, val_main_cst_20_apply, val_main_v105_apply,
    e105, Fin.sum_univ_two]
  simp only [e103, val_main_v102_apply, hl, val_main_v101_apply, e101, Ideal.ofBits_def, Ideal.ofBits_zero_f32,
    zero_add]
  rfl

end Mix

/-! ## The normalisation over the 512 · 512 entries -/

section Norm

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x10 x11 : (⟨S512, .f32⟩ : BufTy).Contents (Elt Ideal))
  (x12 x13 x14 x15 : (⟨S512x512x2, .f32⟩ : BufTy).Contents (Elt Ideal)) (b : Fin 64) (y : Fin 512 → Fin 512 → EReal)
  (hy : ∀ (d u : Fin 512) (o : Fin 1),
    val_main_v106 (F := Ideal) x0 x1 x2 x3 x4 x5 x6 x7 x8 x10 x11 x12 x13 x14 x15 (ix4 b d u o) = y d u)
include hy

/-- The sum of all entries of row `b`'s array. -/
theorem v107_of : val_main_v107 (F := Ideal) x0 x1 x2 x3 x4 x5 x6 x7 x8 x10 x11 x12 x13 x14 x15 (ix1 b) = Spec.sum2 y := by
  unfold val_main_v107
  simp only [Host.reduceAdd, Ideal.hostReduceAdd_def]
  refine (LibSum4.hostReduceAdd_d123 reducesTo_S64x512x512x1_S64_d1_2_3 _ _ b).trans ?_
  rw [val_main_cst_21_apply]
  simp only [hy, Fin.sum_univ_one, Ideal.ofBits_def, Ideal.ofBits_zero_f32, zero_add]
  rfl

/-- Its mean (kept on three unit axes). -/
theorem v110_of (o1 o2 o3 : Fin 1) :
    val_main_v110 (F := Ideal) x0 x1 x2 x3 x4 x5 x6 x7 x8 x10 x11 x12 x13 x14 x15 (ix4 b o1 o2 o3) = Spec.mean2 y := by
  have e : idx_main_v108 (ix4 b o1 o2 o3) = ix1 b := by idx1_eq
  rw [val_main_v110_apply, val_main_v108_apply, e, v107_of x0 x1 x2 x3 x4 x5 x6 x7 x8 x10 x11 x12 x13 x14 x15 b y hy, val_main_v109_apply, val_main_cst_22_apply]
  rfl

/-- The centred array, as the variance reads it. -/
theorem v112_of (d u : Fin 512) (o : Fin 1) :
    val_main_v112 (F := Ideal) x0 x1 x2 x3 x4 x5 x6 x7 x8 x10 x11 x12 x13 x14 x15 (ix4 b d u o) = y d u - Spec.mean2 y := by
  have e : idx_main_v111 (ix4 b d u o) = ix4 b (0 : Fin 1) (0 : Fin 1) (0 : Fin 1) := by idx4_eq
  rw [val_main_v112_apply, hy, val_main_v111_apply, e, v110_of x0 x1 x2 x3 x4 x5 x6 x7 x8 x10 x11 x12 x13 x14 x15 b y hy]
  rfl

/-- The sum of the squared differences from the mean. -/
theorem v114_of :
    val_main_v114 (F := Ideal) x0 x1 x2 x3 x4 x5 x6 x7 x8 x10 x11 x12 x13 x14 x15 (ix1 b)
      = Spec.sum2 (fun d u => (y d u - Spec.mean2 y) * (y d u - Spec.mean2 y)) := by
  unfold val_main_v114
  simp only [Host.reduceAdd, Ideal.hostReduceAdd_def]
  refine (LibSum4.hostReduceAdd_d123 reducesTo_S64x512x512x1_S64_d1_2_3 _ _ b).trans ?_
  rw [val_main_cst_23_apply]
  simp only [val_main_v113_apply, v112_of x0 x1 x2 x3 x4 x5 x6 x7 x8 x10 x11 x12 x13 x14 x15 b y hy, Fin.sum_univ_one, Ideal.ofBits_def, Ideal.ofBits_zero_f32,
    zero_add]
  rfl

/-- The variance. -/
theorem v117_of (o1 o2 o3 : Fin 1) :
    val_main_v117 (F := Ideal) x0 x1 x2 x3 x4 x5 x6 x7 x8 x10 x11 x12 x13 x14 x15 (ix4 b o1 o2 o3) = Spec.varR2 y := by
  have e : idx_main_v115 (ix4 b o1 o2 o3) = ix1 b := by idx1_eq
  rw [val_main_v117_apply, val_main_v115_apply, e, v114_of x0 x1 x2 x3 x4 x5 x6 x7 x8 x10 x11 x12 x13 x14 x15 b y hy, val_main_v116_apply, val_main_cst_24_apply]
  rfl

/-- THE NORMALISED ENTRY, scaled and shifted by the last parameter pair: stage 130 at `(b, d, u)`. -/
theorem v130_of (x16 x17 : (⟨S512x512x1, .f32⟩ : BufTy).Contents (Elt Ideal)) (d u : Fin 512) (o : Fin 1) :
    val_main_v130 (F := Ideal) x0 x1 x2 x3 x4 x5 x6 x7 x8 x10 x11 x12 x13 x14 x15 x16 x17 (ix4 b d u o)
      = Spec.lnR2 y (fun d u => x16 (ix3 d u (0 : Fin 1))) (fun d u => x17 (ix3 d u (0 : Fin 1))) d u := by
  have e118 : idx_main_v118 (ix4 b d u o) = ix4 b (0 : Fin 1) (0 : Fin 1) (0 : Fin 1) := by idx4_eq
  have e123 : idx_main_v123 (ix4 b d u o) = ix4 b (0 : Fin 1) (0 : Fin 1) (0 : Fin 1) := by idx4_eq
  have e126 : idx_main_v125 (idx_main_v126 (ix4 b d u o)) = ix3 d u (0 : Fin 1) := by idx3_eq
  have e129 : idx_main_v128 (idx_main_v129 (ix4 b d u o)) = ix3 d u (0 : Fin 1) := by idx3_eq
  rw [val_main_v130_apply, val_main_v127_apply, val_main_v124_apply, val_main_v119_apply, hy, val_main_v118_apply,
    e118, v110_of x0 x1 x2 x3 x4 x5 x6 x7 x8 x10 x11 x12 x13 x14 x15 b y hy, val_main_v123_apply, e123, val_main_v122_apply, val_main_v121_apply,
    v117_of x0 x1 x2 x3 x4 x5 x6 x7 x8 x10 x11 x12 x13 x14 x15 b y hy, val_main_v120_apply, val_main_cst_25_apply, val_main_v126_apply, val_main_v125_apply, e126,
    val_main_v129_apply, val_main_v128_apply, e129]
  rfl

end Norm

end Cert.RefValue

end
-- ==== Proof.RefValueTail.lean ====
/-
  The reference's last stretch, read at batch row `b`: the normalised [512, 512] array has the normalised input
  row added along its first axis, is summed over that axis, shifted by the bias, rectified, and the trailing axis of
  one is dropped.

  The hypotheses are the earlier stretches' readings: stage 130 reads as an array `q` on row `b`, and stage 23 reads
  as the normalised row `a`. The reshape from [64, 512, 1] to [64, 512] reads entry (b, u) at (b, u, 0): the flat
  position b · 512 + u has quotient b and remainder u by 512.
-/
import proofs.«123119_j23965917511984_2_alg».proof.Proof.RefRead
import proofs.«123119_j23965917511984_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- Two indices of rank one are equal when their coordinates are. -/
local macro "idx1_eq" : tactic =>
  `(tactic| exact funext fun a => Fin.ext (by match a with | ⟨0, _⟩ => rfl))
/-- The same at rank two … -/
local macro "idx2_eq" : tactic =>
  `(tactic| exact funext fun a => Fin.ext (by match a with | ⟨0, _⟩ => rfl | ⟨1, _⟩ => rfl))
/-- … three … -/
local macro "idx3_eq" : tactic =>
  `(tactic| exact funext fun a => Fin.ext (by match a with | ⟨0, _⟩ => rfl | ⟨1, _⟩ => rfl | ⟨2, _⟩ => rfl))
/-- … and four. -/
local macro "idx4_eq" : tactic =>
  `(tactic| exact funext fun a => Fin.ext (by match a with | ⟨0, _⟩ => rfl | ⟨1, _⟩ => rfl | ⟨2, _⟩ => rfl | ⟨3, _⟩ => rfl))

section Tail

variable (x0 : (⟨S64x512, .f32⟩ : BufTy).Contents (Elt Ideal)) (x1 x2 x3 x4 : (⟨S1x512x512x2, .f32⟩ : BufTy).Contents (Elt Ideal)) (x5 x6 : (⟨S1x512x512x1, .f32⟩ : BufTy).Contents (Elt Ideal)) (x7 : (⟨S1x512x512x2, .f32⟩ : BufTy).Contents (Elt Ideal)) (x8 : (⟨S1x512x512x1, .f32⟩ : BufTy).Contents (Elt Ideal)) (x10 x11 : (⟨S512, .f32⟩ : BufTy).Contents (Elt Ideal))
  (x12 x13 x14 x15 : (⟨S512x512x2, .f32⟩ : BufTy).Contents (Elt Ideal)) (x16 x17 : (⟨S512x512x1, .f32⟩ : BufTy).Contents (Elt Ideal)) (b : Fin 64) (q : Fin 512 → Fin 512 → EReal) (a : Fin 512 → EReal)
  (hq : ∀ (d u : Fin 512) (o : Fin 1),
    val_main_v130 (F := Ideal) x0 x1 x2 x3 x4 x5 x6 x7 x8 x10 x11 x12 x13 x14 x15 x16 x17 (ix4 b d u o) = q d u)
  (ha : ∀ d : Fin 512, val_main_v23 (F := Ideal) x0 x10 x11 (ix2 b d) = a d)
include hq ha

/-- The normalised array plus the normalised input row along the first axis. -/
theorem v132_of (d u : Fin 512) (o : Fin 1) :
    val_main_v132 (F := Ideal) x0 x1 x2 x3 x4 x5 x6 x7 x8 x10 x11 x12 x13 x14 x15 x16 x17 (ix4 b d u o) = q d u + a d := by
  have e131 : idx_main_v24 (idx_main_v131 (ix4 b d u o)) = ix2 b d := by idx2_eq
  rw [val_main_v132_apply, hq, val_main_v131_apply, val_main_v24_apply, e131, ha]
  rfl

/-- Summed over the first axis and shifted by the bias. -/
theorem v137_of (x9 : (⟨S512, .f32⟩ : BufTy).Contents (Elt Ideal)) (u : Fin 512) (o : Fin 1) :
    val_main_v137 (F := Ideal) x0 x1 x2 x3 x4 x5 x6 x7 x8 x9 x10 x11 x12 x13 x14 x15 x16 x17 (ix3 b u o) = (∑ d : Fin 512, (q d u + a d)) + x9 (ix1 u) := by
  have e133 : ∀ k : Fin 512, idx_main_v133 (ix3 b u o) k = ix4 b k u o := fun k => by idx4_eq
  have e136 : idx_main_v134 (idx_main_v135 (idx_main_v136 (ix3 b u o))) = ix1 u := by idx1_eq
  rw [val_main_v137_apply, val_main_v133_apply, val_main_cst_26_apply, val_main_v136_apply, val_main_v135_apply,
    val_main_v134_apply, e136]
  simp only [e133, v132_of x0 x1 x2 x3 x4 x5 x6 x7 x8 x10 x11 x12 x13 x14 x15 x16 x17 b q a hq ha, Ideal.ofBits_def, Ideal.ofBits_zero_f32, zero_add]
  rfl

/-- Rectified. -/
theorem v142_of (x9 : (⟨S512, .f32⟩ : BufTy).Contents (Elt Ideal)) (u : Fin 512) (o : Fin 1) :
    val_main_v142 (F := Ideal) x0 x1 x2 x3 x4 x5 x6 x7 x8 x9 x10 x11 x12 x13 x14 x15 x16 x17 (ix3 b u o)
      = Spec.lrelu ((∑ d : Fin 512, (q d u + a d)) + x9 (ix1 u)) := by
  rw [val_main_v142_apply, val_main_v139_apply, val_main_v141_apply, v137_of x0 x1 x2 x3 x4 x5 x6 x7 x8 x10 x11 x12 x13 x14 x15 x16 x17 b q a hq ha, val_main_v138_apply,
    val_main_cst_27_apply, val_main_v140_apply, val_main_cst_28_apply]
  exact Spec.select_cmp_eq_lrelu _

/-- THE LAST STAGE at `(b, u)`: the trailing axis of one dropped. -/
theorem v143_of (x9 : (⟨S512, .f32⟩ : BufTy).Contents (Elt Ideal)) (u : Fin 512) :
    val_main_v143 (F := Ideal) x0 x1 x2 x3 x4 x5 x6 x7 x8 x9 x10 x11 x12 x13 x14 x15 x16 x17 (ix2 b u)
      = Spec.lrelu ((∑ d : Fin 512, (q d u + a d)) + x9 (ix1 u)) := by
  have e143 : idx_main_v143 (ix2 b u) = ix3 b u (0 : Fin 1) := funext fun i => Fin.ext (by
    have hb : b.val < 64 := b.isLt
    have hu : u.val < 512 := u.isLt
    match i with
    | ⟨0, _⟩ => show (b.val * 512 + u.val) / 512 = b.val; omega
    | ⟨1, _⟩ => show (b.val * 512 + u.val) / 1 % 512 = u.val; omega
    | ⟨2, _⟩ => rfl)
  rw [val_main_v143_apply, e143, v142_of x0 x1 x2 x3 x4 x5 x6 x7 x8 x10 x11 x12 x13 x14 x15 x16 x17 b q a hq ha]

end Tail

end Cert.RefValue

end
-- ==== Proof.RefValue.lean ====
/-
  The reference's last stage, read entry by entry at the ideal values, is the specification's result array: stage by stage
  each host operation is read at an index (a broadcast repeats, a sum over an axis is the sum over that coordinate, a join
  along the last axis picks by that coordinate), and the sums are brought to the specification's nesting.
-/
import proofs.«123119_j23965917511984_2_alg».proof.Proof.RefRead
import proofs.«123119_j23965917511984_2_alg».proof.Proof.Spec
import proofs.«123119_j23965917511984_2_alg».proof.Proof.RefValueNorm0
import proofs.«123119_j23965917511984_2_alg».proof.Proof.RefValueLn1
import proofs.«123119_j23965917511984_2_alg».proof.Proof.RefValueMix
import proofs.«123119_j23965917511984_2_alg».proof.Proof.RefValueLn2
import proofs.«123119_j23965917511984_2_alg».proof.Proof.RefValueLn3
import proofs.«123119_j23965917511984_2_alg».proof.Proof.RefValueTail

noncomputable section

open scoped BigOperators

namespace Cert.RefValue

open Cert.ReferenceIdeal Cert.ReferenceIdeal.Read Idealize.ShloMosaic Idealize.ShloMosaic.ValueIdx

theorem ref_eq_out (x0 : (⟨S64x512, .f32⟩ : BufTy).Contents (Elt Ideal))
    (x1 x2 x3 x4 : (⟨S1x512x512x2, .f32⟩ : BufTy).Contents (Elt Ideal)) (x5 x6 : (⟨S1x512x512x1, .f32⟩ : BufTy).Contents (Elt Ideal))
    (x7 : (⟨S1x512x512x2, .f32⟩ : BufTy).Contents (Elt Ideal)) (x8 : (⟨S1x512x512x1, .f32⟩ : BufTy).Contents (Elt Ideal))
    (x9 x10 x11 : (⟨S512, .f32⟩ : BufTy).Contents (Elt Ideal))
    (x12 x13 x14 x15 : (⟨S512x512x2, .f32⟩ : BufTy).Contents (Elt Ideal)) (x16 x17 : (⟨S512x512x1, .f32⟩ : BufTy).Contents (Elt Ideal)) :
    val_main_v143 (F := Ideal) x0 x1 x2 x3 x4 x5 x6 x7 x8 x9 x10 x11 x12 x13 x14 x15 x16 x17 = Cert.Spec.out x0 x1 x2 x3 x4 x5 x6 x7 x8 x9 x10 x11 x12 x13 x14 x15 x16 x17 := by
  funext j
  obtain ⟨b, u, rfl⟩ : ∃ (b : Fin 64) (u : Fin 512), j = ix2 b u := ⟨j 0, j 1, eq_ix2 j⟩
  -- the specification's result at (b, u): the row function of the parameters at the normalised row b, at u
  show _ = Spec.rowR (Spec.prm x1 x2 x3 x4 x5 x6 x7 x8 x9 x12 x13 x14 x15 x16 x17)
    (Spec.xnRow (fun d => x0 (ix2 b d)) (fun d => x10 (ix1 d)) (fun d => x11 (ix1 d))) u
  -- the stages' readings on row b, in the order of the program: each is the next array of the specification
  have h23 := v23_at x0 b x10 x11
  have h29 := v29_of x0 x1 x2 x10 x11 b _ h23
  have h58 := fun d u c => v58_of x0 x1 x2 x10 x11 b _ h29 x12 x13 d u c
  have h71 := fun d u c => v71_of x0 x1 x2 x10 x11 x12 x13 b _ h58 x3 x4 x5 x6 d u c
  have h100 := fun d u c => v100_of x0 x1 x2 x3 x4 x5 x6 x10 x11 x12 x13 b _ h71 x14 x15 d u c
  have h106 := fun d u o => v106_of x0 x1 x2 x3 x4 x5 x6 x10 x11 x12 x13 x14 x15 b _ h100 x7 x8 d u o
  have h130 := fun d u o => v130_of x0 x1 x2 x3 x4 x5 x6 x7 x8 x10 x11 x12 x13 x14 x15 b _ h106 x16 x17 d u o
  exact v143_of x0 x1 x2 x3 x4 x5 x6 x7 x8 x10 x11 x12 x13 x14 x15 x16 x17 b _ _ h130 h23 x9 u

end Cert.RefValue

end
-- ==== Proof.Finite.lean ====
/-
  The precondition says every entry of every argument array is finite: its absolute value is below the infinity pattern.
  On the extended reals that is: the entry is a real number.
-/
import proofs.«123119_j23965917511984_2_alg».proof.Defs
import proofs.«123119_j23965917511984_2_alg».proof.Proof.Gen.Pre_finite_inputs
import proofs.«123119_j23965917511984_2_alg».proof.Proof.Spec
import Idealize.ShloMosaic.Lib.ReduceAll
import Idealize.ShloMosaic.Lib.ValueIdx

noncomputable section

namespace Cert.Finite

open Idealize.ShloMosaic Idealize.SL.Sem

/-- The rank-0 shape has exactly one index: there is no axis to give a coordinate on. -/
local instance subsingleton_scalarIdx : Subsingleton Cert.Pre_finite_inputs.S_.Idx :=
  ⟨fun a b => funext fun d => d.elim0⟩

/-- The pattern the entries are compared against denotes `+∞`. -/
theorem posInf_eq_top : Ideal.ofBits .f32 0x7F800000#32 = (⊤ : EReal) := by
  simp [Ideal.ofBits, Ideal.ieee]

/-- One entry. `|x| = max x (-x)`, and `|x| < ⊤` fails at both infinities: at `⊤` the maximum is `⊤`,
    at `⊥` it is `-⊥ = ⊤`. What is left of an extended real is a real number. -/
theorem isReal_of_abs_lt (x : EReal)
    (h : Ideal.cmp .olt (max x (-x)) (Ideal.ofBits .f32 0x7F800000#32) = 1#1) : Cert.Spec.IsReal x := by
  rw [posInf_eq_top] at h
  induction x using EReal.rec with
  | bot => simp [Ideal.cmp] at h
  | top => simp [Ideal.cmp] at h
  | coe r => exact ⟨r, rfl⟩

/-- One argument, of any shape `s`. Its conjunct of the predicate is the conjunction, over all indices, of
    `|x i| < +∞` (the infinity broadcast from a scalar), reduced to one word; that word being 1 makes every
    comparison 1, so every entry is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant Cert.Pre_finite_inputs.S_ .f32 0x7F800000#32)))
          init hr hu j = 1#1) :
    Cert.Spec.AllReal x :=
  fun i => isReal_of_abs_lt (x i) (Host.reduce_andi_all _ init hr hu j e i)

theorem allReal_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal (m ((c.tc : Thread Cert.KernelIdeal.nD Cert.KernelIdeal.τ).loc Cert.KernelIdeal.main_arg0))
      ∧ Cert.Spec.AllReal (m ((c.tc : Thread Cert.KernelIdeal.nD Cert.KernelIdeal.τ).loc Cert.KernelIdeal.main_arg1))
      ∧ Cert.Spec.AllReal (m ((c.tc : Thread Cert.KernelIdeal.nD Cert.KernelIdeal.τ).loc Cert.KernelIdeal.main_arg2))
      ∧ Cert.Spec.AllReal (m ((c.tc : Thread Cert.KernelIdeal.nD Cert.KernelIdeal.τ).loc Cert.KernelIdeal.main_arg3))
      ∧ Cert.Spec.AllReal (m ((c.tc : Thread Cert.KernelIdeal.nD Cert.KernelIdeal.τ).loc Cert.KernelIdeal.main_arg4))
      ∧ Cert.Spec.AllReal (m ((c.tc : Thread Cert.KernelIdeal.nD Cert.KernelIdeal.τ).loc Cert.KernelIdeal.main_arg5))
      ∧ Cert.Spec.AllReal (m ((c.tc : Thread Cert.KernelIdeal.nD Cert.KernelIdeal.τ).loc Cert.KernelIdeal.main_arg6))
      ∧ Cert.Spec.AllReal (m ((c.tc : Thread Cert.KernelIdeal.nD Cert.KernelIdeal.τ).loc Cert.KernelIdeal.main_arg7))
      ∧ Cert.Spec.AllReal (m ((c.tc : Thread Cert.KernelIdeal.nD Cert.KernelIdeal.τ).loc Cert.KernelIdeal.main_arg8))
      ∧ Cert.Spec.AllReal (m ((c.tc : Thread Cert.KernelIdeal.nD Cert.KernelIdeal.τ).loc Cert.KernelIdeal.main_arg9))
      ∧ Cert.Spec.AllReal (m ((c.tc : Thread Cert.KernelIdeal.nD Cert.KernelIdeal.τ).loc Cert.KernelIdeal.main_arg10))
      ∧ Cert.Spec.AllReal (m ((c.tc : Thread Cert.KernelIdeal.nD Cert.KernelIdeal.τ).loc Cert.KernelIdeal.main_arg11))
      ∧ Cert.Spec.AllReal (m ((c.tc : Thread Cert.KernelIdeal.nD Cert.KernelIdeal.τ).loc Cert.KernelIdeal.main_arg12))
      ∧ Cert.Spec.AllReal (m ((c.tc : Thread Cert.KernelIdeal.nD Cert.KernelIdeal.τ).loc Cert.KernelIdeal.main_arg13))
      ∧ Cert.Spec.AllReal (m ((c.tc : Thread Cert.KernelIdeal.nD Cert.KernelIdeal.τ).loc Cert.KernelIdeal.main_arg14))
      ∧ Cert.Spec.AllReal (m ((c.tc : Thread Cert.KernelIdeal.nD Cert.KernelIdeal.τ).loc Cert.KernelIdeal.main_arg15))
      ∧ Cert.Spec.AllReal (m ((c.tc : Thread Cert.KernelIdeal.nD Cert.KernelIdeal.τ).loc Cert.KernelIdeal.main_arg16))
      ∧ Cert.Spec.AllReal (m ((c.tc : Thread Cert.KernelIdeal.nD Cert.KernelIdeal.τ).loc Cert.KernelIdeal.main_arg17)) := by
  -- the predicate's one word, on device `c`
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- it is a left-nested conjunction of 18 words, one per argument: peel them off from the last to the first
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨allReal_of_all _ _ _ _ _ _ h0,
    allReal_of_all _ _ _ _ _ _ h1,
    allReal_of_all _ _ _ _ _ _ h2,
    allReal_of_all _ _ _ _ _ _ h3,
    allReal_of_all _ _ _ _ _ _ h4,
    allReal_of_all _ _ _ _ _ _ h5,
    allReal_of_all _ _ _ _ _ _ h6,
    allReal_of_all _ _ _ _ _ _ h7,
    allReal_of_all _ _ _ _ _ _ h8,
    allReal_of_all _ _ _ _ _ _ h9,
    allReal_of_all _ _ _ _ _ _ h10,
    allReal_of_all _ _ _ _ _ _ h11,
    allReal_of_all _ _ _ _ _ _ h12,
    allReal_of_all _ _ _ _ _ _ h13,
    allReal_of_all _ _ _ _ _ _ h14,
    allReal_of_all _ _ _ _ _ _ h15,
    allReal_of_all _ _ _ _ _ _ h16,
    allReal_of_all _ _ _ _ _ _ h17⟩

end Cert.Finite

end
-- ==== Proof.lean ====
/-
  The kernel and the reference compute, for each of the 64 batch rows, the same function of that row and the parameters:
  the row is normalised over its 512 entries; spread against a [512, 512, 2] weight, normalised over all entries and
  rectified; contracted twice over the last axis, joined, normalised and rectified again; contracted once more,
  normalised a third time, added to the normalised row, summed over the first axis, shifted and rectified. The reference
  does this on whole [64, 512, 512, 2] arrays with two-pass variances; the kernel does it eight rows per grid point, one row
  per trip of a loop over a scratch tile, with the variance as the mean of squares less the squared mean and the mean folded
  into the shift. On finite inputs every intermediate value is a real number (each variance is a mean of squares, so the
  constant added to it keeps the reciprocal square root real), and on real numbers the two arrangements agree.

  The pieces: `Spec` states the row function in both arrangements; `Algebra` proves they agree on reals; `Finite` reads
  the precondition as 'every argument entry is real'; `RefRun` and `RefValue` run the reference and read its result entry by
  entry; `KerPayA`, `KerPayB` read one trip of the kernel's loop, `KerTrip`, `KerPieces`, `KerBlock`, `KerBody` turn the
  eight stored rows into one block function, `KerHost` reads the staged operands, and `KerValue` goes from the blocks to the
  result array. Both frames of the kernel are the generated frame certificates; the reference's frame is its run.
-/
import proofs.«123119_j23965917511984_2_alg».proof.Defs
import proofs.«123119_j23965917511984_2_alg».proof.Proof.Gen.Kernel
import proofs.«123119_j23965917511984_2_alg».proof.Proof.KFrame
import proofs.«123119_j23965917511984_2_alg».proof.Proof.Gen.KernelIdeal
import proofs.«123119_j23965917511984_2_alg».proof.Proof.KIFrame
import proofs.«123119_j23965917511984_2_alg».proof.Proof.Gen.ReferenceIdeal
import proofs.«123119_j23965917511984_2_alg».proof.Proof.Gen.Pre_finite_inputs
import proofs.«123119_j23965917511984_2_alg».proof.Proof.KerValue
import proofs.«123119_j23965917511984_2_alg».proof.Proof.RefRun
import proofs.«123119_j23965917511984_2_alg».proof.Proof.RefValue
import proofs.«123119_j23965917511984_2_alg».proof.Proof.Finite
import Idealize.ShloMosaic.Adequacy
import Idealize.ShloMosaic.Init

noncomputable section

namespace Cert.Proof

open Idealize.ShloMosaic Idealize.SL.Sem

/-- Both idealized programs end with the specification's result array of the (agreeing) arguments. -/
theorem algebraic : Cert.algebraic_KernelIdeal_ReferenceIdeal := by
  intro m ρ m' ρ' hpre hagree
  refine ⟨fun c => Cert.KerValue.G m c, Cert.KerValue.run m ρ (fun c => Cert.Finite.allReal_of_pre m hpre c), ?_⟩
  refine (θ_run Cert.ReferenceIdeal.defs _ _).mono (fun _ h c => ⟨(h c).1.trans ?_, (h c).2⟩)
    (Cert.RefRun.run (F := Ideal) m' ρ')
  rw [Cert.RefValue.ref_eq_out]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.RefRun.run (F := Ideal) m ρ),
    trivial,
    algebraic⟩

end Cert.Proof

end
